-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S4x64x64 : Shape := ⟨3, ![4, 64, 64]⟩
abbrev S64 : Shape := ⟨1, ![64]⟩
abbrev S1 : Shape := ⟨1, ![1]⟩
abbrev S64x1 : Shape := ⟨2, ![64, 1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S1 .f32) (main_arg8 : FVec F S1 .f32) (main_arg9 : FVec F S64x1 .f32) (main_arg10 : FVec F S1 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S2x800000 32) (main_arg2 : IVec S50000 32) (main_arg3 : FVec F S4x64x64 .f32) (main_arg4 : FVec F S64 .f32) (main_arg5 : FVec F S4x64x64 .f32) (main_arg6 : FVec F S64 .f32) (main_arg7 : FVec F S1 .f32) (main_arg8 : FVec F S1 .f32) (main_arg9 : FVec F S64x1 .f32) (main_arg10 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S4x64x64 .f32 := Host.absf main_arg3
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x64 .f32 := Host.absf main_arg5
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S4x64x64 : Shape := ⟨3, ![4, 64, 64]⟩
abbrev S64 : Shape := ⟨1, ![64]⟩
abbrev S1 : Shape := ⟨1, ![1]⟩
abbrev S64x1 : Shape := ⟨2, ![64, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x50000x64 : Shape := ⟨3, ![1, 50000, 64]⟩
abbrev S4x50000x64 : Shape := ⟨3, ![4, 50000, 64]⟩
abbrev S1x64 : Shape := ⟨2, ![1, 64]⟩
abbrev S1x1 : Shape := ⟨2, ![1, 1]⟩
abbrev S4x5000x64 : Shape := ⟨3, ![4, 5000, 64]⟩
abbrev S5000x64 : Shape := ⟨2, ![5000, 64]⟩
abbrev S1x5000x64 : Shape := ⟨3, ![1, 5000, 64]⟩
abbrev S1x64x64 : Shape := ⟨3, ![1, 64, 64]⟩
abbrev S64x64 : Shape := ⟨2, ![64, 64]⟩
abbrev S50000x1 : Shape := ⟨2, ![50000, 1]⟩
abbrev S128x1 : Shape := ⟨2, ![128, 1]⟩
abbrev S5000x1 : Shape := ⟨2, ![5000, 1]⟩
abbrev S128x64 : Shape := ⟨2, ![128, 64]⟩
abbrev S5000x128 : Shape := ⟨2, ![5000, 128]⟩

abbrev nBuf : Space → Nat
  | .hbm => 170
  | .vmem => 22
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S4x64x64, .f32⟩
  | 4 => ⟨S64, .f32⟩
  | 5 => ⟨S4x64x64, .f32⟩
  | 6 => ⟨S64, .f32⟩
  | 7 => ⟨S1, .f32⟩
  | 8 => ⟨S1, .f32⟩
  | 9 => ⟨S64x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S50000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S_, .f32⟩
  | 26 => ⟨S800000, .f32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S800000x1, .f32⟩
  | 65 => ⟨S800000x64, .f32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S800000x1, .f32⟩
  | 81 => ⟨S800000x64, .f32⟩
  | 82 => ⟨S800000x64, .f32⟩
  | 83 => ⟨S_, .f32⟩
  | 84 => ⟨S50000x64, .f32⟩
  | 85 => ⟨S800000x1, .i32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S800000x1, .f32⟩
  | 97 => ⟨S800000x64, .f32⟩
  | 98 => ⟨S800000x64, .f32⟩
  | 99 => ⟨S_, .f32⟩
  | 100 => ⟨S50000x64, .f32⟩
  | 101 => ⟨S800000x1, .i32⟩
  | 102 => ⟨S50000x64, .f32⟩
  | 103 => ⟨S1x50000x64, .f32⟩
  | 104 => ⟨S1x50000x64, .f32⟩
  | 105 => ⟨S1x50000x64, .f32⟩
  | 106 => ⟨S1x50000x64, .f32⟩
  | 107 => ⟨S4x50000x64, .f32⟩
  | 108 => ⟨S1x64, .f32⟩
  | 109 => ⟨S1x1, .f32⟩
  | 110 => ⟨S50000x64, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S800000x1, .f32⟩
  | 121 => ⟨S800000x64, .f32⟩
  | 122 => ⟨S800000x64, .f32⟩
  | 123 => ⟨S_, .f32⟩
  | 124 => ⟨S50000x64, .f32⟩
  | 125 => ⟨S800000x1, .i32⟩
  | 126 => ⟨S50000x64, .f32⟩
  | 127 => ⟨S_, .i32⟩
  | _ => ⟨S50000x64, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x64, .f32⟩
  | 8 => ⟨S800000x1, .f32⟩
  | 9 => ⟨S800000x64, .f32⟩
  | 10 => ⟨S800000x64, .f32⟩
  | 11 => ⟨S_, .f32⟩
  | 12 => ⟨S50000x64, .f32⟩
  | 13 => ⟨S800000x1, .i32⟩
  | 14 => ⟨S50000x64, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S800000x1, .f32⟩
  | 25 => ⟨S800000x64, .f32⟩
  | 26 => ⟨S800000x64, .f32⟩
  | 27 => ⟨S_, .f32⟩
  | 28 => ⟨S50000x64, .f32⟩
  | 29 => ⟨S800000x1, .i32⟩
  | 30 => ⟨S50000x64, .f32⟩
  | 31 => ⟨S1x50000x64, .f32⟩
  | 32 => ⟨S1x50000x64, .f32⟩
  | 33 => ⟨S1x50000x64, .f32⟩
  | 34 => ⟨S1x50000x64, .f32⟩
  | 35 => ⟨S4x50000x64, .f32⟩
  | 36 => ⟨S1x64, .f32⟩
  | 37 => ⟨S1x1, .f32⟩
  | 38 => ⟨S50000x64, .f32⟩
  | 39 => ⟨S50000x1, .i32⟩
  | 40 => ⟨S1x1, .f32⟩
  | 41 => ⟨S128x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4x5000x64, .f32⟩
  | .local _ .vmem, ⟨1, _⟩ => ⟨S4x5000x64, .f32⟩
  | .local _ .vmem, ⟨2, _⟩ => ⟨S4x64x64, .f32⟩
  | .local _ .vmem, ⟨3, _⟩ => ⟨S1x64, .f32⟩
  | .local _ .vmem, ⟨4, _⟩ => ⟨S1x1, .f32⟩
  | .local _ .vmem, ⟨5, _⟩ => ⟨S5000x64, .f32⟩
  | .local _ .vmem, ⟨6, _⟩ => ⟨S5000x64, .f32⟩
  | .local _ .vmem, ⟨7, _⟩ => ⟨S4x5000x64, .f32⟩
  | .local _ .vmem, ⟨8, _⟩ => ⟨S4x5000x64, .f32⟩
  | .local _ .vmem, ⟨9, _⟩ => ⟨S4x64x64, .f32⟩
  | .local _ .vmem, ⟨10, _⟩ => ⟨S1x64, .f32⟩
  | .local _ .vmem, ⟨11, _⟩ => ⟨S1x1, .f32⟩
  | .local _ .vmem, ⟨12, _⟩ => ⟨S5000x64, .f32⟩
  | .local _ .vmem, ⟨13, _⟩ => ⟨S5000x64, .f32⟩
  | .local _ .vmem, ⟨14, _⟩ => ⟨S5000x1, .i32⟩
  | .local _ .vmem, ⟨15, _⟩ => ⟨S5000x1, .i32⟩
  | .local _ .vmem, ⟨16, _⟩ => ⟨S5000x64, .f32⟩
  | .local _ .vmem, ⟨17, _⟩ => ⟨S5000x64, .f32⟩
  | .local _ .vmem, ⟨18, _⟩ => ⟨S64x1, .f32⟩
  | .local _ .vmem, ⟨19, _⟩ => ⟨S1x1, .f32⟩
  | .local _ .vmem, ⟨20, _⟩ => ⟨S128x1, .f32⟩
  | .local _ .vmem, ⟨21, _⟩ => ⟨S128x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_c_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_c_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_c_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_10 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_13 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_14 : Ref sig .tc := ⟨.hbm, 87, rfl⟩
abbrev main_v58 : Ref sig .tc := ⟨.hbm, 88, rfl⟩
abbrev main_v59 : Ref sig .tc := ⟨.hbm, 89, rfl⟩
abbrev main_c_15 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_20 : Ref sig .tc := ⟨.hbm, 127, rfl⟩
abbrev main_v92 : Ref sig .tc := ⟨.hbm, 128, rfl⟩
abbrev main_v93 : Ref sig .tc := ⟨.hbm, 129, rfl⟩
abbrev main_c_21 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_22 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_c_23 : Ref sig .tc := ⟨.hbm, 143, rfl⟩
abbrev main_v105 : Ref sig .tc := ⟨.hbm, 144, rfl⟩
abbrev main_v106 : Ref sig .tc := ⟨.hbm, 145, rfl⟩
abbrev main_c_24 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_25 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x64_S1x50000x64_1_2 : S50000x64.BroadcastsInDim S1x50000x64 (![1, 2] : Fin 2 → Fin S1x50000x64.rank)
  concatenates_S1x50000x64_S1x50000x64_S1x50000x64_S1x50000x64_S4x50000x64_d0 : Shape.Concatenates [S1x50000x64, S1x50000x64, S1x50000x64, S1x50000x64] S4x50000x64 0
  shapeCasts_S64_S1x64 : S64.ShapeCasts S1x64
  shapeCasts_S1_S1x1 : S1.ShapeCasts S1x1
  inb_S4x5000x64_S1x5000x64_0_0_0 : ∀ a, (![0, 0, 0] : Fin 3 → Nat) a + S1x5000x64.size a ≤ S4x5000x64.size a
  h_S1x5000x64 : 0 < S1x5000x64.numel
  shapeCasts_S1x5000x64_S5000x64 : S1x5000x64.ShapeCasts S5000x64
  bitsLt_bf16_f32 : FTy.bits .bf16 < FTy.bits .f32
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  inb_S4x5000x64_S1x5000x64_1_0_0 : ∀ a, (![1, 0, 0] : Fin 3 → Nat) a + S1x5000x64.size a ≤ S4x5000x64.size a
  inb_S4x64x64_S1x64x64_1_0_0 : ∀ a, (![1, 0, 0] : Fin 3 → Nat) a + S1x64x64.size a ≤ S4x64x64.size a
  inb_S4x5000x64_S1x5000x64_2_0_0 : ∀ a, (![2, 0, 0] : Fin 3 → Nat) a + S1x5000x64.size a ≤ S4x5000x64.size a
  inb_S4x64x64_S1x64x64_2_0_0 : ∀ a, (![2, 0, 0] : Fin 3 → Nat) a + S1x64x64.size a ≤ S4x64x64.size a
  inb_S4x5000x64_S1x5000x64_3_0_0 : ∀ a, (![3, 0, 0] : Fin 3 → Nat) a + S1x5000x64.size a ≤ S4x5000x64.size a
  inb_S4x64x64_S1x64x64_3_0_0 : ∀ a, (![3, 0, 0] : Fin 3 → Nat) a + S1x64x64.size a ≤ S4x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x64 : S1x1.Broadcasts S5000x64
  inb_S5000x64_S5000x64_0_0 : ∀ a, (![0, 0] : Fin 2 → Nat) a + S5000x64.size a ≤ S5000x64.size a
  h_S5000x64 : 0 < S5000x64.numel
  shapeCasts_S50000_S50000x1 : S50000.ShapeCasts S50000x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  iota_S5000x128_d1_w32 : S5000x128.Iotas .tc 32 [1]
  broadcasts_S5000x1_S5000x128 : S5000x1.Broadcasts S5000x128
  natLt_1_32 : 1 < 32
  inb_S64x1_S64x1_0_0 : ∀ a, (![0, 0] : Fin 2 → Nat) a + S64x1.size a ≤ S64x1.size a
  h_S64x1 : 0 < S64x1.numel
  broadcasts_S1x1_S128x1 : S1x1.Broadcasts S128x1
  inb_S128x1_S128x1_0_0 : ∀ a, (![0, 0] : Fin 2 → Nat) a + S128x1.size a ≤ S128x1.size a
  h_S128x1 : 0 < S128x1.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  dot_S128x64_S64x1_S128x1_1_0_0_1_n_n_wf : DotDims.WF S128x64 S64x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x5000x64.size a ≤ S4x50000x64.size a
  hwx0_0 : ∀ i : grid0.Coords, EltTy.bits .f32 = 32 ∨ (Rect.block (s := S4x50000x64) S4x5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64x64.size a ≤ S4x64x64.size a
  hwx0_1 : ∀ i : grid0.Coords, EltTy.bits .f32 = 32 ∨ (Rect.block (s := S4x64x64) S4x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x5000x64.size a ≤ S4x50000x64.size a
  hwx1_0 : ∀ i : grid1.Coords, EltTy.bits .f32 = 32 ∨ (Rect.block (s := S4x50000x64) S4x5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x64x64.size a ≤ S4x64x64.size a
  hwx1_1 : ∀ i : grid1.Coords, EltTy.bits .f32 = 32 ∨ (Rect.block (s := S4x64x64) S4x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x1.size a ≤ S50000x1.size a
  hwx2_0 : ∀ i : grid2.Coords, EltTy.bits .i32 = 32 ∨ (Rect.block (s := S50000x1) S5000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

abbrev win0_0 : Pipeline.Window sig grid0 :=
  Pipeline.Window.ofSpec (Memref.whole main_v75) S4x5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v76) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v77) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v78) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v122) S4x5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S4x64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v123) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v124) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v125) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v126) S5000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v125) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v127) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v128) S128x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S4x64x64 : Shape := ⟨3, ![4, 64, 64]⟩
abbrev S64 : Shape := ⟨1, ![64]⟩
abbrev S1 : Shape := ⟨1, ![1]⟩
abbrev S64x1 : Shape := ⟨2, ![64, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x64x64 : Shape := ⟨3, ![1, 64, 64]⟩
abbrev S64x64 : Shape := ⟨2, ![64, 64]⟩
abbrev S800000x64 : Shape := ⟨2, ![800000, 64]⟩
abbrev S1x64 : Shape := ⟨2, ![1, 64]⟩
abbrev S1x1 : Shape := ⟨2, ![1, 1]⟩
abbrev S128x64 : Shape := ⟨2, ![128, 64]⟩
abbrev S50000x1 : Shape := ⟨2, ![50000, 1]⟩
abbrev S128x1 : Shape := ⟨2, ![128, 1]⟩

abbrev nBuf : Space → Nat
  | .hbm => 209
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S4x64x64, .f32⟩
  | 4 => ⟨S64, .f32⟩
  | 5 => ⟨S4x64x64, .f32⟩
  | 6 => ⟨S64, .f32⟩
  | 7 => ⟨S1, .f32⟩
  | 8 => ⟨S1, .f32⟩
  | 9 => ⟨S64x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S50000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S_, .f32⟩
  | 26 => ⟨S800000, .f32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S1x64x64, .f32⟩
  | 56 => ⟨S64x64, .f32⟩
  | 57 => ⟨S50000x64, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x64, .f32⟩
  | 67 => ⟨S800000x1, .f32⟩
  | 68 => ⟨S800000x64, .f32⟩
  | 69 => ⟨S800000x64, .f32⟩
  | 70 => ⟨S_, .f32⟩
  | 71 => ⟨S50000x64, .f32⟩
  | 72 => ⟨S800000x1, .i32⟩
  | 73 => ⟨S50000x64, .f32⟩
  | 74 => ⟨S1x64x64, .f32⟩
  | 75 => ⟨S64x64, .f32⟩
  | 76 => ⟨S50000x64, .f32⟩
  | 77 => ⟨S50000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x64, .f32⟩
  | 87 => ⟨S800000x1, .f32⟩
  | 88 => ⟨S800000x64, .f32⟩
  | 89 => ⟨S800000x64, .f32⟩
  | 90 => ⟨S_, .f32⟩
  | 91 => ⟨S50000x64, .f32⟩
  | 92 => ⟨S800000x1, .i32⟩
  | 93 => ⟨S50000x64, .f32⟩
  | 94 => ⟨S1x64x64, .f32⟩
  | 95 => ⟨S64x64, .f32⟩
  | 96 => ⟨S50000x64, .f32⟩
  | 97 => ⟨S50000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S800000x1, .f32⟩
  | 108 => ⟨S800000x64, .f32⟩
  | 109 => ⟨S800000x64, .f32⟩
  | 110 => ⟨S_, .f32⟩
  | 111 => ⟨S50000x64, .f32⟩
  | 112 => ⟨S800000x1, .i32⟩
  | 113 => ⟨S50000x64, .f32⟩
  | 114 => ⟨S1x64x64, .f32⟩
  | 115 => ⟨S64x64, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S_, .f32⟩
  | 122 => ⟨S50000x64, .f32⟩
  | 123 => ⟨S50000x64, .i1⟩
  | 124 => ⟨S1x1, .f32⟩
  | 125 => ⟨S50000x64, .f32⟩
  | 126 => ⟨S50000x64, .f32⟩
  | 127 => ⟨S50000x64, .f32⟩
  | _ => ⟨S50000x64, .f32⟩

abbrev hbmTy0_1 (i : Nat) : BufTy := match i % 128 with
  | 0 => ⟨S1x64x64, .f32⟩
  | 1 => ⟨S64x64, .f32⟩
  | 2 => ⟨S50000x64, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x64, .f32⟩
  | 12 => ⟨S800000x1, .f32⟩
  | 13 => ⟨S800000x64, .f32⟩
  | 14 => ⟨S800000x64, .f32⟩
  | 15 => ⟨S_, .f32⟩
  | 16 => ⟨S50000x64, .f32⟩
  | 17 => ⟨S800000x1, .i32⟩
  | 18 => ⟨S50000x64, .f32⟩
  | 19 => ⟨S1x64x64, .f32⟩
  | 20 => ⟨S64x64, .f32⟩
  | 21 => ⟨S50000x64, .f32⟩
  | 22 => ⟨S50000x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S800000x1, .f32⟩
  | 33 => ⟨S800000x64, .f32⟩
  | 34 => ⟨S800000x64, .f32⟩
  | 35 => ⟨S_, .f32⟩
  | 36 => ⟨S50000x64, .f32⟩
  | 37 => ⟨S800000x1, .i32⟩
  | 38 => ⟨S50000x64, .f32⟩
  | 39 => ⟨S1x64x64, .f32⟩
  | 40 => ⟨S64x64, .f32⟩
  | 41 => ⟨S50000x64, .f32⟩
  | 42 => ⟨S50000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x64, .f32⟩
  | 52 => ⟨S800000x1, .f32⟩
  | 53 => ⟨S800000x64, .f32⟩
  | 54 => ⟨S800000x64, .f32⟩
  | 55 => ⟨S_, .f32⟩
  | 56 => ⟨S50000x64, .f32⟩
  | 57 => ⟨S800000x1, .i32⟩
  | 58 => ⟨S50000x64, .f32⟩
  | 59 => ⟨S1x64x64, .f32⟩
  | 60 => ⟨S64x64, .f32⟩
  | 61 => ⟨S50000x64, .f32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S50000x64, .f32⟩
  | 68 => ⟨S50000x64, .i1⟩
  | 69 => ⟨S1x1, .f32⟩
  | 70 => ⟨S50000x64, .f32⟩
  | 71 => ⟨S50000x64, .f32⟩
  | 72 => ⟨S50000x64, .f32⟩
  | 73 => ⟨S_, .f32⟩
  | 74 => ⟨S128x64, .f32⟩
  | 75 => ⟨S50000x1, .i32⟩
  | 76 => ⟨S128x64, .f32⟩
  | 77 => ⟨S128x1, .f32⟩
  | 78 => ⟨S1x1, .f32⟩
  | 79 => ⟨S128x1, .f32⟩
  | 80 => ⟨S128x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_c_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_c_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_17 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_18 : Ref sig .tc := ⟨.hbm, 131, rfl⟩
abbrev main_v98 : Ref sig .tc := ⟨.hbm, 132, rfl⟩
abbrev main_v99 : Ref sig .tc := ⟨.hbm, 133, rfl⟩
abbrev main_c_19 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_20 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_c_21 : Ref sig .tc := ⟨.hbm, 151, rfl⟩
abbrev main_v115 : Ref sig .tc := ⟨.hbm, 152, rfl⟩
abbrev main_v116 : Ref sig .tc := ⟨.hbm, 153, rfl⟩
abbrev main_c_22 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_23 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_c_24 : Ref sig .tc := ⟨.hbm, 171, rfl⟩
abbrev main_v132 : Ref sig .tc := ⟨.hbm, 172, rfl⟩
abbrev main_v133 : Ref sig .tc := ⟨.hbm, 173, rfl⟩
abbrev main_c_25 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_26 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_27 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_cst_28 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  slices_S4x64x64_S1x64x64_0_0_0 : S4x64x64.Slices ![0, 0, 0] S1x64x64
  shapeCasts_S1x64x64_S64x64 : S1x64x64.ShapeCasts S64x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x64_0_1 : S1x1.BroadcastsInDim S50000x64 (![0, 1] : Fin 2 → Fin S50000x64.rank)
  bcast_S_S128x64 : S_.BroadcastsInDim S128x64 (![] : Fin 0 → Fin S128x64.rank)
  bcast_S50000_S50000x1_0 : S50000.BroadcastsInDim S50000x1 (![0] : Fin 1 → Fin S50000x1.rank)
  bcast_S1x1_S128x1_0_1 : S1x1.BroadcastsInDim S128x1 (![0, 1] : Fin 2 → Fin S128x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S128x64_S50000x1_S50000x64_1_0_0_1_wf : ScatterDims.WF S128x64 S50000x1 S50000x64 [1] [0] [0] 1
  dot_S128x64_S64x1_S128x1_1_0_0_1_n_n_wf : DotDims.WF S128x64 S64x1 S128x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

class Facts : Prop extends Facts₀ where

variable [Facts]
-- ==== Proof.K.Comb0.lean ====
/- The region of @main that runs the combine kernel `cc0__combine_kernel` as pipeline `cfg0`: its half of the frame, stated
   at a PARAMETER `V` — the TensorCore's buffer contents when the region is entered. Each window's block at a grid
   point read off `V` (`iblk0`); what the body leaves in the output window's buffer as a function of the four input
   blocks (`out0_4`: the one store of the whole block, its payload the sum over the four hops of
   bf16(h_k) · bf16(W_k), plus the bias, through PReLU); the body's triple (`sound_kernel0`); the pipeline's proof data
   (`dat0`) and the body obligation at every grid point (`body_obligation0`). -/
import proofs.«407303_j21680994910701_1_alg».proof.Proof.Gen.Kernel.Launch
import proofs.«407303_j21680994910701_1_alg».proof.Proof.Gen.Kernel.Skeleton
import proofs.«407303_j21680994910701_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # The region of `cc0__combine_kernel` (pipeline `cfg0`), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block index
    has not moved (`Dat.before_in_eq_fetched`), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block index
    has not moved (`Dat.before_in_eq_fetched`), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block index
    has not moved (`Dat.before_in_eq_fetched`), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): unfetched, the block index
    has not moved (`Dat.before_in_eq_fetched`), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

-- row k of the stacked hops' block, row k of the stacked weights, and the whole bias, slope and output blocks
abbrev r0_h0 : Rect S4x5000x64 := Rect.unit (s := S4x5000x64) ![0, 0, 0] S1x5000x64.size inb_S4x5000x64_S1x5000x64_0_0_0
abbrev r0_h1 : Rect S4x5000x64 := Rect.unit (s := S4x5000x64) ![1, 0, 0] S1x5000x64.size inb_S4x5000x64_S1x5000x64_1_0_0
abbrev r0_h2 : Rect S4x5000x64 := Rect.unit (s := S4x5000x64) ![2, 0, 0] S1x5000x64.size inb_S4x5000x64_S1x5000x64_2_0_0
abbrev r0_h3 : Rect S4x5000x64 := Rect.unit (s := S4x5000x64) ![3, 0, 0] S1x5000x64.size inb_S4x5000x64_S1x5000x64_3_0_0
abbrev r0_w0 : Rect S4x64x64 := Rect.unit (s := S4x64x64) ![0, 0, 0] S1x64x64.size inb_S4x64x64_S1x64x64_0_0_0
abbrev r0_w1 : Rect S4x64x64 := Rect.unit (s := S4x64x64) ![1, 0, 0] S1x64x64.size inb_S4x64x64_S1x64x64_1_0_0
abbrev r0_w2 : Rect S4x64x64 := Rect.unit (s := S4x64x64) ![2, 0, 0] S1x64x64.size inb_S4x64x64_S1x64x64_2_0_0
abbrev r0_w3 : Rect S4x64x64 := Rect.unit (s := S4x64x64) ![3, 0, 0] S1x64x64.size inb_S4x64x64_S1x64x64_3_0_0
abbrev r0_b : Rect S1x64 := Rect.unit (s := S1x64) ![0, 0] S1x64.size inb_S1x64_S1x64_0_0
abbrev r0_a : Rect S1x1 := Rect.unit (s := S1x1) ![0, 0] S1x1.size inb_S1x1_S1x1_0_0
abbrev r0_o : Rect S5000x64 := Rect.unit (s := S5000x64) ![0, 0] S5000x64.size inb_S5000x64_S5000x64_0_0

/-! ## What the body leaves in the output window's buffer -/

/-- Window 4's staging buffer after the body, from the input windows' blocks: its 1 store as pieces (`View.canon`),
    the payload the skeleton's — the first three hops' products summed (`k0_pay2`), the fourth hop's operands
    (`k0_pay3`, `k0_pay4`), the bias and the slope, combined by `k0_pay1`. -/
def out0_4 (x0 : Vec F S4x5000x64 .f32) (x1 : Vec F S4x64x64 .f32) (x2 : Vec F S1x64 .f32) (x3 : Vec F S1x1 .f32) : Vec F S5000x64 .f32 :=
  View.canon [⟨r0_o, k0_pay1 (k0_pay2 (View.ld x0 r0_h0) (View.ld x1 r0_w0) (View.ld x0 r0_h1) (View.ld x1 r0_w1) (View.ld x0 r0_h2) (View.ld x1 r0_w2)) (k0_pay3 (View.ld x0 r0_h3)) (k0_pay4 (View.ld x1 r0_w3)) (View.ld x2 r0_b) (View.ld x3 r0_a)⟩]

/-- Its store is of the whole block, so it covers the buffer. -/
theorem cover0_4 (p0 : Vec F S5000x64 .f32) (y : S5000x64.Idx) :
    ∃ pc ∈ ([⟨r0_o, p0⟩] : List (View.Piece (Elt F) S5000x64 .f32)), y ∈ pc.1.set :=
  View.cover_of_tiled [⟨r0_o, p0⟩] S5000x64.size (by rfl) y

/-! ## The body's triple -/

set_option maxHeartbeats 1000000 in
/-- The kernel body on whole staging memrefs, the inputs' at read contents `xW` and the output's at anything, runs to
    the continuation holding the inputs' as they were and the output's at `out0_4` of the inputs': the printed
    functions are their skeletons, run operation by operation through the part call. -/
theorem sound_kernel0 (c : Dev nD) (E : Set ℕ) (i : grid0.Coords)
    (arg1 : Memref sig .tc .vmem S4x5000x64 .f32) (harg1 : arg1.IsWhole) (arg2 : Memref sig .tc .vmem S4x64x64 .f32) (harg2 : arg2.IsWhole)
    (arg3 : Memref sig .tc .vmem S1x64 .f32) (harg3 : arg3.IsWhole) (arg4 : Memref sig .tc .vmem S1x1 .f32) (harg4 : arg4.IsWhole)
    (arg5 : Memref sig .tc .vmem S5000x64 .f32) (harg5 : arg5.IsWhole)
    (x0 : Vec F S4x5000x64 .f32) (x1 : Vec F S4x64x64 .f32) (x2 : Vec F S1x64 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__combine_kernel i arg1 harg1 arg2 harg2 arg3 harg3 arg4 harg4 arg5 harg5) K := by
  simp only [cc0__combine_kernel_eq_skeleton]; unfold cc0__combine_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_4 _)

/-! ## The pipeline's proof data -/

/-- The proof data of pipeline `cfg0` on core `c`: the arrays as the region finds them (`V`); after the body at
    point `t` each input's buffer at its block and the output's at `out0_4` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Comb1.lean ====
/- The region of @main that runs the combine kernel `cc1__combine_kernel` as pipeline `cfg1`: its half of the frame, stated
   at a PARAMETER `V` — the TensorCore's buffer contents when the region is entered. Each window's block at a grid
   point read off `V` (`iblk1`); what the body leaves in the output window's buffer as a function of the four input
   blocks (`out1_4`: the one store of the whole block, its payload the sum over the four hops of
   bf16(h_k) · bf16(W_k), plus the bias, through PReLU); the body's triple (`sound_kernel1`); the pipeline's proof data
   (`dat1`) and the body obligation at every grid point (`body_obligation1`). -/
import proofs.«407303_j21680994910701_1_alg».proof.Proof.Gen.Kernel.Launch
import proofs.«407303_j21680994910701_1_alg».proof.Proof.Gen.Kernel.Skeleton
import proofs.«407303_j21680994910701_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # The region of `cc1__combine_kernel` (pipeline `cfg1`), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block index
    has not moved (`Dat.before_in_eq_fetched`), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block index
    has not moved (`Dat.before_in_eq_fetched`), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block index
    has not moved (`Dat.before_in_eq_fetched`), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): unfetched, the block index
    has not moved (`Dat.before_in_eq_fetched`), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

-- row k of the stacked hops' block, row k of the stacked weights, and the whole bias, slope and output blocks
abbrev r1_h0 : Rect S4x5000x64 := Rect.unit (s := S4x5000x64) ![0, 0, 0] S1x5000x64.size inb_S4x5000x64_S1x5000x64_0_0_0
abbrev r1_h1 : Rect S4x5000x64 := Rect.unit (s := S4x5000x64) ![1, 0, 0] S1x5000x64.size inb_S4x5000x64_S1x5000x64_1_0_0
abbrev r1_h2 : Rect S4x5000x64 := Rect.unit (s := S4x5000x64) ![2, 0, 0] S1x5000x64.size inb_S4x5000x64_S1x5000x64_2_0_0
abbrev r1_h3 : Rect S4x5000x64 := Rect.unit (s := S4x5000x64) ![3, 0, 0] S1x5000x64.size inb_S4x5000x64_S1x5000x64_3_0_0
abbrev r1_w0 : Rect S4x64x64 := Rect.unit (s := S4x64x64) ![0, 0, 0] S1x64x64.size inb_S4x64x64_S1x64x64_0_0_0
abbrev r1_w1 : Rect S4x64x64 := Rect.unit (s := S4x64x64) ![1, 0, 0] S1x64x64.size inb_S4x64x64_S1x64x64_1_0_0
abbrev r1_w2 : Rect S4x64x64 := Rect.unit (s := S4x64x64) ![2, 0, 0] S1x64x64.size inb_S4x64x64_S1x64x64_2_0_0
abbrev r1_w3 : Rect S4x64x64 := Rect.unit (s := S4x64x64) ![3, 0, 0] S1x64x64.size inb_S4x64x64_S1x64x64_3_0_0
abbrev r1_b : Rect S1x64 := Rect.unit (s := S1x64) ![0, 0] S1x64.size inb_S1x64_S1x64_0_0
abbrev r1_a : Rect S1x1 := Rect.unit (s := S1x1) ![0, 0] S1x1.size inb_S1x1_S1x1_0_0
abbrev r1_o : Rect S5000x64 := Rect.unit (s := S5000x64) ![0, 0] S5000x64.size inb_S5000x64_S5000x64_0_0

/-! ## What the body leaves in the output window's buffer -/

/-- Window 4's staging buffer after the body, from the input windows' blocks: its 1 store as pieces (`View.canon`),
    the payload the skeleton's — the first three hops' products summed (`k1_pay2`), the fourth hop's operands
    (`k1_pay3`, `k1_pay4`), the bias and the slope, combined by `k1_pay1`. -/
def out1_4 (x0 : Vec F S4x5000x64 .f32) (x1 : Vec F S4x64x64 .f32) (x2 : Vec F S1x64 .f32) (x3 : Vec F S1x1 .f32) : Vec F S5000x64 .f32 :=
  View.canon [⟨r1_o, k1_pay1 (k1_pay2 (View.ld x0 r1_h0) (View.ld x1 r1_w0) (View.ld x0 r1_h1) (View.ld x1 r1_w1) (View.ld x0 r1_h2) (View.ld x1 r1_w2)) (k1_pay3 (View.ld x0 r1_h3)) (k1_pay4 (View.ld x1 r1_w3)) (View.ld x2 r1_b) (View.ld x3 r1_a)⟩]

/-- Its store is of the whole block, so it covers the buffer. -/
theorem cover1_4 (p0 : Vec F S5000x64 .f32) (y : S5000x64.Idx) :
    ∃ pc ∈ ([⟨r1_o, p0⟩] : List (View.Piece (Elt F) S5000x64 .f32)), y ∈ pc.1.set :=
  View.cover_of_tiled [⟨r1_o, p0⟩] S5000x64.size (by rfl) y

/-! ## The body's triple -/

set_option maxHeartbeats 1000000 in
/-- The kernel body on whole staging memrefs, the inputs' at read contents `xW` and the output's at anything, runs to
    the continuation holding the inputs' as they were and the output's at `out1_4` of the inputs': the printed
    functions are their skeletons, run operation by operation through the part call. -/
theorem sound_kernel1 (c : Dev nD) (E : Set ℕ) (i : grid1.Coords)
    (arg1 : Memref sig .tc .vmem S4x5000x64 .f32) (harg1 : arg1.IsWhole) (arg2 : Memref sig .tc .vmem S4x64x64 .f32) (harg2 : arg2.IsWhole)
    (arg3 : Memref sig .tc .vmem S1x64 .f32) (harg3 : arg3.IsWhole) (arg4 : Memref sig .tc .vmem S1x1 .f32) (harg4 : arg4.IsWhole)
    (arg5 : Memref sig .tc .vmem S5000x64 .f32) (harg5 : arg5.IsWhole)
    (x0 : Vec F S4x5000x64 .f32) (x1 : Vec F S4x64x64 .f32) (x2 : Vec F S1x64 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_4 _)

/-! ## The pipeline's proof data -/

/-- The proof data of pipeline `cfg1` on core `c`: the arrays as the region finds them (`V`); after the body at
    point `t` each input's buffer at its block and the output's at `out1_4` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.PoolDefs.lean ====
/- The pooling kernel `cc2__pool_kernel` as pipeline 2 of the program: what its three cases' runs are stated over.
   The kernel walks a grid of ten row blocks. At the first point it clears an accumulator (a scratch buffer of
   128 x 64 words), at every point it adds `onehot(ids)ᵀ · h` of the point's row block to it, and at the last point it
   stores `acc · Wout + bout` into the one output block, which the pipeline writes back there and nowhere else.
   Here: the two branch conditions in closed form over the grid, where the output window is idle, the memrefs the body is
   called with, the blocks of the windows read off the buffer contents `V` the region is entered with, and the region's
   invariant with the accumulator singled out. -/
import proofs.«407303_j21680994910701_1_alg».proof.Proof.Gen.Kernel.Launch
import proofs.«407303_j21680994910701_1_alg».proof.Proof.Gen.Kernel.Skeleton
import proofs.«407303_j21680994910701_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the block
    index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the block
    index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the block
    index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the block
    index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end Regions

/-! ## The body's branch conditions -/

/-- The condition of the body's first `scf.if` (clear the accumulator), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 10 = 0 :=
  (by decide +kernel : ∀ t : Fin grid2.N, cond2_0 (grid2.coords t) ↔ t.val % 10 = 0)

/-- The condition of the body's second `scf.if` (store the output), from the grid coordinates. -/
abbrev cond2_1 (i : grid2.Coords) : Prop := k2_cond2 i = 1#1
/-- It holds at the last point only — decided over the grid. -/
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- At the first point the output window is idle: the body stores nothing into it. -/
theorem idleAt2_4_A : ∀ t : Fin cfg2.N, cond2_0 (grid2.coords t) → ¬cond2_1 (grid2.coords t) → cfg2.idle 4 (grid2.coords t) = true := by decide +kernel
/-- At the first point the pipeline does not write the output block back. -/
theorem noFlush2_4_A : ∀ t : Fin cfg2.N, cond2_0 (grid2.coords t) → ¬cond2_1 (grid2.coords t) → (cfg2.win 4).flush t = false := by decide +kernel
/-- At the points between the first and the last the output window is idle: the body stores nothing into it. -/
theorem idleAt2_4_B : ∀ t : Fin cfg2.N, ¬cond2_0 (grid2.coords t) → ¬cond2_1 (grid2.coords t) → cfg2.idle 4 (grid2.coords t) = true := by decide +kernel
/-- At the points between the first and the last the pipeline does not write the output block back. -/
theorem noFlush2_4_B : ∀ t : Fin cfg2.N, ¬cond2_0 (grid2.coords t) → ¬cond2_1 (grid2.coords t) → (cfg2.win 4).flush t = false := by decide +kernel
/-- At the last point the output window is live: the body stores into it. -/
theorem liveAt2_4_C : ∀ t : Fin cfg2.N, ¬cond2_0 (grid2.coords t) → cond2_1 (grid2.coords t) → cfg2.idle 4 (grid2.coords t) = false := by decide +kernel

/-! ## The memrefs the body is called with -/

/-- One staging buffer of the output window, through which its contents are stated (the choice does not matter). -/
abbrev VO2_4 : View sig .tc .vmem S128x1 .f32 := (Memref.whole cc2_stg4_0 : Memref sig .tc .vmem S128x1 .f32).view
/-- Each window's current staging memref at point `t`, spelled as the pipeline passes it, and its wholeness. -/
abbrev ms2_0 (t : Fin cfg2.N) : Memref sig .tc .vmem S5000x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x1 .f32 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows. -/
abbrev scM2_0 : Memref sig .tc .vmem S128x64 .f32 := Memref.whole cc2_scratch0
/-- The accumulator as a view: what it holds is stated through it. -/
abbrev VS2_0 : View sig .tc .vmem S128x64 .f32 := scM2_0.view

/-- The region's invariant with the accumulator as a memref owned at some contents; the other scoped buffers of the
    core (the staging buffers of the two earlier calls) stay as they are, each whole at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ d, owns (c : Thread nD τ) scM2_0 fullShare d)) ∗ (∃ r, prngReg c r)) := by
  unfold Pipeline.ΦA; rw [scopedRest2_eq]; simp only [scM2_0, owns_whole]; try rfl

end Cert.Kernel.Hand

end
-- ==== Proof.K.PoolRunA.lean ====
/- The pooling kernel's body run at the first point of its grid: the triple of the whole body there, with the pieces its stores
   leave in the accumulator and in the output's staging buffer as the witness the run finds. -/
import proofs.«407303_j21680994910701_1_alg».proof.Proof.K.PoolDefs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at the FIRST point (the accumulator is cleared, the output is not stored): on whole memrefs, the inputs' at their
    contents, the output's at contents `xi4` handed back untouched, the accumulator at anything, the body runs to the
    continuation holding the inputs' as they were and the accumulator with its pieces written (the clearing store, then the
    accumulating store over it). The pieces are found by running the body's skeleton. -/
noncomputable def kernelRun2_A (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : cond2_0 i) (hc1 : ¬cond2_1 i)
    (x0 : Vec F S5000x1 .i32) (x1 : Vec F S5000x64 .f32) (x2 : Vec F S64x1 .f32) (x3 : Vec F S1x1 .f32) :
    Σ' (L4 : List (View.Piece (Elt F) S128x1 .f32)), { LS0 : List (View.Piece (Elt F) S128x64 .f32) //
      ∀ (xi4 : Vec F S128x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6) K } := by
  refine ⟨[], ?_, fun xi4 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Hand

end
-- ==== Proof.K.PoolRunB.lean ====
/- The pooling kernel's body run at a middle point of its grid: the triple of the whole body there, with the pieces its stores
   leave in the accumulator and in the output's staging buffer as the witness the run finds. -/
import proofs.«407303_j21680994910701_1_alg».proof.Proof.K.PoolRunA

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at a point that is neither the first nor the last (the accumulator is neither cleared nor read out): on whole
    memrefs, the inputs' at their contents, the output's at contents `xi4` handed back untouched, the accumulator at what the
    point before left (`xs0`), the body runs to the continuation holding the inputs' as they were and the accumulator with
    its one piece written. The piece is found by running the body's skeleton. -/
noncomputable def kernelRun2_B (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : ¬cond2_1 i)
    (x0 : Vec F S5000x1 .i32) (x1 : Vec F S5000x64 .f32) (x2 : Vec F S64x1 .f32) (x3 : Vec F S1x1 .f32) (xs0 : Vec F S128x64 .f32) :
    Σ' (L4 : List (View.Piece (Elt F) S128x1 .f32)), { LS0 : List (View.Piece (Elt F) S128x64 .f32) //
      ∀ (xi4 : Vec F S128x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6) K } := by
  refine ⟨[], ?_, fun xi4 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Hand

end
-- ==== Proof.K.PoolRunC.lean ====
/- The pooling kernel's body run at the last point of its grid: the triple of the whole body there, with the pieces its stores
   leave in the accumulator and in the output's staging buffer as the witness the run finds. -/
import proofs.«407303_j21680994910701_1_alg».proof.Proof.K.PoolRunB

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at the LAST point (the accumulator is not cleared; the output is stored): on whole memrefs, the inputs' at their
    contents, the output's at anything, the accumulator at what the point before left (`xs0`), the body runs to the
    continuation holding the inputs' as they were, the accumulator with its piece written and the output's buffer with its
    piece written. The pieces are found by running the body's skeleton. -/
noncomputable def kernelRun2_C (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : cond2_1 i)
    (x0 : Vec F S5000x1 .i32) (x1 : Vec F S5000x64 .f32) (x2 : Vec F S64x1 .f32) (x3 : Vec F S1x1 .f32) (xs0 : Vec F S128x64 .f32) :
    Σ' (L4 : List (View.Piece (Elt F) S128x1 .f32)), { LS0 : List (View.Piece (Elt F) S128x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6) K } := by
  refine ⟨?_, ?_, fun E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Hand

end
-- ==== Proof.K.Pool.lean ====
/- The pooling kernel `cc2__pool_kernel` as pipeline 2 of the program, at the buffer contents `V` the region is entered with:
   what each of its three cases leaves in the output's staging buffer and in the accumulator, what they hold point by point
   (`outsAt2`), the pipeline's proof data (`dat2`), the body obligation at every point and the invariant's two ends. -/
import proofs.«407303_j21680994910701_1_alg».proof.Proof.K.PoolRunC

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## What each case leaves in the output's staging buffer and in the accumulator -/

/-- At the first point the body stores nothing into the output's staging buffer (the window is idle there and not written back): no
    pieces — a placeholder that nothing consults. -/
def out2_A_4 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : cond2_0 i) (hc1 : ¬cond2_1 i)
    (x0 : Vec F S5000x1 .i32) (x1 : Vec F S5000x64 .f32) (x2 : Vec F S64x1 .f32) (x3 : Vec F S1x1 .f32) : Vec F S128x1 .f32 :=
  VO2_4.read (Elt F) (VO2_4.writes (Elt F) VO2_4.junk (kernelRun2_A c i arg1 harg1 arg2 harg2 arg3 harg3 arg4 harg4 arg5 harg5 arg6 harg6 hc0 hc1 x0 x1 x2 x3).1)

/-- The pieces the first point leaves in the accumulator cover it (each store is of the whole buffer). -/
theorem scover2_A_0 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : cond2_0 i) (hc1 : ¬cond2_1 i)
    (x0 : Vec F S5000x1 .i32) (x1 : Vec F S5000x64 .f32) (x2 : Vec F S64x1 .f32) (x3 : Vec F S1x1 .f32) (y : S128x64.Idx) :
    ∃ pc ∈ (kernelRun2_A c i arg1 harg1 arg2 harg2 arg3 harg3 arg4 harg4 arg5 harg5 arg6 harg6 hc0 hc1 x0 x1 x2 x3).2.1, y ∈ pc.1.set :=
  View.cover_of_tiledL (kernelRun2_A c i arg1 harg1 arg2 harg2 arg3 harg3 arg4 harg4 arg5 harg5 arg6 harg6 hc0 hc1 x0 x1 x2 x3).2.1 S128x64.size (by sl_kernel_rfl) y

/-- What the first point leaves in the accumulator: its pieces read back. -/
def sout2_A_0 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : cond2_0 i) (hc1 : ¬cond2_1 i)
    (x0 : Vec F S5000x1 .i32) (x1 : Vec F S5000x64 .f32) (x2 : Vec F S64x1 .f32) (x3 : Vec F S1x1 .f32) : Vec F S128x64 .f32 :=
  VS2_0.read (Elt F) (VS2_0.writes (Elt F) VS2_0.junk (kernelRun2_A c i arg1 harg1 arg2 harg2 arg3 harg3 arg4 harg4 arg5 harg5 arg6 harg6 hc0 hc1 x0 x1 x2 x3).2.1)

/-- At a point between the first and the last the body stores nothing into the output's staging buffer (the window is idle there and not written back): no
    pieces — a placeholder that nothing consults. -/
def out2_B_4 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : ¬cond2_1 i)
    (x0 : Vec F S5000x1 .i32) (x1 : Vec F S5000x64 .f32) (x2 : Vec F S64x1 .f32) (x3 : Vec F S1x1 .f32) (xs0 : Vec F S128x64 .f32) : Vec F S128x1 .f32 :=
  VO2_4.read (Elt F) (VO2_4.writes (Elt F) VO2_4.junk (kernelRun2_B c i arg1 harg1 arg2 harg2 arg3 harg3 arg4 harg4 arg5 harg5 arg6 harg6 hc0 hc1 x0 x1 x2 x3 xs0).1)

/-- The pieces a point between the first and the last leaves in the accumulator cover it (each store is of the whole buffer). -/
theorem scover2_B_0 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : ¬cond2_1 i)
    (x0 : Vec F S5000x1 .i32) (x1 : Vec F S5000x64 .f32) (x2 : Vec F S64x1 .f32) (x3 : Vec F S1x1 .f32) (xs0 : Vec F S128x64 .f32) (y : S128x64.Idx) :
    ∃ pc ∈ (kernelRun2_B c i arg1 harg1 arg2 harg2 arg3 harg3 arg4 harg4 arg5 harg5 arg6 harg6 hc0 hc1 x0 x1 x2 x3 xs0).2.1, y ∈ pc.1.set :=
  View.cover_of_tiledL (kernelRun2_B c i arg1 harg1 arg2 harg2 arg3 harg3 arg4 harg4 arg5 harg5 arg6 harg6 hc0 hc1 x0 x1 x2 x3 xs0).2.1 S128x64.size (by sl_kernel_rfl) y

/-- What a point between the first and the last leaves in the accumulator: its pieces read back. -/
def sout2_B_0 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : ¬cond2_1 i)
    (x0 : Vec F S5000x1 .i32) (x1 : Vec F S5000x64 .f32) (x2 : Vec F S64x1 .f32) (x3 : Vec F S1x1 .f32) (xs0 : Vec F S128x64 .f32) : Vec F S128x64 .f32 :=
  VS2_0.read (Elt F) (VS2_0.writes (Elt F) VS2_0.junk (kernelRun2_B c i arg1 harg1 arg2 harg2 arg3 harg3 arg4 harg4 arg5 harg5 arg6 harg6 hc0 hc1 x0 x1 x2 x3 xs0).2.1)

/-- At the last point the body's one store into the output's staging buffer is of the whole block: its piece covers it. -/
theorem cover2_C_4 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : cond2_1 i)
    (x0 : Vec F S5000x1 .i32) (x1 : Vec F S5000x64 .f32) (x2 : Vec F S64x1 .f32) (x3 : Vec F S1x1 .f32) (xs0 : Vec F S128x64 .f32) (y : S128x1.Idx) :
    ∃ pc ∈ (kernelRun2_C c i arg1 harg1 arg2 harg2 arg3 harg3 arg4 harg4 arg5 harg5 arg6 harg6 hc0 hc1 x0 x1 x2 x3 xs0).1, y ∈ pc.1.set :=
  View.cover_of_tiledL (kernelRun2_C c i arg1 harg1 arg2 harg2 arg3 harg3 arg4 harg4 arg5 harg5 arg6 harg6 hc0 hc1 x0 x1 x2 x3 xs0).1 S128x1.size (by sl_kernel_rfl) y

/-- What the last point leaves in the output's staging buffer: its piece read back. -/
def out2_C_4 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : cond2_1 i)
    (x0 : Vec F S5000x1 .i32) (x1 : Vec F S5000x64 .f32) (x2 : Vec F S64x1 .f32) (x3 : Vec F S1x1 .f32) (xs0 : Vec F S128x64 .f32) : Vec F S128x1 .f32 :=
  VO2_4.read (Elt F) (VO2_4.writes (Elt F) VO2_4.junk (kernelRun2_C c i arg1 harg1 arg2 harg2 arg3 harg3 arg4 harg4 arg5 harg5 arg6 harg6 hc0 hc1 x0 x1 x2 x3 xs0).1)

/-- The pieces the last point leaves in the accumulator cover it (each store is of the whole buffer). -/
theorem scover2_C_0 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : cond2_1 i)
    (x0 : Vec F S5000x1 .i32) (x1 : Vec F S5000x64 .f32) (x2 : Vec F S64x1 .f32) (x3 : Vec F S1x1 .f32) (xs0 : Vec F S128x64 .f32) (y : S128x64.Idx) :
    ∃ pc ∈ (kernelRun2_C c i arg1 harg1 arg2 harg2 arg3 harg3 arg4 harg4 arg5 harg5 arg6 harg6 hc0 hc1 x0 x1 x2 x3 xs0).2.1, y ∈ pc.1.set :=
  View.cover_of_tiledL (kernelRun2_C c i arg1 harg1 arg2 harg2 arg3 harg3 arg4 harg4 arg5 harg5 arg6 harg6 hc0 hc1 x0 x1 x2 x3 xs0).2.1 S128x64.size (by sl_kernel_rfl) y

/-- What the last point leaves in the accumulator: its pieces read back. -/
def sout2_C_0 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : cond2_1 i)
    (x0 : Vec F S5000x1 .i32) (x1 : Vec F S5000x64 .f32) (x2 : Vec F S64x1 .f32) (x3 : Vec F S1x1 .f32) (xs0 : Vec F S128x64 .f32) : Vec F S128x64 .f32 :=
  VS2_0.read (Elt F) (VS2_0.writes (Elt F) VS2_0.junk (kernelRun2_C c i arg1 harg1 arg2 harg2 arg3 harg3 arg4 harg4 arg5 harg5 arg6 harg6 hc0 hc1 x0 x1 x2 x3 xs0).2.1)

/-! ## What the output's buffer and the accumulator hold after each point -/

/-- THE ACCUMULATION. What the output's staging buffer and the accumulator hold after the body at position `n` (a pair: the
    output, then the accumulator): the case the closed forms select at `n`, run at the point's memrefs and input blocks, the
    accumulator — which every point but the first reads before it stores — at what this leaves at `n - 1`. An assignment of
    the conditions no point meets is no case. -/
def outsAt2 (c : Dev nD) : (n : ℕ) → n < cfg2.N → Vec F S128x1 .f32 × Vec F S128x64 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 10 = 0 then
      if h1 : (n + 1) % 10 = 9 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 10 = 9 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

/-- `outsAt2` at the first point: that case's contents. -/
theorem outsAt2_A (c : Dev nD) (t : Fin cfg2.N) (h0 : t.val % 10 = 0) (h1 : ¬t.val % 10 = 9) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- `outsAt2` at a point between the first and the last: that case's contents, over what the point before left. -/
theorem outsAt2_B (c : Dev nD) (t : Fin cfg2.N) (h0 : ¬t.val % 10 = 0) (h1 : ¬t.val % 10 = 9) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point: that case's contents, over what the point before left. -/
theorem outsAt2_C (c : Dev nD) (t : Fin cfg2.N) (h0 : ¬t.val % 10 = 0) (h1 : t.val % 10 = 9) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands the region (every scoped buffer
    at anything); afterwards the same with the accumulator at what the point before left in it (`outsAt2`'s second
    component), the other scoped buffers at anything, and the generator register at some state. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the pooling pipeline on core `c`: the arrays as the region finds them (`V`); after the body at point `t`
    each input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' memrefs hold their blocks; the closed forms say which case the point is in; the
    invariant hands the body the accumulator at what the point before left (at anything at the first point), and takes it
    back at this point's contents, the pieces the case stored covering it; the other scoped buffers and the generator
    register pass through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val % 10 = 0
  · by_cases h1 : t.val % 10 = 9
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover2_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · exfalso; omega
  · by_cases h1 : t.val % 10 = 9
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      by_cases hz : t.val = 0
      · exfalso; omega
      · rw [PhiS2_castSucc V c t, PhiS2_pos V c _ _ hz]
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover2_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover2_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR0, HR1, HR2, HR3, HR4, HR5, HR6, HR7, HR8, HR9, HR10, HR11, HR12, HR13, HS0⟩, Hg⟩
  isplitl [HR0 HR1 HR2 HR3 HR4 HR5 HR6 HR7 HR8 HR9 HR10 HR11 HR12 HR13 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

end Regions

end Cert.Kernel.Hand

end
-- ==== Proof.K.Vals.lean ====
/- THE BUFFER CONTENTS AT THE BOUNDARIES of @main of `proofs.«407303_j21680994910701_1_alg».proof.Kernel`: a 2-layer TAGConv network run as three
   pipelined kernel regions (two combine layers, one pooling head) among five stretches of host operations.
   The contents at every segment boundary are a fold from the launch memory (`W0` … `W8`): a host stretch rewrites the
   buffers its operations write (`StableHlo.after`); a region leaves in its arrays what its write-backs leave and every
   other buffer as it found it (`Pipeline.withArrays`). Each stretch's written references are listed, and every argument
   array is read back through the fold to its launch contents (`W8_main_argK`). -/
import proofs.«407303_j21680994910701_1_alg».proof.Proof.K.Comb0
import proofs.«407303_j21680994910701_1_alg».proof.Proof.K.Comb1
import proofs.«407303_j21680994910701_1_alg».proof.Proof.K.Pool
import proofs.«407303_j21680994910701_1_alg».proof.Proof.Gen.Kernel.Launch
import proofs.«407303_j21680994910701_1_alg».proof.Proof.Gen.Kernel.Skeleton
import proofs.«407303_j21680994910701_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership among the program's references and the long host stretches' lists recurse past the default depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main's segments: a fold from the launch memory

@main is three host stretches, region 0, a host stretch, region 1, a host stretch, region 2. A host stretch
rewrites the buffers its operations write; a region leaves in its arrays what its write-backs leave and every
other buffer as it found it. -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2` (region 0's entry). -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves and every other buffer what it held at
    entry: the two hypotheses under which the arrays go back among the unscoped buffers. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves and every other buffer what it held at
    entry: the two hypotheses under which the arrays go back among the unscoped buffers. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2` (region 2's entry). -/
abbrev W7 : Dev nD → Valuation τ sig (Elt F) := fun c => StableHlo.after hostOps2 (W6 m ρ c)
/-- The same read at the TensorCore's references (what region 2's proof data take). -/
abbrev V7 : (c : Dev nD) → (b : Ref sig .tc) → Buf (Elt F) ((c : Thread nD τ).loc b) := fun c b => W7 m ρ c b
/-- At region 2's exit: its arrays at what the pipeline leaves (the inputs as entered, each output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (region 2's exit contents). -/
abbrev V8 : (c : Dev nD) → (b : Ref sig .tc) → Buf (Elt F) ((c : Thread nD τ).loc b) := fun c b => W8 m ρ c b
/-- At region 2's exit each of its arrays holds what the pipeline leaves and every other buffer what it held at
    entry: the two hypotheses under which the arrays go back among the unscoped buffers. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ## What the host stretches write -/

/-- No operation of `hostOps0` allocates a buffer. -/
theorem hostOps0_fresh : (hostOps0 : List (HloOp τ sig (Elt F))).Forall fun op => op.fresh = ∅ := by
  simp only [List.Forall]; repeat' constructor
/-- The references `hostOps0`'s operations write, in order. -/
abbrev hostOps0_W : List (Ref sig .tc) :=
  [main_v0, main_v1, main_v2, main_v3, main_cst, main_v4, main_c, main_v5, main_v6, main_c_0,
   main_v7, main_v8, main_v9, main_v10, main_cst_1, main_v11, main_v12, main_cst_2, main_v13, main_v14,
   main_v15, main_cst_3]
theorem hostOps0_writes : (hostOps0 : List (HloOp τ sig (Elt F))).Forall fun op => op.writes ⊆ ((hostOps0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps0_1` allocates a buffer. -/
theorem hostOps0_1_fresh : (hostOps0_1 : List (HloOp τ sig (Elt F))).Forall fun op => op.fresh = ∅ := by
  simp only [List.Forall]; repeat' constructor
/-- The references `hostOps0_1`'s operations write, in order. -/
abbrev hostOps0_1_W : List (Ref sig .tc) :=
  [main_call0_v0, main_call0_v1, main_v16]
theorem hostOps0_1_writes : (hostOps0_1 : List (HloOp τ sig (Elt F))).Forall fun op => op.writes ⊆ ((hostOps0_1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps0_2` allocates a buffer. -/
theorem hostOps0_2_fresh : (hostOps0_2 : List (HloOp τ sig (Elt F))).Forall fun op => op.fresh = ∅ := by
  simp only [List.Forall]; repeat' constructor
/-- The references `hostOps0_2`'s operations write, in order. -/
abbrev hostOps0_2_W : List (Ref sig .tc) :=
  [main_c_4, main_v17, main_v18, main_c_5, main_v19, main_v20, main_v21, main_v22, main_v23, main_c_6,
   main_v24, main_v25, main_c_7, main_v26, main_v27, main_v28, main_v29, main_v30, main_v31, main_c_8,
   main_v32, main_v33, main_c_9, main_v34, main_v35, main_v36, main_v37, main_v38, main_v39, main_v40,
   main_v41, main_cst_10, main_v42, main_v43, main_v44, main_c_11, main_v45, main_v46, main_c_12, main_v47,
   main_v48, main_v49, main_v50, main_v51, main_v52, main_v53, main_v54, main_cst_13, main_v55, main_v56,
   main_v57, main_c_14, main_v58, main_v59, main_c_15, main_v60, main_v61, main_v62, main_v63, main_v64,
   main_v65, main_v66, main_v67, main_cst_16, main_v68, main_v69, main_v70, main_v71, main_v72, main_v73,
   main_v74, main_v75, main_v76, main_v77]
theorem hostOps0_2_writes : (hostOps0_2 : List (HloOp τ sig (Elt F))).Forall fun op => op.writes ⊆ ((hostOps0_2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps1` allocates a buffer. -/
theorem hostOps1_fresh : (hostOps1 : List (HloOp τ sig (Elt F))).Forall fun op => op.fresh = ∅ := by
  simp only [List.Forall]; repeat' constructor
/-- The references `hostOps1`'s operations write, in order. -/
abbrev hostOps1_W : List (Ref sig .tc) :=
  [main_c_17, main_v79, main_v80, main_c_18, main_v81, main_v82, main_v83, main_v84, main_v85, main_v86,
   main_v87, main_v88, main_cst_19, main_v89, main_v90, main_v91, main_c_20, main_v92, main_v93, main_c_21,
   main_v94, main_v95, main_v96, main_v97, main_v98, main_v99, main_v100, main_v101, main_cst_22, main_v102,
   main_v103, main_v104, main_c_23, main_v105, main_v106, main_c_24, main_v107, main_v108, main_v109, main_v110,
   main_v111, main_v112, main_v113, main_v114, main_cst_25, main_v115, main_v116, main_v117, main_v118, main_v119,
   main_v120, main_v121, main_v122, main_v123, main_v124]
theorem hostOps1_writes : (hostOps1 : List (HloOp τ sig (Elt F))).Forall fun op => op.writes ⊆ ((hostOps1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps2` allocates a buffer. -/
theorem hostOps2_fresh : (hostOps2 : List (HloOp τ sig (Elt F))).Forall fun op => op.fresh = ∅ := by
  simp only [List.Forall]; repeat' constructor
/-- The references `hostOps2`'s operations write, in order. -/
abbrev hostOps2_W : List (Ref sig .tc) :=
  [main_v126, main_v127]
theorem hostOps2_writes : (hostOps2 : List (HloOp τ sig (Elt F))).Forall fun op => op.writes ⊆ ((hostOps2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## What each segment leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
/-- From the launch to region 0's entry, a reference none of the three stretches writes keeps its launch contents. -/
theorem W3_launch (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (W3_of m ρ c r h2).trans <| (W2_of m ρ c r h1).trans <| (W1_of m ρ c r h0).trans rfl

/-! ## The arguments end as launched

No host operation writes an argument, and a region either bypasses it or reads it through an input window, so the
fold at an argument's buffer walks back to the launch memory. -/

/-- Region 0 leaves an input window's array as it found it. -/
theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
/-- Region 1 leaves an input window's array as it found it. -/
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))
/-- Region 2 leaves an input window's array as it found it. -/
theorem W8_in (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))

/-- A reference no stretch writes and no region has among its arrays holds its launch contents at the end. -/
theorem W8_keep (c : Dev nD) (r : Ref sig .tc) (h0 : r ∉ hostOps0_W) (h1 : r ∉ hostOps0_1_W) (h2 : r ∉ hostOps0_2_W)
    (h3 : r ∉ hostOps1_W) (h4 : r ∉ hostOps2_W) (a0 : ∀ w, Pipeline.arrRef spec0 w ≠ r) (a1 : ∀ w, Pipeline.arrRef spec1 w ≠ r)
    (a2 : ∀ w, Pipeline.arrRef spec2 w ≠ r) : W8 m ρ c (Proc.devRef .tc r) = m ((c : Thread nD τ).loc r) :=
  calc W8 m ρ c (Proc.devRef .tc r)
    _ = W7 m ρ c (Proc.devRef .tc r) := W8_of_ne m ρ c r a2
    _ = W6 m ρ c (Proc.devRef .tc r) := W7_of m ρ c r h4
    _ = W5 m ρ c (Proc.devRef .tc r) := W6_of_ne m ρ c r a1
    _ = W4 m ρ c (Proc.devRef .tc r) := W5_of m ρ c r h3
    _ = W3 m ρ c (Proc.devRef .tc r) := W4_of_ne m ρ c r a0
    _ = m ((c : Thread nD τ).loc r) := W3_launch m ρ c r h0 h1 h2

theorem W8_main_arg0 (c : Dev nD) : W8 m ρ c (Proc.devRef .tc main_arg0) = m ((c : Thread nD τ).loc main_arg0) :=
  W8_keep m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_keep m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_keep m ρ c main_arg2 (by decide) (by decide) (by decide) (by decide) (by decide) (by decide) (by decide) (by decide)
theorem W8_main_arg4 (c : Dev nD) : W8 m ρ c (Proc.devRef .tc main_arg4) = m ((c : Thread nD τ).loc main_arg4) :=
  W8_keep m ρ c main_arg4 (by decide) (by decide) (by decide) (by decide) (by decide) (by decide) (by decide) (by decide)
theorem W8_main_arg6 (c : Dev nD) : W8 m ρ c (Proc.devRef .tc main_arg6) = m ((c : Thread nD τ).loc main_arg6) :=
  W8_keep m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_keep m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_keep m ρ c main_arg8 (by decide) (by decide) (by decide) (by decide) (by decide) (by decide) (by decide) (by decide)
theorem W8_main_arg10 (c : Dev nD) : W8 m ρ c (Proc.devRef .tc main_arg10) = m ((c : Thread nD τ).loc main_arg10) :=
  W8_keep m ρ c main_arg10 (by decide) (by decide) (by decide) (by decide) (by decide) (by decide) (by decide) (by decide)
/-- `main_arg3` is region 0's second input window's array. -/
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_in m ρ c 1 rfl
    _ = m ((c : Thread nD τ).loc main_arg3) := W3_launch m ρ c main_arg3 (by decide) (by decide) (by decide)
/-- `main_arg5` is region 1's second input window's array. -/
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_in m ρ c 1 rfl
    _ = W4 m ρ c (Proc.devRef .tc main_arg5) := W5_of m ρ c main_arg5 (by decide)
    _ = W3 m ρ c (Proc.devRef .tc main_arg5) := W4_of_ne m ρ c main_arg5 (by decide)
    _ = m ((c : Thread nD τ).loc main_arg5) := W3_launch m ρ c main_arg5 (by decide) (by decide) (by decide)
/-- `main_arg9` is region 2's third input window's array. -/
theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_in m ρ c 2 rfl
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = m ((c : Thread nD τ).loc main_arg9) := W3_launch m ρ c main_arg9 (by decide) (by decide) (by decide)

end Cert.Kernel.Hand

end
-- ==== Proof.K.Run.lean ====
/- THE RUN of @main of `proofs.«407303_j21680994910701_1_alg».proof.Kernel` over its eight segments — three host stretches, region 0, a host
   stretch, region 1, a host stretch, region 2 — from the launch to the return. Each region is a segment over the thread
   state "every unscoped buffer at the boundary's contents, the generator register at some state, nothing owed": its
   arrays are split out of the unscoped buffers at entry and put back at the exit contents. @main is the run of the
   segments, and the launch theorem over them gives the run (`run_main`): every weakly fair execution terminates without
   fault, the result array ends at the last boundary's contents and the arguments end as launched (`frame`). -/
import proofs.«407303_j21680994910701_1_alg».proof.Proof.K.Vals
import proofs.«407303_j21680994910701_1_alg».proof.Proof.Gen.Kernel.Launch
import proofs.«407303_j21680994910701_1_alg».proof.Proof.Gen.Kernel.Skeleton
import proofs.«407303_j21680994910701_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership among the program's references and the long host stretches' lists recurse past the default depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return

## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W8`, the
    generator register at some state. -/
abbrev Tₙ (c : Dev nD) : sProp 𝕄 := iprop(StableHlo.held (c : Thread nD τ) (Pipeline.ucRefs τ sig) (W8 m ρ c) ∗ ∃ r, prngReg c r)

/-! ## The regions as segments -/

-- the library's lemmas are stated over the pinned configuration `pin pcs a p`; unifying it with the printed one
-- takes unfolding plain definitions in a metavariable's type
set_option backward.isDefEq.respectTransparency.types false in
/-- REGION 0 (custom_call 0) over the thread state: entered from every unscoped buffer at `W3`, left at `W4`.
    Its arrays are split out of the unscoped buffers and put back at the exit contents; the generator register goes into
    the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`; unifying it with the printed one
-- takes unfolding plain definitions in a metavariable's type
set_option backward.isDefEq.respectTransparency.types false in
/-- REGION 1 (custom_call 1) over the thread state: entered from every unscoped buffer at `W5`, left at `W6`.
    Its arrays are split out of the unscoped buffers and put back at the exit contents; the generator register goes into
    the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`; unifying it with the printed one
-- takes unfolding plain definitions in a metavariable's type
set_option backward.isDefEq.respectTransparency.types false in
/-- REGION 2 (custom_call 2) over the thread state: entered from every unscoped buffer at `W7`, left at `W8`.
    Its arrays are split out of the unscoped buffers and put back at the exit contents; the generator register goes into
    the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V7 m ρ) c)
    unfold Pipeline.ΦA
    iintro ⟨Hp, -, Hr⟩
    isplitl [Hr]; · iexact Hr
    iexact Hp
  hout c := by
    rw [Pipeline.ownSems0_none]
    refine BIBase.Entails.trans (hout2 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]
/-- @main IS the run of the segments: its chain of items, then the segments' run against that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has the result array at the last boundary's
    contents and the argument arrays as launched. -/
theorem run_main : θ_run defs (onTc (τ := τ) (main (F := F))) ⟨m, fun _ => 0, ρ⟩ (fun r => ∀ c : Dev nD,
      r.2.mem ((c.tc : Thread nD τ).loc main_v128) = W8 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v128 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

/-- THE FRAME: the run, read at the arguments alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_main m ρ)

end Cert.Kernel.Hand

end
-- ==== Proof.KI.Comb0.lean ====
/- The region of @main that runs the combine kernel `cc0__combine_kernel` as pipeline `cfg0`: its half of the frame, stated
   at a PARAMETER `V` — the TensorCore's buffer contents when the region is entered. Each window's block at a grid
   point read off `V` (`iblk0`); what the body leaves in the output window's buffer as a function of the four input
   blocks (`out0_4`: the one store of the whole block, its payload the sum over the four hops of
   bf16(h_k) · bf16(W_k), plus the bias, through PReLU); the body's triple (`sound_kernel0`); the pipeline's proof data
   (`dat0`) and the body obligation at every grid point (`body_obligation0`). -/
import proofs.«407303_j21680994910701_1_alg».proof.Proof.Gen.KernelIdeal.Launch
import proofs.«407303_j21680994910701_1_alg».proof.Proof.Gen.KernelIdeal.Skeleton
import proofs.«407303_j21680994910701_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # The region of `cc0__combine_kernel` (pipeline `cfg0`), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block index
    has not moved (`Dat.before_in_eq_fetched`), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block index
    has not moved (`Dat.before_in_eq_fetched`), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block index
    has not moved (`Dat.before_in_eq_fetched`), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): unfetched, the block index
    has not moved (`Dat.before_in_eq_fetched`), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

-- row k of the stacked hops' block, row k of the stacked weights, and the whole bias, slope and output blocks
abbrev r0_h0 : Rect S4x5000x64 := Rect.unit (s := S4x5000x64) ![0, 0, 0] S1x5000x64.size inb_S4x5000x64_S1x5000x64_0_0_0
abbrev r0_h1 : Rect S4x5000x64 := Rect.unit (s := S4x5000x64) ![1, 0, 0] S1x5000x64.size inb_S4x5000x64_S1x5000x64_1_0_0
abbrev r0_h2 : Rect S4x5000x64 := Rect.unit (s := S4x5000x64) ![2, 0, 0] S1x5000x64.size inb_S4x5000x64_S1x5000x64_2_0_0
abbrev r0_h3 : Rect S4x5000x64 := Rect.unit (s := S4x5000x64) ![3, 0, 0] S1x5000x64.size inb_S4x5000x64_S1x5000x64_3_0_0
abbrev r0_w0 : Rect S4x64x64 := Rect.unit (s := S4x64x64) ![0, 0, 0] S1x64x64.size inb_S4x64x64_S1x64x64_0_0_0
abbrev r0_w1 : Rect S4x64x64 := Rect.unit (s := S4x64x64) ![1, 0, 0] S1x64x64.size inb_S4x64x64_S1x64x64_1_0_0
abbrev r0_w2 : Rect S4x64x64 := Rect.unit (s := S4x64x64) ![2, 0, 0] S1x64x64.size inb_S4x64x64_S1x64x64_2_0_0
abbrev r0_w3 : Rect S4x64x64 := Rect.unit (s := S4x64x64) ![3, 0, 0] S1x64x64.size inb_S4x64x64_S1x64x64_3_0_0
abbrev r0_b : Rect S1x64 := Rect.unit (s := S1x64) ![0, 0] S1x64.size inb_S1x64_S1x64_0_0
abbrev r0_a : Rect S1x1 := Rect.unit (s := S1x1) ![0, 0] S1x1.size inb_S1x1_S1x1_0_0
abbrev r0_o : Rect S5000x64 := Rect.unit (s := S5000x64) ![0, 0] S5000x64.size inb_S5000x64_S5000x64_0_0

/-! ## What the body leaves in the output window's buffer -/

/-- Window 4's staging buffer after the body, from the input windows' blocks: its 1 store as pieces (`View.canon`),
    the payload the skeleton's — the first three hops' products summed (`k0_pay2`), the fourth hop's operands
    (`k0_pay3`, `k0_pay4`), the bias and the slope, combined by `k0_pay1`. -/
def out0_4 (x0 : Vec F S4x5000x64 .f32) (x1 : Vec F S4x64x64 .f32) (x2 : Vec F S1x64 .f32) (x3 : Vec F S1x1 .f32) : Vec F S5000x64 .f32 :=
  View.canon [⟨r0_o, k0_pay1 (k0_pay2 (View.ld x0 r0_h0) (View.ld x1 r0_w0) (View.ld x0 r0_h1) (View.ld x1 r0_w1) (View.ld x0 r0_h2) (View.ld x1 r0_w2)) (k0_pay3 (View.ld x0 r0_h3)) (k0_pay4 (View.ld x1 r0_w3)) (View.ld x2 r0_b) (View.ld x3 r0_a)⟩]

/-- Its store is of the whole block, so it covers the buffer. -/
theorem cover0_4 (p0 : Vec F S5000x64 .f32) (y : S5000x64.Idx) :
    ∃ pc ∈ ([⟨r0_o, p0⟩] : List (View.Piece (Elt F) S5000x64 .f32)), y ∈ pc.1.set :=
  View.cover_of_tiled [⟨r0_o, p0⟩] S5000x64.size (by rfl) y

/-! ## The body's triple -/

set_option maxHeartbeats 1000000 in
/-- The kernel body on whole staging memrefs, the inputs' at read contents `xW` and the output's at anything, runs to
    the continuation holding the inputs' as they were and the output's at `out0_4` of the inputs': the printed
    functions are their skeletons, run operation by operation through the part call. -/
theorem sound_kernel0 (c : Dev nD) (E : Set ℕ) (i : grid0.Coords)
    (arg1 : Memref sig .tc .vmem S4x5000x64 .f32) (harg1 : arg1.IsWhole) (arg2 : Memref sig .tc .vmem S4x64x64 .f32) (harg2 : arg2.IsWhole)
    (arg3 : Memref sig .tc .vmem S1x64 .f32) (harg3 : arg3.IsWhole) (arg4 : Memref sig .tc .vmem S1x1 .f32) (harg4 : arg4.IsWhole)
    (arg5 : Memref sig .tc .vmem S5000x64 .f32) (harg5 : arg5.IsWhole)
    (x0 : Vec F S4x5000x64 .f32) (x1 : Vec F S4x64x64 .f32) (x2 : Vec F S1x64 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__combine_kernel i arg1 harg1 arg2 harg2 arg3 harg3 arg4 harg4 arg5 harg5) K := by
  simp only [cc0__combine_kernel_eq_skeleton]; unfold cc0__combine_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_4 _)

/-! ## The pipeline's proof data -/

/-- The proof data of pipeline `cfg0` on core `c`: the arrays as the region finds them (`V`); after the body at
    point `t` each input's buffer at its block and the output's at `out0_4` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Comb1.lean ====
/- The region of @main that runs the combine kernel `cc1__combine_kernel` as pipeline `cfg1`: its half of the frame, stated
   at a PARAMETER `V` — the TensorCore's buffer contents when the region is entered. Each window's block at a grid
   point read off `V` (`iblk1`); what the body leaves in the output window's buffer as a function of the four input
   blocks (`out1_4`: the one store of the whole block, its payload the sum over the four hops of
   bf16(h_k) · bf16(W_k), plus the bias, through PReLU); the body's triple (`sound_kernel1`); the pipeline's proof data
   (`dat1`) and the body obligation at every grid point (`body_obligation1`). -/
import proofs.«407303_j21680994910701_1_alg».proof.Proof.Gen.KernelIdeal.Launch
import proofs.«407303_j21680994910701_1_alg».proof.Proof.Gen.KernelIdeal.Skeleton
import proofs.«407303_j21680994910701_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # The region of `cc1__combine_kernel` (pipeline `cfg1`), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block index
    has not moved (`Dat.before_in_eq_fetched`), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block index
    has not moved (`Dat.before_in_eq_fetched`), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block index
    has not moved (`Dat.before_in_eq_fetched`), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): unfetched, the block index
    has not moved (`Dat.before_in_eq_fetched`), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

-- row k of the stacked hops' block, row k of the stacked weights, and the whole bias, slope and output blocks
abbrev r1_h0 : Rect S4x5000x64 := Rect.unit (s := S4x5000x64) ![0, 0, 0] S1x5000x64.size inb_S4x5000x64_S1x5000x64_0_0_0
abbrev r1_h1 : Rect S4x5000x64 := Rect.unit (s := S4x5000x64) ![1, 0, 0] S1x5000x64.size inb_S4x5000x64_S1x5000x64_1_0_0
abbrev r1_h2 : Rect S4x5000x64 := Rect.unit (s := S4x5000x64) ![2, 0, 0] S1x5000x64.size inb_S4x5000x64_S1x5000x64_2_0_0
abbrev r1_h3 : Rect S4x5000x64 := Rect.unit (s := S4x5000x64) ![3, 0, 0] S1x5000x64.size inb_S4x5000x64_S1x5000x64_3_0_0
abbrev r1_w0 : Rect S4x64x64 := Rect.unit (s := S4x64x64) ![0, 0, 0] S1x64x64.size inb_S4x64x64_S1x64x64_0_0_0
abbrev r1_w1 : Rect S4x64x64 := Rect.unit (s := S4x64x64) ![1, 0, 0] S1x64x64.size inb_S4x64x64_S1x64x64_1_0_0
abbrev r1_w2 : Rect S4x64x64 := Rect.unit (s := S4x64x64) ![2, 0, 0] S1x64x64.size inb_S4x64x64_S1x64x64_2_0_0
abbrev r1_w3 : Rect S4x64x64 := Rect.unit (s := S4x64x64) ![3, 0, 0] S1x64x64.size inb_S4x64x64_S1x64x64_3_0_0
abbrev r1_b : Rect S1x64 := Rect.unit (s := S1x64) ![0, 0] S1x64.size inb_S1x64_S1x64_0_0
abbrev r1_a : Rect S1x1 := Rect.unit (s := S1x1) ![0, 0] S1x1.size inb_S1x1_S1x1_0_0
abbrev r1_o : Rect S5000x64 := Rect.unit (s := S5000x64) ![0, 0] S5000x64.size inb_S5000x64_S5000x64_0_0

/-! ## What the body leaves in the output window's buffer -/

/-- Window 4's staging buffer after the body, from the input windows' blocks: its 1 store as pieces (`View.canon`),
    the payload the skeleton's — the first three hops' products summed (`k1_pay2`), the fourth hop's operands
    (`k1_pay3`, `k1_pay4`), the bias and the slope, combined by `k1_pay1`. -/
def out1_4 (x0 : Vec F S4x5000x64 .f32) (x1 : Vec F S4x64x64 .f32) (x2 : Vec F S1x64 .f32) (x3 : Vec F S1x1 .f32) : Vec F S5000x64 .f32 :=
  View.canon [⟨r1_o, k1_pay1 (k1_pay2 (View.ld x0 r1_h0) (View.ld x1 r1_w0) (View.ld x0 r1_h1) (View.ld x1 r1_w1) (View.ld x0 r1_h2) (View.ld x1 r1_w2)) (k1_pay3 (View.ld x0 r1_h3)) (k1_pay4 (View.ld x1 r1_w3)) (View.ld x2 r1_b) (View.ld x3 r1_a)⟩]

/-- Its store is of the whole block, so it covers the buffer. -/
theorem cover1_4 (p0 : Vec F S5000x64 .f32) (y : S5000x64.Idx) :
    ∃ pc ∈ ([⟨r1_o, p0⟩] : List (View.Piece (Elt F) S5000x64 .f32)), y ∈ pc.1.set :=
  View.cover_of_tiled [⟨r1_o, p0⟩] S5000x64.size (by rfl) y

/-! ## The body's triple -/

set_option maxHeartbeats 1000000 in
/-- The kernel body on whole staging memrefs, the inputs' at read contents `xW` and the output's at anything, runs to
    the continuation holding the inputs' as they were and the output's at `out1_4` of the inputs': the printed
    functions are their skeletons, run operation by operation through the part call. -/
theorem sound_kernel1 (c : Dev nD) (E : Set ℕ) (i : grid1.Coords)
    (arg1 : Memref sig .tc .vmem S4x5000x64 .f32) (harg1 : arg1.IsWhole) (arg2 : Memref sig .tc .vmem S4x64x64 .f32) (harg2 : arg2.IsWhole)
    (arg3 : Memref sig .tc .vmem S1x64 .f32) (harg3 : arg3.IsWhole) (arg4 : Memref sig .tc .vmem S1x1 .f32) (harg4 : arg4.IsWhole)
    (arg5 : Memref sig .tc .vmem S5000x64 .f32) (harg5 : arg5.IsWhole)
    (x0 : Vec F S4x5000x64 .f32) (x1 : Vec F S4x64x64 .f32) (x2 : Vec F S1x64 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_4 _)

/-! ## The pipeline's proof data -/

/-- The proof data of pipeline `cfg1` on core `c`: the arrays as the region finds them (`V`); after the body at
    point `t` each input's buffer at its block and the output's at `out1_4` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.PoolDefs.lean ====
/- The pooling kernel `cc2__pool_kernel` as pipeline 2 of the program: what its three cases' runs are stated over.
   The kernel walks a grid of ten row blocks. At the first point it clears an accumulator (a scratch buffer of
   128 x 64 words), at every point it adds `onehot(ids)ᵀ · h` of the point's row block to it, and at the last point it
   stores `acc · Wout + bout` into the one output block, which the pipeline writes back there and nowhere else.
   Here: the two branch conditions in closed form over the grid, where the output window is idle, the memrefs the body is
   called with, the blocks of the windows read off the buffer contents `V` the region is entered with, and the region's
   invariant with the accumulator singled out. -/
import proofs.«407303_j21680994910701_1_alg».proof.Proof.Gen.KernelIdeal.Launch
import proofs.«407303_j21680994910701_1_alg».proof.Proof.Gen.KernelIdeal.Skeleton
import proofs.«407303_j21680994910701_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the block
    index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the block
    index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the block
    index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the block
    index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end Regions

/-! ## The body's branch conditions -/

/-- The condition of the body's first `scf.if` (clear the accumulator), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 10 = 0 :=
  (by decide +kernel : ∀ t : Fin grid2.N, cond2_0 (grid2.coords t) ↔ t.val % 10 = 0)

/-- The condition of the body's second `scf.if` (store the output), from the grid coordinates. -/
abbrev cond2_1 (i : grid2.Coords) : Prop := k2_cond2 i = 1#1
/-- It holds at the last point only — decided over the grid. -/
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- At the first point the output window is idle: the body stores nothing into it. -/
theorem idleAt2_4_A : ∀ t : Fin cfg2.N, cond2_0 (grid2.coords t) → ¬cond2_1 (grid2.coords t) → cfg2.idle 4 (grid2.coords t) = true := by decide +kernel
/-- At the first point the pipeline does not write the output block back. -/
theorem noFlush2_4_A : ∀ t : Fin cfg2.N, cond2_0 (grid2.coords t) → ¬cond2_1 (grid2.coords t) → (cfg2.win 4).flush t = false := by decide +kernel
/-- At the points between the first and the last the output window is idle: the body stores nothing into it. -/
theorem idleAt2_4_B : ∀ t : Fin cfg2.N, ¬cond2_0 (grid2.coords t) → ¬cond2_1 (grid2.coords t) → cfg2.idle 4 (grid2.coords t) = true := by decide +kernel
/-- At the points between the first and the last the pipeline does not write the output block back. -/
theorem noFlush2_4_B : ∀ t : Fin cfg2.N, ¬cond2_0 (grid2.coords t) → ¬cond2_1 (grid2.coords t) → (cfg2.win 4).flush t = false := by decide +kernel
/-- At the last point the output window is live: the body stores into it. -/
theorem liveAt2_4_C : ∀ t : Fin cfg2.N, ¬cond2_0 (grid2.coords t) → cond2_1 (grid2.coords t) → cfg2.idle 4 (grid2.coords t) = false := by decide +kernel

/-! ## The memrefs the body is called with -/

/-- One staging buffer of the output window, through which its contents are stated (the choice does not matter). -/
abbrev VO2_4 : View sig .tc .vmem S128x1 .f32 := (Memref.whole cc2_stg4_0 : Memref sig .tc .vmem S128x1 .f32).view
/-- Each window's current staging memref at point `t`, spelled as the pipeline passes it, and its wholeness. -/
abbrev ms2_0 (t : Fin cfg2.N) : Memref sig .tc .vmem S5000x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x1 .f32 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows. -/
abbrev scM2_0 : Memref sig .tc .vmem S128x64 .f32 := Memref.whole cc2_scratch0
/-- The accumulator as a view: what it holds is stated through it. -/
abbrev VS2_0 : View sig .tc .vmem S128x64 .f32 := scM2_0.view

/-- The region's invariant with the accumulator as a memref owned at some contents; the other scoped buffers of the
    core (the staging buffers of the two earlier calls) stay as they are, each whole at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ d, owns (c : Thread nD τ) scM2_0 fullShare d)) ∗ (∃ r, prngReg c r)) := by
  unfold Pipeline.ΦA; rw [scopedRest2_eq]; simp only [scM2_0, owns_whole]; try rfl

end Cert.KernelIdeal.Hand

end
-- ==== Proof.KI.PoolRunA.lean ====
/- The pooling kernel's body run at the first point of its grid: the triple of the whole body there, with the pieces its stores
   leave in the accumulator and in the output's staging buffer as the witness the run finds. -/
import proofs.«407303_j21680994910701_1_alg».proof.Proof.KI.PoolDefs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at the FIRST point (the accumulator is cleared, the output is not stored): on whole memrefs, the inputs' at their
    contents, the output's at contents `xi4` handed back untouched, the accumulator at anything, the body runs to the
    continuation holding the inputs' as they were and the accumulator with its pieces written (the clearing store, then the
    accumulating store over it). The pieces are found by running the body's skeleton. -/
noncomputable def kernelRun2_A (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : cond2_0 i) (hc1 : ¬cond2_1 i)
    (x0 : Vec F S5000x1 .i32) (x1 : Vec F S5000x64 .f32) (x2 : Vec F S64x1 .f32) (x3 : Vec F S1x1 .f32) :
    Σ' (L4 : List (View.Piece (Elt F) S128x1 .f32)), { LS0 : List (View.Piece (Elt F) S128x64 .f32) //
      ∀ (xi4 : Vec F S128x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6) K } := by
  refine ⟨[], ?_, fun xi4 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.KI.PoolRunB.lean ====
/- The pooling kernel's body run at a middle point of its grid: the triple of the whole body there, with the pieces its stores
   leave in the accumulator and in the output's staging buffer as the witness the run finds. -/
import proofs.«407303_j21680994910701_1_alg».proof.Proof.KI.PoolRunA

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at a point that is neither the first nor the last (the accumulator is neither cleared nor read out): on whole
    memrefs, the inputs' at their contents, the output's at contents `xi4` handed back untouched, the accumulator at what the
    point before left (`xs0`), the body runs to the continuation holding the inputs' as they were and the accumulator with
    its one piece written. The piece is found by running the body's skeleton. -/
noncomputable def kernelRun2_B (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : ¬cond2_1 i)
    (x0 : Vec F S5000x1 .i32) (x1 : Vec F S5000x64 .f32) (x2 : Vec F S64x1 .f32) (x3 : Vec F S1x1 .f32) (xs0 : Vec F S128x64 .f32) :
    Σ' (L4 : List (View.Piece (Elt F) S128x1 .f32)), { LS0 : List (View.Piece (Elt F) S128x64 .f32) //
      ∀ (xi4 : Vec F S128x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6) K } := by
  refine ⟨[], ?_, fun xi4 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.KI.PoolRunC.lean ====
/- The pooling kernel's body run at the last point of its grid: the triple of the whole body there, with the pieces its stores
   leave in the accumulator and in the output's staging buffer as the witness the run finds. -/
import proofs.«407303_j21680994910701_1_alg».proof.Proof.KI.PoolRunB

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- The body at the LAST point (the accumulator is not cleared; the output is stored): on whole memrefs, the inputs' at their
    contents, the output's at anything, the accumulator at what the point before left (`xs0`), the body runs to the
    continuation holding the inputs' as they were, the accumulator with its piece written and the output's buffer with its
    piece written. The pieces are found by running the body's skeleton. -/
noncomputable def kernelRun2_C (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : cond2_1 i)
    (x0 : Vec F S5000x1 .i32) (x1 : Vec F S5000x64 .f32) (x2 : Vec F S64x1 .f32) (x3 : Vec F S1x1 .f32) (xs0 : Vec F S128x64 .f32) :
    Σ' (L4 : List (View.Piece (Elt F) S128x1 .f32)), { LS0 : List (View.Piece (Elt F) S128x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6) K } := by
  refine ⟨?_, ?_, fun E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.KI.Pool.lean ====
/- The pooling kernel `cc2__pool_kernel` as pipeline 2 of the program, at the buffer contents `V` the region is entered with:
   what each of its three cases leaves in the output's staging buffer and in the accumulator, what they hold point by point
   (`outsAt2`), the pipeline's proof data (`dat2`), the body obligation at every point and the invariant's two ends. -/
import proofs.«407303_j21680994910701_1_alg».proof.Proof.KI.PoolRunC

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! ## What each case leaves in the output's staging buffer and in the accumulator -/

/-- At the first point the body stores nothing into the output's staging buffer (the window is idle there and not written back): no
    pieces — a placeholder that nothing consults. -/
def out2_A_4 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : cond2_0 i) (hc1 : ¬cond2_1 i)
    (x0 : Vec F S5000x1 .i32) (x1 : Vec F S5000x64 .f32) (x2 : Vec F S64x1 .f32) (x3 : Vec F S1x1 .f32) : Vec F S128x1 .f32 :=
  VO2_4.read (Elt F) (VO2_4.writes (Elt F) VO2_4.junk (kernelRun2_A c i arg1 harg1 arg2 harg2 arg3 harg3 arg4 harg4 arg5 harg5 arg6 harg6 hc0 hc1 x0 x1 x2 x3).1)

/-- The pieces the first point leaves in the accumulator cover it (each store is of the whole buffer). -/
theorem scover2_A_0 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : cond2_0 i) (hc1 : ¬cond2_1 i)
    (x0 : Vec F S5000x1 .i32) (x1 : Vec F S5000x64 .f32) (x2 : Vec F S64x1 .f32) (x3 : Vec F S1x1 .f32) (y : S128x64.Idx) :
    ∃ pc ∈ (kernelRun2_A c i arg1 harg1 arg2 harg2 arg3 harg3 arg4 harg4 arg5 harg5 arg6 harg6 hc0 hc1 x0 x1 x2 x3).2.1, y ∈ pc.1.set :=
  View.cover_of_tiledL (kernelRun2_A c i arg1 harg1 arg2 harg2 arg3 harg3 arg4 harg4 arg5 harg5 arg6 harg6 hc0 hc1 x0 x1 x2 x3).2.1 S128x64.size (by sl_kernel_rfl) y

/-- What the first point leaves in the accumulator: its pieces read back. -/
def sout2_A_0 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : cond2_0 i) (hc1 : ¬cond2_1 i)
    (x0 : Vec F S5000x1 .i32) (x1 : Vec F S5000x64 .f32) (x2 : Vec F S64x1 .f32) (x3 : Vec F S1x1 .f32) : Vec F S128x64 .f32 :=
  VS2_0.read (Elt F) (VS2_0.writes (Elt F) VS2_0.junk (kernelRun2_A c i arg1 harg1 arg2 harg2 arg3 harg3 arg4 harg4 arg5 harg5 arg6 harg6 hc0 hc1 x0 x1 x2 x3).2.1)

/-- At a point between the first and the last the body stores nothing into the output's staging buffer (the window is idle there and not written back): no
    pieces — a placeholder that nothing consults. -/
def out2_B_4 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : ¬cond2_1 i)
    (x0 : Vec F S5000x1 .i32) (x1 : Vec F S5000x64 .f32) (x2 : Vec F S64x1 .f32) (x3 : Vec F S1x1 .f32) (xs0 : Vec F S128x64 .f32) : Vec F S128x1 .f32 :=
  VO2_4.read (Elt F) (VO2_4.writes (Elt F) VO2_4.junk (kernelRun2_B c i arg1 harg1 arg2 harg2 arg3 harg3 arg4 harg4 arg5 harg5 arg6 harg6 hc0 hc1 x0 x1 x2 x3 xs0).1)

/-- The pieces a point between the first and the last leaves in the accumulator cover it (each store is of the whole buffer). -/
theorem scover2_B_0 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : ¬cond2_1 i)
    (x0 : Vec F S5000x1 .i32) (x1 : Vec F S5000x64 .f32) (x2 : Vec F S64x1 .f32) (x3 : Vec F S1x1 .f32) (xs0 : Vec F S128x64 .f32) (y : S128x64.Idx) :
    ∃ pc ∈ (kernelRun2_B c i arg1 harg1 arg2 harg2 arg3 harg3 arg4 harg4 arg5 harg5 arg6 harg6 hc0 hc1 x0 x1 x2 x3 xs0).2.1, y ∈ pc.1.set :=
  View.cover_of_tiledL (kernelRun2_B c i arg1 harg1 arg2 harg2 arg3 harg3 arg4 harg4 arg5 harg5 arg6 harg6 hc0 hc1 x0 x1 x2 x3 xs0).2.1 S128x64.size (by sl_kernel_rfl) y

/-- What a point between the first and the last leaves in the accumulator: its pieces read back. -/
def sout2_B_0 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : ¬cond2_1 i)
    (x0 : Vec F S5000x1 .i32) (x1 : Vec F S5000x64 .f32) (x2 : Vec F S64x1 .f32) (x3 : Vec F S1x1 .f32) (xs0 : Vec F S128x64 .f32) : Vec F S128x64 .f32 :=
  VS2_0.read (Elt F) (VS2_0.writes (Elt F) VS2_0.junk (kernelRun2_B c i arg1 harg1 arg2 harg2 arg3 harg3 arg4 harg4 arg5 harg5 arg6 harg6 hc0 hc1 x0 x1 x2 x3 xs0).2.1)

/-- At the last point the body's one store into the output's staging buffer is of the whole block: its piece covers it. -/
theorem cover2_C_4 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : cond2_1 i)
    (x0 : Vec F S5000x1 .i32) (x1 : Vec F S5000x64 .f32) (x2 : Vec F S64x1 .f32) (x3 : Vec F S1x1 .f32) (xs0 : Vec F S128x64 .f32) (y : S128x1.Idx) :
    ∃ pc ∈ (kernelRun2_C c i arg1 harg1 arg2 harg2 arg3 harg3 arg4 harg4 arg5 harg5 arg6 harg6 hc0 hc1 x0 x1 x2 x3 xs0).1, y ∈ pc.1.set :=
  View.cover_of_tiledL (kernelRun2_C c i arg1 harg1 arg2 harg2 arg3 harg3 arg4 harg4 arg5 harg5 arg6 harg6 hc0 hc1 x0 x1 x2 x3 xs0).1 S128x1.size (by sl_kernel_rfl) y

/-- What the last point leaves in the output's staging buffer: its piece read back. -/
def out2_C_4 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : cond2_1 i)
    (x0 : Vec F S5000x1 .i32) (x1 : Vec F S5000x64 .f32) (x2 : Vec F S64x1 .f32) (x3 : Vec F S1x1 .f32) (xs0 : Vec F S128x64 .f32) : Vec F S128x1 .f32 :=
  VO2_4.read (Elt F) (VO2_4.writes (Elt F) VO2_4.junk (kernelRun2_C c i arg1 harg1 arg2 harg2 arg3 harg3 arg4 harg4 arg5 harg5 arg6 harg6 hc0 hc1 x0 x1 x2 x3 xs0).1)

/-- The pieces the last point leaves in the accumulator cover it (each store is of the whole buffer). -/
theorem scover2_C_0 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : cond2_1 i)
    (x0 : Vec F S5000x1 .i32) (x1 : Vec F S5000x64 .f32) (x2 : Vec F S64x1 .f32) (x3 : Vec F S1x1 .f32) (xs0 : Vec F S128x64 .f32) (y : S128x64.Idx) :
    ∃ pc ∈ (kernelRun2_C c i arg1 harg1 arg2 harg2 arg3 harg3 arg4 harg4 arg5 harg5 arg6 harg6 hc0 hc1 x0 x1 x2 x3 xs0).2.1, y ∈ pc.1.set :=
  View.cover_of_tiledL (kernelRun2_C c i arg1 harg1 arg2 harg2 arg3 harg3 arg4 harg4 arg5 harg5 arg6 harg6 hc0 hc1 x0 x1 x2 x3 xs0).2.1 S128x64.size (by sl_kernel_rfl) y

/-- What the last point leaves in the accumulator: its pieces read back. -/
def sout2_C_0 (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : cond2_1 i)
    (x0 : Vec F S5000x1 .i32) (x1 : Vec F S5000x64 .f32) (x2 : Vec F S64x1 .f32) (x3 : Vec F S1x1 .f32) (xs0 : Vec F S128x64 .f32) : Vec F S128x64 .f32 :=
  VS2_0.read (Elt F) (VS2_0.writes (Elt F) VS2_0.junk (kernelRun2_C c i arg1 harg1 arg2 harg2 arg3 harg3 arg4 harg4 arg5 harg5 arg6 harg6 hc0 hc1 x0 x1 x2 x3 xs0).2.1)

/-! ## What the output's buffer and the accumulator hold after each point -/

/-- THE ACCUMULATION. What the output's staging buffer and the accumulator hold after the body at position `n` (a pair: the
    output, then the accumulator): the case the closed forms select at `n`, run at the point's memrefs and input blocks, the
    accumulator — which every point but the first reads before it stores — at what this leaves at `n - 1`. An assignment of
    the conditions no point meets is no case. -/
def outsAt2 (c : Dev nD) : (n : ℕ) → n < cfg2.N → Vec F S128x1 .f32 × Vec F S128x64 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 10 = 0 then
      if h1 : (n + 1) % 10 = 9 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 10 = 9 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

/-- `outsAt2` at the first point: that case's contents. -/
theorem outsAt2_A (c : Dev nD) (t : Fin cfg2.N) (h0 : t.val % 10 = 0) (h1 : ¬t.val % 10 = 9) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- `outsAt2` at a point between the first and the last: that case's contents, over what the point before left. -/
theorem outsAt2_B (c : Dev nD) (t : Fin cfg2.N) (h0 : ¬t.val % 10 = 0) (h1 : ¬t.val % 10 = 9) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point: that case's contents, over what the point before left. -/
theorem outsAt2_C (c : Dev nD) (t : Fin cfg2.N) (h0 : ¬t.val % 10 = 0) (h1 : t.val % 10 = 9) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands the region (every scoped buffer
    at anything); afterwards the same with the accumulator at what the point before left in it (`outsAt2`'s second
    component), the other scoped buffers at anything, and the generator register at some state. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the pooling pipeline on core `c`: the arrays as the region finds them (`V`); after the body at point `t`
    each input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' memrefs hold their blocks; the closed forms say which case the point is in; the
    invariant hands the body the accumulator at what the point before left (at anything at the first point), and takes it
    back at this point's contents, the pieces the case stored covering it; the other scoped buffers and the generator
    register pass through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val % 10 = 0
  · by_cases h1 : t.val % 10 = 9
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover2_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · exfalso; omega
  · by_cases h1 : t.val % 10 = 9
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      by_cases hz : t.val = 0
      · exfalso; omega
      · rw [PhiS2_castSucc V c t, PhiS2_pos V c _ _ hz]
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover2_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover2_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR0, HR1, HR2, HR3, HR4, HR5, HR6, HR7, HR8, HR9, HR10, HR11, HR12, HR13, HS0⟩, Hg⟩
  isplitl [HR0 HR1 HR2 HR3 HR4 HR5 HR6 HR7 HR8 HR9 HR10 HR11 HR12 HR13 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

end Regions

end Cert.KernelIdeal.Hand

end
-- ==== Proof.KI.Vals.lean ====
/- THE BUFFER CONTENTS AT THE BOUNDARIES of @main of `proofs.«407303_j21680994910701_1_alg».proof.KernelIdeal`: a 2-layer TAGConv network run as three
   pipelined kernel regions (two combine layers, one pooling head) among five stretches of host operations.
   The contents at every segment boundary are a fold from the launch memory (`W0` … `W8`): a host stretch rewrites the
   buffers its operations write (`StableHlo.after`); a region leaves in its arrays what its write-backs leave and every
   other buffer as it found it (`Pipeline.withArrays`). Each stretch's written references are listed, and every argument
   array is read back through the fold to its launch contents (`W8_main_argK`). -/
import proofs.«407303_j21680994910701_1_alg».proof.Proof.KI.Comb0
import proofs.«407303_j21680994910701_1_alg».proof.Proof.KI.Comb1
import proofs.«407303_j21680994910701_1_alg».proof.Proof.KI.Pool
import proofs.«407303_j21680994910701_1_alg».proof.Proof.Gen.KernelIdeal.Launch
import proofs.«407303_j21680994910701_1_alg».proof.Proof.Gen.KernelIdeal.Skeleton
import proofs.«407303_j21680994910701_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership among the program's references and the long host stretches' lists recurse past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main's segments: a fold from the launch memory

@main is three host stretches, region 0, a host stretch, region 1, a host stretch, region 2. A host stretch
rewrites the buffers its operations write; a region leaves in its arrays what its write-backs leave and every
other buffer as it found it. -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2` (region 0's entry). -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves and every other buffer what it held at
    entry: the two hypotheses under which the arrays go back among the unscoped buffers. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves and every other buffer what it held at
    entry: the two hypotheses under which the arrays go back among the unscoped buffers. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2` (region 2's entry). -/
abbrev W7 : Dev nD → Valuation τ sig (Elt F) := fun c => StableHlo.after hostOps2 (W6 m ρ c)
/-- The same read at the TensorCore's references (what region 2's proof data take). -/
abbrev V7 : (c : Dev nD) → (b : Ref sig .tc) → Buf (Elt F) ((c : Thread nD τ).loc b) := fun c b => W7 m ρ c b
/-- At region 2's exit: its arrays at what the pipeline leaves (the inputs as entered, each output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (region 2's exit contents). -/
abbrev V8 : (c : Dev nD) → (b : Ref sig .tc) → Buf (Elt F) ((c : Thread nD τ).loc b) := fun c b => W8 m ρ c b
/-- At region 2's exit each of its arrays holds what the pipeline leaves and every other buffer what it held at
    entry: the two hypotheses under which the arrays go back among the unscoped buffers. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ## What the host stretches write -/

/-- No operation of `hostOps0` allocates a buffer. -/
theorem hostOps0_fresh : (hostOps0 : List (HloOp τ sig (Elt F))).Forall fun op => op.fresh = ∅ := by
  simp only [List.Forall]; repeat' constructor
/-- The references `hostOps0`'s operations write, in order. -/
abbrev hostOps0_W : List (Ref sig .tc) :=
  [main_v0, main_v1, main_v2, main_v3, main_cst, main_v4, main_c, main_v5, main_v6, main_c_0,
   main_v7, main_v8, main_v9, main_v10, main_cst_1, main_v11, main_v12, main_cst_2, main_v13, main_v14,
   main_v15, main_cst_3]
theorem hostOps0_writes : (hostOps0 : List (HloOp τ sig (Elt F))).Forall fun op => op.writes ⊆ ((hostOps0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps0_1` allocates a buffer. -/
theorem hostOps0_1_fresh : (hostOps0_1 : List (HloOp τ sig (Elt F))).Forall fun op => op.fresh = ∅ := by
  simp only [List.Forall]; repeat' constructor
/-- The references `hostOps0_1`'s operations write, in order. -/
abbrev hostOps0_1_W : List (Ref sig .tc) :=
  [main_call0_v0, main_call0_v1, main_v16]
theorem hostOps0_1_writes : (hostOps0_1 : List (HloOp τ sig (Elt F))).Forall fun op => op.writes ⊆ ((hostOps0_1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps0_2` allocates a buffer. -/
theorem hostOps0_2_fresh : (hostOps0_2 : List (HloOp τ sig (Elt F))).Forall fun op => op.fresh = ∅ := by
  simp only [List.Forall]; repeat' constructor
/-- The references `hostOps0_2`'s operations write, in order. -/
abbrev hostOps0_2_W : List (Ref sig .tc) :=
  [main_c_4, main_v17, main_v18, main_c_5, main_v19, main_v20, main_v21, main_v22, main_v23, main_c_6,
   main_v24, main_v25, main_c_7, main_v26, main_v27, main_v28, main_v29, main_v30, main_v31, main_c_8,
   main_v32, main_v33, main_c_9, main_v34, main_v35, main_v36, main_v37, main_v38, main_v39, main_v40,
   main_v41, main_cst_10, main_v42, main_v43, main_v44, main_c_11, main_v45, main_v46, main_c_12, main_v47,
   main_v48, main_v49, main_v50, main_v51, main_v52, main_v53, main_v54, main_cst_13, main_v55, main_v56,
   main_v57, main_c_14, main_v58, main_v59, main_c_15, main_v60, main_v61, main_v62, main_v63, main_v64,
   main_v65, main_v66, main_v67, main_cst_16, main_v68, main_v69, main_v70, main_v71, main_v72, main_v73,
   main_v74, main_v75, main_v76, main_v77]
theorem hostOps0_2_writes : (hostOps0_2 : List (HloOp τ sig (Elt F))).Forall fun op => op.writes ⊆ ((hostOps0_2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps1` allocates a buffer. -/
theorem hostOps1_fresh : (hostOps1 : List (HloOp τ sig (Elt F))).Forall fun op => op.fresh = ∅ := by
  simp only [List.Forall]; repeat' constructor
/-- The references `hostOps1`'s operations write, in order. -/
abbrev hostOps1_W : List (Ref sig .tc) :=
  [main_c_17, main_v79, main_v80, main_c_18, main_v81, main_v82, main_v83, main_v84, main_v85, main_v86,
   main_v87, main_v88, main_cst_19, main_v89, main_v90, main_v91, main_c_20, main_v92, main_v93, main_c_21,
   main_v94, main_v95, main_v96, main_v97, main_v98, main_v99, main_v100, main_v101, main_cst_22, main_v102,
   main_v103, main_v104, main_c_23, main_v105, main_v106, main_c_24, main_v107, main_v108, main_v109, main_v110,
   main_v111, main_v112, main_v113, main_v114, main_cst_25, main_v115, main_v116, main_v117, main_v118, main_v119,
   main_v120, main_v121, main_v122, main_v123, main_v124]
theorem hostOps1_writes : (hostOps1 : List (HloOp τ sig (Elt F))).Forall fun op => op.writes ⊆ ((hostOps1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps2` allocates a buffer. -/
theorem hostOps2_fresh : (hostOps2 : List (HloOp τ sig (Elt F))).Forall fun op => op.fresh = ∅ := by
  simp only [List.Forall]; repeat' constructor
/-- The references `hostOps2`'s operations write, in order. -/
abbrev hostOps2_W : List (Ref sig .tc) :=
  [main_v126, main_v127]
theorem hostOps2_writes : (hostOps2 : List (HloOp τ sig (Elt F))).Forall fun op => op.writes ⊆ ((hostOps2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## What each segment leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
/-- From the launch to region 0's entry, a reference none of the three stretches writes keeps its launch contents. -/
theorem W3_launch (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (W3_of m ρ c r h2).trans <| (W2_of m ρ c r h1).trans <| (W1_of m ρ c r h0).trans rfl

/-! ## The arguments end as launched

No host operation writes an argument, and a region either bypasses it or reads it through an input window, so the
fold at an argument's buffer walks back to the launch memory. -/

/-- Region 0 leaves an input window's array as it found it. -/
theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
/-- Region 1 leaves an input window's array as it found it. -/
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))
/-- Region 2 leaves an input window's array as it found it. -/
theorem W8_in (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))

/-- A reference no stretch writes and no region has among its arrays holds its launch contents at the end. -/
theorem W8_keep (c : Dev nD) (r : Ref sig .tc) (h0 : r ∉ hostOps0_W) (h1 : r ∉ hostOps0_1_W) (h2 : r ∉ hostOps0_2_W)
    (h3 : r ∉ hostOps1_W) (h4 : r ∉ hostOps2_W) (a0 : ∀ w, Pipeline.arrRef spec0 w ≠ r) (a1 : ∀ w, Pipeline.arrRef spec1 w ≠ r)
    (a2 : ∀ w, Pipeline.arrRef spec2 w ≠ r) : W8 m ρ c (Proc.devRef .tc r) = m ((c : Thread nD τ).loc r) :=
  calc W8 m ρ c (Proc.devRef .tc r)
    _ = W7 m ρ c (Proc.devRef .tc r) := W8_of_ne m ρ c r a2
    _ = W6 m ρ c (Proc.devRef .tc r) := W7_of m ρ c r h4
    _ = W5 m ρ c (Proc.devRef .tc r) := W6_of_ne m ρ c r a1
    _ = W4 m ρ c (Proc.devRef .tc r) := W5_of m ρ c r h3
    _ = W3 m ρ c (Proc.devRef .tc r) := W4_of_ne m ρ c r a0
    _ = m ((c : Thread nD τ).loc r) := W3_launch m ρ c r h0 h1 h2

theorem W8_main_arg0 (c : Dev nD) : W8 m ρ c (Proc.devRef .tc main_arg0) = m ((c : Thread nD τ).loc main_arg0) :=
  W8_keep m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_keep m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_keep m ρ c main_arg2 (by decide) (by decide) (by decide) (by decide) (by decide) (by decide) (by decide) (by decide)
theorem W8_main_arg4 (c : Dev nD) : W8 m ρ c (Proc.devRef .tc main_arg4) = m ((c : Thread nD τ).loc main_arg4) :=
  W8_keep m ρ c main_arg4 (by decide) (by decide) (by decide) (by decide) (by decide) (by decide) (by decide) (by decide)
theorem W8_main_arg6 (c : Dev nD) : W8 m ρ c (Proc.devRef .tc main_arg6) = m ((c : Thread nD τ).loc main_arg6) :=
  W8_keep m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_keep m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_keep m ρ c main_arg8 (by decide) (by decide) (by decide) (by decide) (by decide) (by decide) (by decide) (by decide)
theorem W8_main_arg10 (c : Dev nD) : W8 m ρ c (Proc.devRef .tc main_arg10) = m ((c : Thread nD τ).loc main_arg10) :=
  W8_keep m ρ c main_arg10 (by decide) (by decide) (by decide) (by decide) (by decide) (by decide) (by decide) (by decide)
/-- `main_arg3` is region 0's second input window's array. -/
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_in m ρ c 1 rfl
    _ = m ((c : Thread nD τ).loc main_arg3) := W3_launch m ρ c main_arg3 (by decide) (by decide) (by decide)
/-- `main_arg5` is region 1's second input window's array. -/
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_in m ρ c 1 rfl
    _ = W4 m ρ c (Proc.devRef .tc main_arg5) := W5_of m ρ c main_arg5 (by decide)
    _ = W3 m ρ c (Proc.devRef .tc main_arg5) := W4_of_ne m ρ c main_arg5 (by decide)
    _ = m ((c : Thread nD τ).loc main_arg5) := W3_launch m ρ c main_arg5 (by decide) (by decide) (by decide)
/-- `main_arg9` is region 2's third input window's array. -/
theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_in m ρ c 2 rfl
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = m ((c : Thread nD τ).loc main_arg9) := W3_launch m ρ c main_arg9 (by decide) (by decide) (by decide)

end Cert.KernelIdeal.Hand

end
-- ==== Proof.KI.Run.lean ====
/- THE RUN of @main of `proofs.«407303_j21680994910701_1_alg».proof.KernelIdeal` over its eight segments — three host stretches, region 0, a host
   stretch, region 1, a host stretch, region 2 — from the launch to the return. Each region is a segment over the thread
   state "every unscoped buffer at the boundary's contents, the generator register at some state, nothing owed": its
   arrays are split out of the unscoped buffers at entry and put back at the exit contents. @main is the run of the
   segments, and the launch theorem over them gives the run (`run_main`): every weakly fair execution terminates without
   fault, the result array ends at the last boundary's contents and the arguments end as launched (`frame`). -/
import proofs.«407303_j21680994910701_1_alg».proof.Proof.KI.Vals
import proofs.«407303_j21680994910701_1_alg».proof.Proof.Gen.KernelIdeal.Launch
import proofs.«407303_j21680994910701_1_alg».proof.Proof.Gen.KernelIdeal.Skeleton
import proofs.«407303_j21680994910701_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership among the program's references and the long host stretches' lists recurse past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return

## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W8`, the
    generator register at some state. -/
abbrev Tₙ (c : Dev nD) : sProp 𝕄 := iprop(StableHlo.held (c : Thread nD τ) (Pipeline.ucRefs τ sig) (W8 m ρ c) ∗ ∃ r, prngReg c r)

/-! ## The regions as segments -/

-- the library's lemmas are stated over the pinned configuration `pin pcs a p`; unifying it with the printed one
-- takes unfolding plain definitions in a metavariable's type
set_option backward.isDefEq.respectTransparency.types false in
/-- REGION 0 (custom_call 0) over the thread state: entered from every unscoped buffer at `W3`, left at `W4`.
    Its arrays are split out of the unscoped buffers and put back at the exit contents; the generator register goes into
    the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`; unifying it with the printed one
-- takes unfolding plain definitions in a metavariable's type
set_option backward.isDefEq.respectTransparency.types false in
/-- REGION 1 (custom_call 1) over the thread state: entered from every unscoped buffer at `W5`, left at `W6`.
    Its arrays are split out of the unscoped buffers and put back at the exit contents; the generator register goes into
    the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`; unifying it with the printed one
-- takes unfolding plain definitions in a metavariable's type
set_option backward.isDefEq.respectTransparency.types false in
/-- REGION 2 (custom_call 2) over the thread state: entered from every unscoped buffer at `W7`, left at `W8`.
    Its arrays are split out of the unscoped buffers and put back at the exit contents; the generator register goes into
    the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V7 m ρ) c)
    unfold Pipeline.ΦA
    iintro ⟨Hp, -, Hr⟩
    isplitl [Hr]; · iexact Hr
    iexact Hp
  hout c := by
    rw [Pipeline.ownSems0_none]
    refine BIBase.Entails.trans (hout2 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]
/-- @main IS the run of the segments: its chain of items, then the segments' run against that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has the result array at the last boundary's
    contents and the argument arrays as launched. -/
theorem run_main : θ_run defs (onTc (τ := τ) (main (F := F))) ⟨m, fun _ => 0, ρ⟩ (fun r => ∀ c : Dev nD,
      r.2.mem ((c.tc : Thread nD τ).loc main_v128) = W8 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v128 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

/-- THE FRAME: the run, read at the arguments alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_main m ρ)

end Cert.KernelIdeal.Hand

end
-- ==== Proof.Hop.lean ====
/-
  One propagation hop of the graph convolution, as the reference writes it: the rows of a feature table `h` are
  gathered at the edges' source nodes, scaled by the edges' normalisation weights, and added into the rows of the
  edges' target nodes. The reference applies it three times in each layer; each application is the same function
  of the edge list and of the table it is applied to.
-/
import proofs.«407303_j21680994910701_1_alg».proof.Proof.RefRead

noncomputable section

namespace Cert.Bridge

open Cert.ReferenceIdeal Cert.ReferenceIdeal.Gen Cert.ReferenceIdeal.Read Idealize.ShloMosaic Idealize.ShloMosaic.TcCoe

variable {F : FTy → Type} [FloatOps F]

/-- One hop: gather the source rows of `h`, scale each by its edge's weight, add into the target rows. -/
def hop (x1 : (⟨S2x800000, .i32⟩ : BufTy).Contents (Elt F)) (h : (⟨S50000x64, .f32⟩ : BufTy).Contents (Elt F)) :
    (⟨S50000x64, .f32⟩ : BufTy).Contents (Elt F) :=
  Host.scatterAdd scatter_S50000x64_S800000x1_S800000x64_1_0_0_1 (val_main_v45 (F := F)) (val_main_v46 (F := F) x1)
    (mulf (Host.gather gather_S50000x64_S800000x1_S800000x64_1_0_n_n_0_1_164 h (val_main_v40 (F := F) x1)) (val_main_v43 (F := F) x1))

variable (x0 : (⟨S50000x64, .f32⟩ : BufTy).Contents (Elt F)) (x1 : (⟨S2x800000, .i32⟩ : BufTy).Contents (Elt F))
  (x3 : (⟨S4x64x64, .f32⟩ : BufTy).Contents (Elt F)) (x4 : (⟨S64, .f32⟩ : BufTy).Contents (Elt F))
  (x7 : (⟨S1, .f32⟩ : BufTy).Contents (Elt F))

/-- The first layer's three hops are `hop` applied one, two and three times to the input features. -/
theorem v47_eq : val_main_v47 (F := F) x0 x1 = hop x1 x0 := rfl
theorem v64_eq : val_main_v64 (F := F) x0 x1 = hop x1 (hop x1 x0) := rfl
theorem v81_eq : val_main_v81 (F := F) x0 x1 = hop x1 (hop x1 (hop x1 x0)) := rfl

/-- The second layer's three hops are `hop` applied to the first layer's output. -/
theorem v110_eq : val_main_v110 (F := F) x0 x1 x3 x4 x7 = hop x1 (val_main_v94 (F := F) x0 x1 x3 x4 x7) := rfl
theorem v127_eq : val_main_v127 (F := F) x0 x1 x3 x4 x7 = hop x1 (hop x1 (val_main_v94 (F := F) x0 x1 x3 x4 x7)) := rfl
theorem v144_eq : val_main_v144 (F := F) x0 x1 x3 x4 x7 = hop x1 (hop x1 (hop x1 (val_main_v94 (F := F) x0 x1 x3 x4 x7))) := rfl

end Cert.Bridge

end
-- ==== Proof.KI.ValHost.lean ====
/- What the host stretches of @main leave in the buffers its three kernel regions read.
   Before the first combine layer the host computes the symmetric normalisation of the edge weights and three propagation
   hops of the input features, stacks the four tables (the features and their one-, two- and three-hop images) and reshapes
   the bias and the slope; before the second layer the same over the first layer's output; before the pooling head it
   reshapes the graph ids and the output bias. Each buffer a region's window reads is identified here with the
   reference's own operations on the launch arguments: `Cert.Bridge.hop` for a hop, `stackK` for the stacking. -/
import proofs.«407303_j21680994910701_1_alg».proof.Proof.KI.Vals
import proofs.«407303_j21680994910701_1_alg».proof.Proof.Hop
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo
open Cert.Bridge (hop)

variable {F : FTy → Type} [FloatOps F]

variable (m : (ℓ : Loc nD τ sig) → Buf (Elt F) ℓ) (ρ : Dev nD → PrngReg) (c : Dev nD)

/-! ## The launch arguments on core `c` -/

/-- The node features. -/
abbrev X0 : (⟨S50000x64, .f32⟩ : BufTy).Contents (Elt F) := W0 m ρ c (Proc.devRef .tc main_arg0)
/-- The edge list: row 0 the sources, row 1 the targets. -/
abbrev X1 : (⟨S2x800000, .i32⟩ : BufTy).Contents (Elt F) := W0 m ρ c (Proc.devRef .tc main_arg1)
/-- The nodes' graph ids. -/
abbrev X2 : (⟨S50000, .i32⟩ : BufTy).Contents (Elt F) := W0 m ρ c (Proc.devRef .tc main_arg2)
/-- The first layer's weights, bias and slope; the second layer's. -/
abbrev X3 : (⟨S4x64x64, .f32⟩ : BufTy).Contents (Elt F) := W0 m ρ c (Proc.devRef .tc main_arg3)
abbrev X4 : (⟨S64, .f32⟩ : BufTy).Contents (Elt F) := W0 m ρ c (Proc.devRef .tc main_arg4)
abbrev X5 : (⟨S4x64x64, .f32⟩ : BufTy).Contents (Elt F) := W0 m ρ c (Proc.devRef .tc main_arg5)
abbrev X6 : (⟨S64, .f32⟩ : BufTy).Contents (Elt F) := W0 m ρ c (Proc.devRef .tc main_arg6)
abbrev X7 : (⟨S1, .f32⟩ : BufTy).Contents (Elt F) := W0 m ρ c (Proc.devRef .tc main_arg7)
abbrev X8 : (⟨S1, .f32⟩ : BufTy).Contents (Elt F) := W0 m ρ c (Proc.devRef .tc main_arg8)
/-- The head's weights and bias. -/
abbrev X9 : (⟨S64x1, .f32⟩ : BufTy).Contents (Elt F) := W0 m ρ c (Proc.devRef .tc main_arg9)
abbrev X10 : (⟨S1, .f32⟩ : BufTy).Contents (Elt F) := W0 m ρ c (Proc.devRef .tc main_arg10)

/-! ## The stacking -/

/-- Four tables, each broadcast to one slab `[1, 50000, 64]`, concatenated along the new leading axis. -/
def stackK (h0 h1 h2 h3 : (⟨S50000x64, .f32⟩ : BufTy).Contents (Elt F)) : (⟨S4x50000x64, .f32⟩ : BufTy).Contents (Elt F) :=
  concatenate S4x50000x64 0
    [⟨S1x50000x64, broadcastInDim S1x50000x64 ![1, 2] bcast_S50000x64_S1x50000x64_1_2 h0⟩,
     ⟨S1x50000x64, broadcastInDim S1x50000x64 ![1, 2] bcast_S50000x64_S1x50000x64_1_2 h1⟩,
     ⟨S1x50000x64, broadcastInDim S1x50000x64 ![1, 2] bcast_S50000x64_S1x50000x64_1_2 h2⟩,
     ⟨S1x50000x64, broadcastInDim S1x50000x64 ![1, 2] bcast_S50000x64_S1x50000x64_1_2 h3⟩]
    concatenates_S1x50000x64_S1x50000x64_S1x50000x64_S1x50000x64_S4x50000x64_d0

/-! ## The edge list's pieces and the edge weights at region 0's entry

The first stretch splits the edge list into its source and target rows; the stretch before region 0 computes the
normalised edge weights. Later stretches read these buffers again, and no region writes them. -/

/-- The source row of the edge list, as a vector. -/
theorem W3_v1 : (W3 m ρ c (Proc.devRef .tc main_v1) : (⟨S800000, .i32⟩ : BufTy).Contents (Elt F))
    = Cert.ReferenceIdeal.Read.val_main_v1 (X1 m ρ c) := by
  show StableHlo.after hostOps0_2 (W2 m ρ c) (Proc.devRef .tc main_v1) = _
  after_results_simp
  rfl

/-- The target row of the edge list, as a vector. -/
theorem W3_v3 : (W3 m ρ c (Proc.devRef .tc main_v3) : (⟨S800000, .i32⟩ : BufTy).Contents (Elt F))
    = Cert.ReferenceIdeal.Read.val_main_v3 (X1 m ρ c) := by
  show StableHlo.after hostOps0_2 (W2 m ρ c) (Proc.devRef .tc main_v3) = _
  after_results_simp
  rfl

/-- The normalised edge weights: the product of the inverse square roots of the two end nodes' degrees. -/
theorem W3_v31 : (W3 m ρ c (Proc.devRef .tc main_v31) : (⟨S800000, .f32⟩ : BufTy).Contents (Elt F))
    = Cert.ReferenceIdeal.Read.val_main_v31 (X1 m ρ c) := by
  show StableHlo.after hostOps0_2 (W2 m ρ c) (Proc.devRef .tc main_v31) = _
  after_results_simp
  rfl

/-- A reference that no host stretch up to region 2's entry writes and that neither combine region has among its
    arrays holds its launch contents when the second combine region is left. -/
theorem W6_launch (r : Ref sig .tc) (h0 : r ∉ hostOps0_W) (h1 : r ∉ hostOps0_1_W) (h2 : r ∉ hostOps0_2_W) (h3 : r ∉ hostOps1_W)
    (a0 : ∀ w, Pipeline.arrRef spec0 w ≠ r) (a1 : ∀ w, Pipeline.arrRef spec1 w ≠ r) :
    W6 m ρ c (Proc.devRef .tc r) = m ((c : Thread nD τ).loc r) :=
  (W6_of_ne m ρ c r a1).trans <| (W5_of m ρ c r h3).trans <| (W4_of_ne m ρ c r a0).trans <| W3_launch m ρ c r h0 h1 h2

/-! ## Region 0's entry -/

set_option maxHeartbeats 8000000 in
theorem V3_hstack : (V3 m ρ c main_v75 : (⟨S4x50000x64, .f32⟩ : BufTy).Contents (Elt F))
    = stackK (X0 m ρ c) (hop (X1 m ρ c) (X0 m ρ c)) (hop (X1 m ρ c) (hop (X1 m ρ c) (X0 m ρ c)))
        (hop (X1 m ρ c) (hop (X1 m ρ c) (hop (X1 m ρ c) (X0 m ρ c)))) := by
  show StableHlo.after hostOps0_2 (W2 m ρ c) (Proc.devRef .tc main_v75) = _
  simp only [after_cons, after_nil]
  rw [reshape_result_ne]; rotate_left; decide
  rw [reshape_result_ne]; rotate_left; decide
  -- the buffers as the concatenate finds them
  generalize hU : (StableHlo.unary main_v70 main_v74 _ _ _ : HloOp τ sig (Elt F)).result _ = U
  rw [nary4_result]
  have e0 : (U (Proc.devRef .tc main_v71) : (⟨S1x50000x64, .f32⟩ : BufTy).Contents (Elt F)) = broadcastInDim S1x50000x64 ![1, 2] bcast_S50000x64_S1x50000x64_1_2 (X0 m ρ c) := by
    rw [← hU]; after_results_simp; try rfl
  have e1 : (U (Proc.devRef .tc main_v72) : (⟨S1x50000x64, .f32⟩ : BufTy).Contents (Elt F)) = broadcastInDim S1x50000x64 ![1, 2] bcast_S50000x64_S1x50000x64_1_2 (hop (X1 m ρ c) (X0 m ρ c)) := by
    rw [← hU]; after_results_simp; try rfl
  have e2 : (U (Proc.devRef .tc main_v73) : (⟨S1x50000x64, .f32⟩ : BufTy).Contents (Elt F)) = broadcastInDim S1x50000x64 ![1, 2] bcast_S50000x64_S1x50000x64_1_2 (hop (X1 m ρ c) (hop (X1 m ρ c) (X0 m ρ c))) := by
    rw [← hU]; after_results_simp; try rfl
  have e3 : (U (Proc.devRef .tc main_v74) : (⟨S1x50000x64, .f32⟩ : BufTy).Contents (Elt F)) = broadcastInDim S1x50000x64 ![1, 2] bcast_S50000x64_S1x50000x64_1_2 (hop (X1 m ρ c) (hop (X1 m ρ c) (hop (X1 m ρ c) (X0 m ρ c)))) := by
    rw [← hU]; after_results_simp; try rfl
  show concatenate S4x50000x64 0 [⟨S1x50000x64, U (Proc.devRef .tc main_v71)⟩, ⟨S1x50000x64, U (Proc.devRef .tc main_v72)⟩,
    ⟨S1x50000x64, U (Proc.devRef .tc main_v73)⟩, ⟨S1x50000x64, U (Proc.devRef .tc main_v74)⟩]
    concatenates_S1x50000x64_S1x50000x64_S1x50000x64_S1x50000x64_S4x50000x64_d0 = _
  rw [e0, e1, e2, e3]
  rfl

theorem V3_bias : (V3 m ρ c main_v76 : (⟨S1x64, .f32⟩ : BufTy).Contents (Elt F)) = shapeCast S1x64 (X4 m ρ c) shapeCasts_S64_S1x64 := by
  show StableHlo.after hostOps0_2 (W2 m ρ c) (Proc.devRef .tc main_v76) = _
  after_results_simp
  rfl

theorem V3_slope : (V3 m ρ c main_v77 : (⟨S1x1, .f32⟩ : BufTy).Contents (Elt F)) = shapeCast S1x1 (X7 m ρ c) shapeCasts_S1_S1x1 := by
  show StableHlo.after hostOps0_2 (W2 m ρ c) (Proc.devRef .tc main_v77) = _
  after_results_simp
  rfl

theorem V3_W : (V3 m ρ c main_arg3 : (⟨S4x64x64, .f32⟩ : BufTy).Contents (Elt F)) = X3 m ρ c := by
  exact W3_launch m ρ c main_arg3 (by decide) (by decide) (by decide)

/-! ## Region 1's entry -/

set_option maxHeartbeats 8000000 in
theorem V5_hstack (y : (⟨S50000x64, .f32⟩ : BufTy).Contents (Elt F)) (hy : W4 m ρ c (Proc.devRef .tc main_v78) = y) :
    (V5 m ρ c main_v122 : (⟨S4x50000x64, .f32⟩ : BufTy).Contents (Elt F))
    = stackK y (hop (X1 m ρ c) y) (hop (X1 m ρ c) (hop (X1 m ρ c) y)) (hop (X1 m ρ c) (hop (X1 m ρ c) (hop (X1 m ρ c) y))) := by
  show StableHlo.after hostOps1 (W4 m ρ c) (Proc.devRef .tc main_v122) = _
  simp only [after_cons, after_nil]
  rw [reshape_result_ne]; rotate_left; decide
  rw [reshape_result_ne]; rotate_left; decide
  -- the buffers as the concatenate finds them
  generalize hU : (StableHlo.unary main_v117 main_v121 _ _ _ : HloOp τ sig (Elt F)).result _ = U
  rw [nary4_result]
  have e0 : (U (Proc.devRef .tc main_v118) : (⟨S1x50000x64, .f32⟩ : BufTy).Contents (Elt F)) = broadcastInDim S1x50000x64 ![1, 2] bcast_S50000x64_S1x50000x64_1_2 y := by
    rw [← hU]; after_results_simp; rw [hy]
  have e1 : (U (Proc.devRef .tc main_v119) : (⟨S1x50000x64, .f32⟩ : BufTy).Contents (Elt F)) = broadcastInDim S1x50000x64 ![1, 2] bcast_S50000x64_S1x50000x64_1_2 (hop (X1 m ρ c) y) := by
    rw [← hU]; after_results_simp; rw [W4_of_ne m ρ c main_v1 (by decide), W4_of_ne m ρ c main_v3 (by decide), W4_of_ne m ρ c main_v31 (by decide), hy, W3_v1, W3_v3, W3_v31]; rfl
  have e2 : (U (Proc.devRef .tc main_v120) : (⟨S1x50000x64, .f32⟩ : BufTy).Contents (Elt F)) = broadcastInDim S1x50000x64 ![1, 2] bcast_S50000x64_S1x50000x64_1_2 (hop (X1 m ρ c) (hop (X1 m ρ c) y)) := by
    rw [← hU]; after_results_simp; rw [W4_of_ne m ρ c main_v1 (by decide), W4_of_ne m ρ c main_v3 (by decide), W4_of_ne m ρ c main_v31 (by decide), hy, W3_v1, W3_v3, W3_v31]; rfl
  have e3 : (U (Proc.devRef .tc main_v121) : (⟨S1x50000x64, .f32⟩ : BufTy).Contents (Elt F)) = broadcastInDim S1x50000x64 ![1, 2] bcast_S50000x64_S1x50000x64_1_2 (hop (X1 m ρ c) (hop (X1 m ρ c) (hop (X1 m ρ c) y))) := by
    rw [← hU]; after_results_simp; rw [W4_of_ne m ρ c main_v1 (by decide), W4_of_ne m ρ c main_v3 (by decide), W4_of_ne m ρ c main_v31 (by decide), hy, W3_v1, W3_v3, W3_v31]; rfl
  show concatenate S4x50000x64 0 [⟨S1x50000x64, U (Proc.devRef .tc main_v118)⟩, ⟨S1x50000x64, U (Proc.devRef .tc main_v119)⟩,
    ⟨S1x50000x64, U (Proc.devRef .tc main_v120)⟩, ⟨S1x50000x64, U (Proc.devRef .tc main_v121)⟩]
    concatenates_S1x50000x64_S1x50000x64_S1x50000x64_S1x50000x64_S4x50000x64_d0 = _
  rw [e0, e1, e2, e3]
  rfl

theorem V5_bias : (V5 m ρ c main_v123 : (⟨S1x64, .f32⟩ : BufTy).Contents (Elt F)) = shapeCast S1x64 (X6 m ρ c) shapeCasts_S64_S1x64 := by
  show StableHlo.after hostOps1 (W4 m ρ c) (Proc.devRef .tc main_v123) = _
  after_results_simp
  rw [W4_of_ne m ρ c main_arg6 (by decide)]
  exact congrArg (fun x => shapeCast S1x64 x shapeCasts_S64_S1x64) (W3_launch m ρ c main_arg6 (by decide) (by decide) (by decide))

theorem V5_slope : (V5 m ρ c main_v124 : (⟨S1x1, .f32⟩ : BufTy).Contents (Elt F)) = shapeCast S1x1 (X8 m ρ c) shapeCasts_S1_S1x1 := by
  show StableHlo.after hostOps1 (W4 m ρ c) (Proc.devRef .tc main_v124) = _
  after_results_simp
  rw [W4_of_ne m ρ c main_arg8 (by decide)]
  exact congrArg (fun x => shapeCast S1x1 x shapeCasts_S1_S1x1) (W3_launch m ρ c main_arg8 (by decide) (by decide) (by decide))

theorem V5_W : (V5 m ρ c main_arg5 : (⟨S4x64x64, .f32⟩ : BufTy).Contents (Elt F)) = X5 m ρ c := by
  exact (W5_of m ρ c main_arg5 (by decide)).trans ((W4_of_ne m ρ c main_arg5 (by decide)).trans (W3_launch m ρ c main_arg5 (by decide) (by decide) (by decide)))

/-! ## Region 2's entry -/

theorem V7_ids : (V7 m ρ c main_v126 : (⟨S50000x1, .i32⟩ : BufTy).Contents (Elt F)) = shapeCast S50000x1 (X2 m ρ c) shapeCasts_S50000_S50000x1 := by
  show StableHlo.after hostOps2 (W6 m ρ c) (Proc.devRef .tc main_v126) = _
  after_results_simp
  exact congrArg (fun x => shapeCast S50000x1 x shapeCasts_S50000_S50000x1)
    (W6_launch m ρ c main_arg2 (by decide) (by decide) (by decide) (by decide) (by decide) (by decide))

theorem V7_bout : (V7 m ρ c main_v127 : (⟨S1x1, .f32⟩ : BufTy).Contents (Elt F)) = shapeCast S1x1 (X10 m ρ c) shapeCasts_S1_S1x1 := by
  show StableHlo.after hostOps2 (W6 m ρ c) (Proc.devRef .tc main_v127) = _
  after_results_simp
  exact congrArg (fun x => shapeCast S1x1 x shapeCasts_S1_S1x1)
    (W6_launch m ρ c main_arg10 (by decide) (by decide) (by decide) (by decide) (by decide) (by decide))

theorem V7_Wout : (V7 m ρ c main_arg9 : (⟨S64x1, .f32⟩ : BufTy).Contents (Elt F)) = X9 m ρ c := by
  exact (W7_of m ρ c main_arg9 (by decide)).trans
    (W6_launch m ρ c main_arg9 (by decide) (by decide) (by decide) (by decide) (by decide) (by decide))

theorem V7_h : V7 m ρ c main_v125 = W6 m ρ c (Proc.devRef .tc main_v125) := by
  exact W7_of m ρ c main_v125 (by decide)

end Cert.KernelIdeal.Val

end
-- ==== Proof.Spec.lean ====
/-
  The mathematics of the two programs, entry by entry, over the extended reals.

  * One graph-convolution layer: the four hop features h₀ … h₃ (each a table of 50000 rows and 64 columns)
    are multiplied by the four 64 × 64 weight slices, the products added from the left, the bias added, and
    the parametric rectifier applied: `z` where `z ≥ 0`, `a · z` elsewhere.
  * The pooled head: rows are added into the 128 graph slots by their graph id (a row whose id, read signed,
    names no slot is dropped), the pooled table is multiplied by the 64 × 1 output weights, the bias added.
-/
import Idealize.ShloMosaic.PureOps.Ideal
import Idealize.ShloMosaic.Lib.ValueIdx

noncomputable section

open scoped BigOperators

namespace Cert.Spec

open Idealize.ShloMosaic Idealize.ShloMosaic.ValueIdx

/-- The sum of the four products at row `n`, column `j`, associated from the left, plus the bias. -/
def preAt (h0 h1 h2 h3 : Fin 50000 → Fin 64 → EReal) (W : Fin 4 → Fin 64 → Fin 64 → EReal) (b : Fin 64 → EReal)
    (n : Fin 50000) (j : Fin 64) : EReal :=
  ((((∑ k : Fin 64, h0 n k * W 0 k j) + (∑ k : Fin 64, h1 n k * W 1 k j)) + (∑ k : Fin 64, h2 n k * W 2 k j))
    + (∑ k : Fin 64, h3 n k * W 3 k j)) + b j

/-- The parametric rectifier at slope `a`: `z` where `z ≥ 0` (the comparison and the zero it compares with are the
    float operations read at the extended reals), `a · z` elsewhere. -/
def prelu (a z : EReal) : EReal :=
  Scalar.select (FloatOps.cmpf (F := Ideal) (φ := .f32) .oge z (Ideal.ofBits .f32 0x00000000#32)) z (a * z)

/-- One layer's output at row `n`, column `j`. -/
def layerAt (h0 h1 h2 h3 : Fin 50000 → Fin 64 → EReal) (W : Fin 4 → Fin 64 → Fin 64 → EReal) (b : Fin 64 → EReal)
    (a : EReal) (n : Fin 50000) (j : Fin 64) : EReal :=
  prelu a (preAt h0 h1 h2 h3 W b n j)

/-- One layer's output as an array, from the stacked hop features `hs[k, n, c]`, the weights `W[k, c, j]`, the bias as a
    row `b2[0, j]` and the slope as `a2[0, 0]`: how the kernel's windows hold them. -/
def layerArr (hs : (⟨3, ![4, 50000, 64]⟩ : Shape).Idx → EReal) (W : (⟨3, ![4, 64, 64]⟩ : Shape).Idx → EReal)
    (b2 : (⟨2, ![1, 64]⟩ : Shape).Idx → EReal) (a2 : (⟨2, ![1, 1]⟩ : Shape).Idx → EReal) :
    (⟨2, ![50000, 64]⟩ : Shape).Idx → EReal :=
  fun i => layerAt (fun n k => hs (ix3 0 n k)) (fun n k => hs (ix3 1 n k)) (fun n k => hs (ix3 2 n k))
    (fun n k => hs (ix3 3 n k)) (fun s k j => W (ix3 s k j)) (fun j => b2 (ix2 0 j)) (a2 (ix2 0 0)) (i 0) (i 1)

/-- The same from the four hop tables apart, the bias as a vector and the slope as a one-entry vector: how the
    reference holds them. -/
def layerArr' (h0 h1 h2 h3 : (⟨2, ![50000, 64]⟩ : Shape).Idx → EReal) (W : (⟨3, ![4, 64, 64]⟩ : Shape).Idx → EReal)
    (b : (⟨1, ![64]⟩ : Shape).Idx → EReal) (a : (⟨1, ![1]⟩ : Shape).Idx → EReal) :
    (⟨2, ![50000, 64]⟩ : Shape).Idx → EReal :=
  fun i => layerAt (fun n k => h0 (ix2 n k)) (fun n k => h1 (ix2 n k)) (fun n k => h2 (ix2 n k))
    (fun n k => h3 (ix2 n k)) (fun s k j => W (ix3 s k j)) (fun j => b (ix1 j)) (a (ix1 0)) (i 0) (i 1)

/-- Graph slot `g`'s pooled feature `c`: the sum of the rows whose id, read signed, is `g`. -/
def pooledAt (ids : Fin 50000 → BitVec 32) (h : Fin 50000 → Fin 64 → EReal) (g : Fin 128) (c : Fin 64) : EReal :=
  ∑ r : Fin 50000, if (ids r).toInt = (g.val : Int) then h r c else 0

/-- The head's output for graph slot `g`. -/
def headAt (ids : Fin 50000 → BitVec 32) (h : Fin 50000 → Fin 64 → EReal) (wout : Fin 64 → EReal) (bo : EReal)
    (g : Fin 128) : EReal :=
  (∑ c : Fin 64, pooledAt ids h g c * wout c) + bo

/-- The head's output as an array, the ids as a column `ids2[r, 0]`, the bias as `bo2[0, 0]`: how the kernel's
    windows hold them. -/
def headArr (ids2 : IVec (⟨2, ![50000, 1]⟩ : Shape) 32) (h : (⟨2, ![50000, 64]⟩ : Shape).Idx → EReal)
    (wout : (⟨2, ![64, 1]⟩ : Shape).Idx → EReal) (bo2 : (⟨2, ![1, 1]⟩ : Shape).Idx → EReal) :
    (⟨2, ![128, 1]⟩ : Shape).Idx → EReal :=
  fun i => headAt (fun r => ids2 (ix2 r 0)) (fun r c => h (ix2 r c)) (fun c => wout (ix2 c 0)) (bo2 (ix2 0 0)) (i 0)

/-- The same with the ids as a vector and the bias as a one-entry vector: how the reference holds them. -/
def headArr' (ids : IVec (⟨1, ![50000]⟩ : Shape) 32) (h : (⟨2, ![50000, 64]⟩ : Shape).Idx → EReal)
    (wout : (⟨2, ![64, 1]⟩ : Shape).Idx → EReal) (bo : (⟨1, ![1]⟩ : Shape).Idx → EReal) :
    (⟨2, ![128, 1]⟩ : Shape).Idx → EReal :=
  fun i => headAt (fun r => ids (ix1 r)) (fun r c => h (ix2 r c)) (fun c => wout (ix2 c 0)) (bo (ix1 0)) (i 0)

end Cert.Spec

end
-- ==== Proof.KI.ValStack.lean ====
/-
  The specification read through the layout the kernel's windows hold their arrays in.

  The first region's hop features are four tables stacked along a new leading axis: each table is broadcast to a one-slab
  stack `[1, 50000, 64]` and the four stackSlabs are concatenated, so the stack at `(k, n, c)` is table `k` at `(n, c)`.
  The bias is a vector reshaped to a one-row table, the slope and the head's bias one-entry vectors reshaped to one-entry
  tables, the graph ids a vector reshaped to a column: each reads, at `(0, j)`, `(0, 0)`, `(r, 0)`, the vector at `j`,
  `0`, `r`. Hence a layer's table of the stacked, reshaped arrays is its table of the four hop tables, the bias vector
  and the slope vector, and likewise the head's.
-/
import proofs.«407303_j21680994910701_1_alg».proof.Proof.KI.ValHost
import proofs.«407303_j21680994910701_1_alg».proof.Proof.Spec
import Idealize.ShloMosaic.Lib.Pipeline.Value
import Idealize.ShloMosaic.Lib.ValueLayout
import Idealize.ShloMosaic.Lib.ValueIdx

noncomputable section

namespace Cert.KernelIdeal.Val

open Cert.KernelIdeal Cert.KernelIdeal.Gen
open Idealize.ShloMosaic Idealize.ShloMosaic.ValueIdx

/-! ## The stack of four tables, read at an index -/

/-- A table broadcast to a one-slab stack reads, at `(0, n, c)`, the table at `(n, c)`. -/
theorem stackSlab_apply (h : S50000x64.Idx → EReal) (n : Fin 50000) (c : Fin 64) :
    broadcastInDim S1x50000x64 ![1, 2] bcast_S50000x64_S1x50000x64_1_2 h (ix3 (0 : Fin 1) n c) = h (ix2 n c) := by
  refine broadcastInDim_apply _ _ h (ix3 (0 : Fin 1) n c) (ix2 n c) fun a => ?_
  match a with
  | ⟨0, _⟩ => rfl
  | ⟨1, _⟩ => rfl

/-- The four stackSlabs, as a family over the slab's number. -/
def stackSlabs (h0 h1 h2 h3 : S50000x64.Idx → EReal) : Fin 4 → (S1x50000x64.Idx → EReal) :=
  fun k => broadcastInDim S1x50000x64 ![1, 2] bcast_S50000x64_S1x50000x64_1_2 (![h0, h1, h2, h3] k)

/-- The stack at `(k, n, c)` is slab `k` at `(0, n, c)`: the stackSlabs have extent one along the stacking axis. -/
theorem stackK_slab (h0 h1 h2 h3 : (⟨S50000x64, .f32⟩ : BufTy).Contents (Elt Ideal)) (k : Fin 4) (n : Fin 50000) (c : Fin 64) :
    (stackK (F := Ideal) h0 h1 h2 h3 : S4x50000x64.Idx → EReal) (ix3 k n c) = stackSlabs h0 h1 h2 h3 k (ix3 (0 : Fin 1) n c) := by
  unfold stackK
  refine concatenate_ofFn_unit_apply (t := S4x50000x64) (s₁ := S1x50000x64) (0 : Fin 3) (stackSlabs h0 h1 h2 h3) _ rfl rfl
    (ix3 k n c) k rfl (ix3 (0 : Fin 1) n c) fun b hb => ?_
  match b with
  | ⟨0, _⟩ => exact absurd rfl hb
  | ⟨1, _⟩ => rfl
  | ⟨2, _⟩ => rfl

/-- The stack at `(k, n, c)`, slab by slab: table `k` at `(n, c)`. -/
theorem stackK_at0 (h0 h1 h2 h3 : (⟨S50000x64, .f32⟩ : BufTy).Contents (Elt Ideal)) (n : Fin 50000) (c : Fin 64) :
    (stackK (F := Ideal) h0 h1 h2 h3 : S4x50000x64.Idx → EReal) (ix3 0 n c) = (h0 : S50000x64.Idx → EReal) (ix2 n c) :=
  (stackK_slab h0 h1 h2 h3 0 n c).trans (stackSlab_apply h0 n c)
theorem stackK_at1 (h0 h1 h2 h3 : (⟨S50000x64, .f32⟩ : BufTy).Contents (Elt Ideal)) (n : Fin 50000) (c : Fin 64) :
    (stackK (F := Ideal) h0 h1 h2 h3 : S4x50000x64.Idx → EReal) (ix3 1 n c) = (h1 : S50000x64.Idx → EReal) (ix2 n c) :=
  (stackK_slab h0 h1 h2 h3 1 n c).trans (stackSlab_apply h1 n c)
theorem stackK_at2 (h0 h1 h2 h3 : (⟨S50000x64, .f32⟩ : BufTy).Contents (Elt Ideal)) (n : Fin 50000) (c : Fin 64) :
    (stackK (F := Ideal) h0 h1 h2 h3 : S4x50000x64.Idx → EReal) (ix3 2 n c) = (h2 : S50000x64.Idx → EReal) (ix2 n c) :=
  (stackK_slab h0 h1 h2 h3 2 n c).trans (stackSlab_apply h2 n c)
theorem stackK_at3 (h0 h1 h2 h3 : (⟨S50000x64, .f32⟩ : BufTy).Contents (Elt Ideal)) (n : Fin 50000) (c : Fin 64) :
    (stackK (F := Ideal) h0 h1 h2 h3 : S4x50000x64.Idx → EReal) (ix3 3 n c) = (h3 : S50000x64.Idx → EReal) (ix2 n c) :=
  (stackK_slab h0 h1 h2 h3 3 n c).trans (stackSlab_apply h3 n c)

/-! ## A vector reshaped to a column -/

/-- An `[a]` array cast to `[a, 1]` reads, at `(r, u)`, the operand at `r`, whatever the unit coordinate `u`. -/
theorem shapeCast_vec_col_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-! ## The two specifications through the kernel's layout -/

/-- A layer's table of the stacked hop tables, the bias as a row and the slope as a one-entry table is its table of the
    four hop tables, the bias vector and the slope vector. -/
theorem layerArr_stack (h0 h1 h2 h3 : (⟨S50000x64, .f32⟩ : BufTy).Contents (Elt Ideal)) (W : (⟨S4x64x64, .f32⟩ : BufTy).Contents (Elt Ideal))
    (b : (⟨S64, .f32⟩ : BufTy).Contents (Elt Ideal)) (a : (⟨S1, .f32⟩ : BufTy).Contents (Elt Ideal)) :
    Cert.Spec.layerArr (stackK (F := Ideal) h0 h1 h2 h3) W (shapeCast S1x64 b shapeCasts_S64_S1x64) (shapeCast S1x1 a shapeCasts_S1_S1x1)
      = Cert.Spec.layerArr' h0 h1 h2 h3 W b a := by
  funext i
  unfold Cert.Spec.layerArr Cert.Spec.layerArr'
  simp only [stackK_at0, stackK_at1, stackK_at2, stackK_at3, shapeCast_a_1a_apply]

/-- The head's table of the graph ids as a column and the bias as a one-entry table is its table of the id vector and
    the bias vector. -/
theorem headArr_col (ids : (⟨S50000, .i32⟩ : BufTy).Contents (Elt Ideal)) (h : (⟨S50000x64, .f32⟩ : BufTy).Contents (Elt Ideal))
    (wout : (⟨S64x1, .f32⟩ : BufTy).Contents (Elt Ideal)) (bo : (⟨S1, .f32⟩ : BufTy).Contents (Elt Ideal)) :
    Cert.Spec.headArr (shapeCast S50000x1 ids shapeCasts_S50000_S50000x1) h wout (shapeCast S1x1 bo shapeCasts_S1_S1x1)
      = Cert.Spec.headArr' ids h wout bo := by
  funext i
  unfold Cert.Spec.headArr Cert.Spec.headArr'
  simp only [shapeCast_vec_col_apply, shapeCast_a_1a_apply]

end Cert.KernelIdeal.Val

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KI.ValComb0.lean ====
/-
  What the first combine region leaves in its output array, as one function of the arrays it reads.

  The body stores, at row `p` and column `q` of a block of 5000 rows, the parametric rectifier of
  `Σₖ h₀[p,k]·W₀[k,q] + Σₖ h₁[p,k]·W₁[k,q] + Σₖ h₂[p,k]·W₂[k,q] + Σₖ h₃[p,k]·W₃[k,q] + b[q]`, the sums added from the left:
  each product of the body runs into a zero accumulator, so it is the plain sum over the contracted coordinate; the
  first is added onto a table of zeros, which adds nothing; the rounding of the operands to bf16 is the identity on the
  extended reals; the bias row and the one-entry slope are broadcast over the block.

  Grid point `t` reads rows `5000·t … 5000·t + 4999` of every slab of the stacked hop features and the whole of the
  weights, the bias and the slope, and writes rows `5000·t …` of the output. So what it writes is its block of the
  layer's table `Cert.Spec.layerArr`; the ten blocks tile the 50000 rows (row `r` lies in block `r / 5000`), hence the
  array ends holding that table.
-/
import proofs.«407303_j21680994910701_1_alg».proof.Proof.KI.Comb0
import proofs.«407303_j21680994910701_1_alg».proof.Proof.Spec
import proofs.«407303_j21680994910701_1_alg».proof.Proof.LibRowDims
import Idealize.ShloMosaic.Lib.Pipeline.Value
import Idealize.ShloMosaic.Lib.ValueLayout
import Idealize.ShloMosaic.Lib.ValueIdx

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The body's stored value at an index -/

/-- One product of the body into the zero accumulator, entry by entry: the sum over the contracted coordinate. -/
theorem matmul0_apply (lhs : FVec Ideal S5000x64 .bf16) (rhs : FVec Ideal S64x64 .bf16) (p : Fin 5000) (q : Fin 64) :
    matmul dot_S5000x64_S64x64_S5000x64_1_0_0_1_n_n none lhs rhs (constant (F := Ideal) S5000x64 .f32 0x00000000#32) (ix2 p q)
      = ∑ k : Fin 64, lhs (ix2 p k) * rhs (ix2 k q) :=
  Idealize.ShloMosaic.RowDims.matmul_plain_zero_apply none lhs rhs p q

/-- Slab `s` of a stack of `N` tables, loaded as a one-slab stack, read at `(0, i, j)`: the stack at `(s, i, j)`. -/
theorem ld0_slab {Val : EltTy → Type} {e : EltTy} {N A B : Nat} (X : (⟨3, ![N, A, B]⟩ : Shape).Idx → Val e) (s : Fin N)
    (inb : ∀ a, (![s.val, 0, 0] : Fin 3 → Nat) a + (⟨3, ![1, A, B]⟩ : Shape).size a ≤ (⟨3, ![N, A, B]⟩ : Shape).size a)
    (i : Fin A) (j : Fin B) :
    View.ld X (Rect.unit (s := ⟨3, ![N, A, B]⟩) ![s.val, 0, 0] (⟨3, ![1, A, B]⟩ : Shape).size inb) (ix3 (0 : Fin 1) i j) = X (ix3 s i j) := by
  refine congrArg X (funext fun a => Fin.ext ?_)
  match a with
  | ⟨0, _⟩ => show s.val + 1 * 0 = s.val; omega
  | ⟨1, _⟩ => show 0 + 1 * i.val = i.val; omega
  | ⟨2, _⟩ => show 0 + 1 * j.val = j.val; omega

/-- The four hop slabs and the four weight slabs the body loads. -/
theorem ld0_h0 (x0 : Vec Ideal S4x5000x64 .f32) (p : Fin 5000) (k : Fin 64) : View.ld x0 r0_h0 (ix3 (0 : Fin 1) p k) = x0 (ix3 0 p k) := ld0_slab x0 0 _ p k
theorem ld0_h1 (x0 : Vec Ideal S4x5000x64 .f32) (p : Fin 5000) (k : Fin 64) : View.ld x0 r0_h1 (ix3 (0 : Fin 1) p k) = x0 (ix3 1 p k) := ld0_slab x0 1 _ p k
theorem ld0_h2 (x0 : Vec Ideal S4x5000x64 .f32) (p : Fin 5000) (k : Fin 64) : View.ld x0 r0_h2 (ix3 (0 : Fin 1) p k) = x0 (ix3 2 p k) := ld0_slab x0 2 _ p k
theorem ld0_h3 (x0 : Vec Ideal S4x5000x64 .f32) (p : Fin 5000) (k : Fin 64) : View.ld x0 r0_h3 (ix3 (0 : Fin 1) p k) = x0 (ix3 3 p k) := ld0_slab x0 3 _ p k
theorem ld0_w0 (x1 : Vec Ideal S4x64x64 .f32) (k : Fin 64) (q : Fin 64) : View.ld x1 r0_w0 (ix3 (0 : Fin 1) k q) = x1 (ix3 0 k q) := ld0_slab x1 0 _ k q
theorem ld0_w1 (x1 : Vec Ideal S4x64x64 .f32) (k : Fin 64) (q : Fin 64) : View.ld x1 r0_w1 (ix3 (0 : Fin 1) k q) = x1 (ix3 1 k q) := ld0_slab x1 1 _ k q
theorem ld0_w2 (x1 : Vec Ideal S4x64x64 .f32) (k : Fin 64) (q : Fin 64) : View.ld x1 r0_w2 (ix3 (0 : Fin 1) k q) = x1 (ix3 2 k q) := ld0_slab x1 2 _ k q
theorem ld0_w3 (x1 : Vec Ideal S4x64x64 .f32) (k : Fin 64) (q : Fin 64) : View.ld x1 r0_w3 (ix3 (0 : Fin 1) k q) = x1 (ix3 3 k q) := ld0_slab x1 3 _ k q

/-- A one-entry table broadcast over a table reads its entry everywhere. -/
theorem bcast0_11 {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

theorem hz0 : (![0, 0] : Fin 2 → Nat) = fun _ => 0 := funext fun a => by fin_cases a <;> rfl

/-- The fourth hop's left operand: the slab cast to a table (the rounding to bf16 is the identity on the extended reals). -/
theorem k0_pay3_apply (x : Vec Ideal S1x5000x64 .f32) (p : Fin 5000) (k : Fin 64) :
    k0_pay3 (F := Ideal) x (ix2 p k) = x (ix3 0 p k) := by
  unfold k0_pay3
  rw [truncf_apply, shapeCast_1ab_ab_apply]

/-- The fourth hop's right operand, likewise. -/
theorem k0_pay4_apply (x : Vec Ideal S1x64x64 .f32) (k : Fin 64) (q : Fin 64) :
    k0_pay4 (F := Ideal) x (ix2 k q) = x (ix3 0 k q) := by
  unfold k0_pay4
  rw [truncf_apply, shapeCast_1ab_ab_apply]

/-- The first three hops' products, added from the left onto the zero table, which adds nothing. -/
theorem k0_pay2_apply (h0 : Vec Ideal S1x5000x64 .f32) (w0 : Vec Ideal S1x64x64 .f32) (h1 : Vec Ideal S1x5000x64 .f32) (w1 : Vec Ideal S1x64x64 .f32)
    (h2 : Vec Ideal S1x5000x64 .f32) (w2 : Vec Ideal S1x64x64 .f32) (p : Fin 5000) (q : Fin 64) :
    k0_pay2 (F := Ideal) h0 w0 h1 w1 h2 w2 (ix2 p q)
      = ((∑ k : Fin 64, (h0 (ix3 0 p k) : EReal) * w0 (ix3 0 k q)) + (∑ k : Fin 64, (h1 (ix3 0 p k) : EReal) * w1 (ix3 0 k q)))
        + (∑ k : Fin 64, (h2 (ix3 0 p k) : EReal) * w2 (ix3 0 k q)) := by
  unfold k0_pay2
  simp only [addf_apply, matmul0_apply, truncf_apply, shapeCast_1ab_ab_apply, broadcast_apply]
  rw [show Scalar.ofBits (F := Ideal) .f32 0x00000000#32 = 0 from Ideal.ofBits_zero_f32, zero_add]

/-- The last operations: the fourth product added, the bias row added, the rectifier at the broadcast slope. -/
theorem k0_pay1_apply (v24 : FVec Ideal S5000x64 .f32) (v27 : FVec Ideal S5000x64 .bf16) (v30 : FVec Ideal S64x64 .bf16) (v33 : Vec Ideal S1x64 .f32) (v37 : Vec Ideal S1x1 .f32)
    (p : Fin 5000) (q : Fin 64) :
    k0_pay1 (F := Ideal) v24 v27 v30 v33 v37 (ix2 p q)
      = Cert.Spec.prelu (v37 (ix2 0 0)) ((v24 (ix2 p q) + ∑ k : Fin 64, (v27 (ix2 p k) : EReal) * v30 (ix2 k q)) + v33 (ix2 0 q)) := by
  unfold k0_pay1
  simp only [select_apply, cmpf_apply, mulf_apply, addf_apply, broadcast_apply, matmul0_apply, shapeCast_self,
    broadcastTo_1b_ab_apply, bcast0_11]
  rfl

/-- THE BODY'S STORED BLOCK at row `p`, column `q`, from the four input blocks: the rectifier, at the slope, of the four
    products added from the left plus the bias. -/
theorem out0_4_apply (x0 : Vec Ideal S4x5000x64 .f32) (x1 : Vec Ideal S4x64x64 .f32) (x2 : Vec Ideal S1x64 .f32) (x3 : Vec Ideal S1x1 .f32)
    (p : Fin 5000) (q : Fin 64) :
    out0_4 (F := Ideal) x0 x1 x2 x3 (ix2 p q)
      = Cert.Spec.prelu (x3 (ix2 0 0))
          (((((∑ k : Fin 64, (x0 (ix3 0 p k) : EReal) * x1 (ix3 0 k q)) + (∑ k : Fin 64, (x0 (ix3 1 p k) : EReal) * x1 (ix3 1 k q)))
            + (∑ k : Fin 64, (x0 (ix3 2 p k) : EReal) * x1 (ix3 2 k q))) + (∑ k : Fin 64, (x0 (ix3 3 p k) : EReal) * x1 (ix3 3 k q)))
            + x2 (ix2 0 q)) := by
  unfold out0_4
  rw [View.canon_unit_zero hz0, k0_pay1_apply, k0_pay2_apply]
  simp only [k0_pay3_apply, k0_pay4_apply]
  have s0 : (∑ k : Fin 64, (View.ld x0 r0_h0 (ix3 (0 : Fin 1) p k) : EReal) * View.ld x1 r0_w0 (ix3 (0 : Fin 1) k q))
      = ∑ k : Fin 64, (x0 (ix3 0 p k) : EReal) * x1 (ix3 0 k q) :=
    Finset.sum_congr rfl fun k _ => by rw [ld0_h0, ld0_w0]
  have s1 : (∑ k : Fin 64, (View.ld x0 r0_h1 (ix3 (0 : Fin 1) p k) : EReal) * View.ld x1 r0_w1 (ix3 (0 : Fin 1) k q))
      = ∑ k : Fin 64, (x0 (ix3 1 p k) : EReal) * x1 (ix3 1 k q) :=
    Finset.sum_congr rfl fun k _ => by rw [ld0_h1, ld0_w1]
  have s2 : (∑ k : Fin 64, (View.ld x0 r0_h2 (ix3 (0 : Fin 1) p k) : EReal) * View.ld x1 r0_w2 (ix3 (0 : Fin 1) k q))
      = ∑ k : Fin 64, (x0 (ix3 2 p k) : EReal) * x1 (ix3 2 k q) :=
    Finset.sum_congr rfl fun k _ => by rw [ld0_h2, ld0_w2]
  have s3 : (∑ k : Fin 64, (View.ld x0 r0_h3 (ix3 (0 : Fin 1) p k) : EReal) * View.ld x1 r0_w3 (ix3 (0 : Fin 1) k q))
      = ∑ k : Fin 64, (x0 (ix3 3 p k) : EReal) * x1 (ix3 3 k q) :=
    Finset.sum_congr rfl fun k _ => by rw [ld0_h3, ld0_w3]
  have hb : View.ld x2 r0_b = x2 := View.ld_unit_zero (S := S1x64) hz0 _ x2
  have ha : View.ld x3 r0_a = x3 := View.ld_unit_zero (S := S1x1) hz0 _ x3
  rw [s0, s1, s2, s3, hb, ha]

/-! ## From the blocks to the array -/

section Array
variable (V : (c : Dev nD) → (b : Ref sig .tc) → Buf (Elt Ideal) ((c : Thread nD τ).loc b))

/-- The arrays the region reads, as it finds them: the stacked hop features, the stacked weights, the bias row, the slope. -/
abbrev hops0 (c : Dev nD) : S4x50000x64.Idx → EReal := V c main_v75
abbrev wts0 (c : Dev nD) : S4x64x64.Idx → EReal := V c main_arg3
abbrev bias0 (c : Dev nD) : S1x64.Idx → EReal := V c main_v76
abbrev slope0 (c : Dev nD) : S1x1.Idx → EReal := V c main_v77

/-- The layer's table of those arrays. -/
abbrev G0 (c : Dev nD) : S50000x64.Idx → EReal := Cert.Spec.layerArr (hops0 V c) (wts0 V c) (bias0 V c) (slope0 V c)

/-- The printed index maps, decided once over the ten points: the hop features' and the output's blocks move with the
    point along the rows, the other windows stay at the origin. -/
theorem idx_facts0 : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The hop features' block at point `t` is rows `5000·t …` of every slab. -/
theorem iblk0_0_apply (c : Dev nD) (t : Fin cfg0.N) (s : Fin 4) (p : Fin 5000) (k : Fin 64) (r : Fin 50000)
    (hr : r.val = 5000 * t.val + p.val) :
    (iblk0 V c 0 t : Vec Ideal S4x5000x64 .f32) (ix3 s p k) = hops0 V c (ix3 s r k) := by
  obtain ⟨e0, e1, e2, -⟩ := idx_facts0 t
  show hops0 V c (((cfg0.win 0).blk t).view.emb (ix3 s p k)) = _
  refine congrArg (hops0 V c) (funext fun a => Fin.ext ?_)
  match a with
  | ⟨0, _⟩ => show win0_0.index t (0 : Fin 3) * 4 + 1 * s.val = s.val; rw [e0]; omega
  | ⟨1, _⟩ => show win0_0.index t (1 : Fin 3) * 5000 + 1 * p.val = r.val; rw [e1, hr]; omega
  | ⟨2, _⟩ => show win0_0.index t (2 : Fin 3) * 64 + 1 * k.val = k.val; rw [e2]; omega

/-- The weights' block is the whole array at every point. -/
theorem iblk0_1_eq (c : Dev nD) (t : Fin cfg0.N) : (iblk0 V c 1 t : Vec Ideal S4x64x64 .f32) = wts0 V c := by
  obtain ⟨-, -, -, e0, e1, e2, -⟩ := idx_facts0 t
  funext j
  show wts0 V c (((cfg0.win 1).blk t).view.emb j) = wts0 V c j
  refine congrArg (wts0 V c) (funext fun a => Fin.ext ?_)
  match a with
  | ⟨0, _⟩ => show win0_1.index t (0 : Fin 3) * 4 + 1 * (j 0).val = (j 0).val; rw [e0]; omega
  | ⟨1, _⟩ => show win0_1.index t (1 : Fin 3) * 64 + 1 * (j 1).val = (j 1).val; rw [e1]; omega
  | ⟨2, _⟩ => show win0_1.index t (2 : Fin 3) * 64 + 1 * (j 2).val = (j 2).val; rw [e2]; omega

/-- The bias row's block is the whole array at every point. -/
theorem iblk0_2_eq (c : Dev nD) (t : Fin cfg0.N) : (iblk0 V c 2 t : Vec Ideal S1x64 .f32) = bias0 V c := by
  obtain ⟨-, -, -, -, -, -, e0, e1, -⟩ := idx_facts0 t
  funext j
  show bias0 V c (((cfg0.win 2).blk t).view.emb j) = bias0 V c j
  refine congrArg (bias0 V c) (funext fun a => Fin.ext ?_)
  match a with
  | ⟨0, _⟩ => show win0_2.index t (0 : Fin 2) * 1 + 1 * (j 0).val = (j 0).val; rw [e0]; omega
  | ⟨1, _⟩ => show win0_2.index t (1 : Fin 2) * 64 + 1 * (j 1).val = (j 1).val; rw [e1]; omega

/-- The slope's block is the whole array at every point. -/
theorem iblk0_3_eq (c : Dev nD) (t : Fin cfg0.N) : (iblk0 V c 3 t : Vec Ideal S1x1 .f32) = slope0 V c := by
  obtain ⟨-, -, -, -, -, -, -, -, e0, e1, -⟩ := idx_facts0 t
  funext j
  show slope0 V c (((cfg0.win 3).blk t).view.emb j) = slope0 V c j
  refine congrArg (slope0 V c) (funext fun a => Fin.ext ?_)
  match a with
  | ⟨0, _⟩ => show win0_3.index t (0 : Fin 2) * 1 + 1 * (j 0).val = (j 0).val; rw [e0]; omega
  | ⟨1, _⟩ => show win0_3.index t (1 : Fin 2) * 1 + 1 * (j 1).val = (j 1).val; rw [e1]; omega

/-- WHAT POINT `t` WRITES BACK is block `t` of the layer's table. -/
theorem flushed0_4_eq (c : Dev nD) (t : Fin cfg0.N) :
    (dat0 (F := Ideal) V c).flushed 4 t = ((cfg0.win 4).blk t).view.read (Elt Ideal) (G0 V c) := by
  show (cfg0.win 4).cut (grid0.coords t) ((dat0 (F := Ideal) V c).after 4 t) = _
  rw [after0_4]
  obtain ⟨-, -, -, -, -, -, -, -, -, -, e0, e1⟩ := idx_facts0 t
  have ht : t.val < 10 := Nat.lt_of_lt_of_eq t.isLt N_0
  funext j
  obtain ⟨p, q, rfl⟩ : ∃ (p : Fin 5000) (q : Fin 64), j = ix2 p q := ⟨j 0, j 1, eq_ix2 j⟩
  have hr : 5000 * t.val + p.val < 50000 := by have := p.isLt; omega
  have hemb : ((cfg0.win 4).blk t).view.emb (ix2 p q) = (ix2 (⟨5000 * t.val + p.val, hr⟩ : Fin 50000) q : S50000x64.Idx) := by
    funext a; apply Fin.ext
    match a with
    | ⟨0, _⟩ => show win0_4.index t (0 : Fin 2) * 5000 + 1 * p.val = 5000 * t.val + p.val; rw [e0]; omega
    | ⟨1, _⟩ => show win0_4.index t (1 : Fin 2) * 64 + 1 * q.val = q.val; rw [e1]; omega
  show out0_4 (F := Ideal) (iblk0 V c 0 t) (iblk0 V c 1 t) (iblk0 V c 2 t) (iblk0 V c 3 t) (ix2 p q)
    = G0 V c (((cfg0.win 4).blk t).view.emb (ix2 p q))
  rw [hemb, out0_4_apply, iblk0_1_eq, iblk0_2_eq, iblk0_3_eq]
  simp only [iblk0_0_apply V c t _ p _ (⟨5000 * t.val + p.val, hr⟩ : Fin 50000) rfl]
  rfl

/-- An index of the output array is in point `t`'s block iff each coordinate is in the block's range on its axis. -/
theorem mem_blk0_4 (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v78).slice (win0_4.rect t)).set ↔ _
  rw [View.set_slice_whole, Rect.mem_set_unit]
  exact Iff.rfl

/-- Every row of the output array lies in the block of the point `row / 5000`. -/
theorem covered0_4 (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := idx_facts0 t
  refine ⟨t, flush0_4 t, ?_⟩
  rw [mem_blk0_4]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 64 ≤ (i 1).val ∧ (i 1).val < win0_4.index t (1 : Fin 2) * 64 + 64
    rw [e1]; omega

/-- THE OUTPUT ARRAY after the region: the layer's table of the arrays the region reads. -/
theorem final0 (c : Dev nD) :
    ((dat0 (F := Ideal) V c).arrAt 4 cfg0.N : S50000x64.Idx → EReal)
      = Cert.Spec.layerArr (V c main_v75 : S4x50000x64.Idx → EReal) (V c main_arg3 : S4x64x64.Idx → EReal)
          (V c main_v76 : S1x64.Idx → EReal) (V c main_v77 : S1x1.Idx → EReal) :=
  (dat0 (F := Ideal) V c).arrAt_eq_of_cover 4 (G0 V c) (fun t _ => flushed0_4_eq V c t) (covered0_4)

end Array

end Cert.KernelIdeal.Val

end
-- ==== Proof.KI.ValComb1.lean ====
/-
  What the second combine region leaves in its output array, as one function of the arrays it reads.

  The body stores, at row `p` and column `q` of a block of 5000 rows, the parametric rectifier of
  `Σₖ h₀[p,k]·W₀[k,q] + Σₖ h₁[p,k]·W₁[k,q] + Σₖ h₂[p,k]·W₂[k,q] + Σₖ h₃[p,k]·W₃[k,q] + b[q]`, the sums added from the left:
  each product of the body runs into a zero accumulator, so it is the plain sum over the contracted coordinate; the
  first is added onto a table of zeros, which adds nothing; the rounding of the operands to bf16 is the identity on the
  extended reals; the bias row and the one-entry slope are broadcast over the block.

  Grid point `t` reads rows `5000·t … 5000·t + 4999` of every slab of the stacked hop features and the whole of the
  weights, the bias and the slope, and writes rows `5000·t …` of the output. So what it writes is its block of the
  layer's table `Cert.Spec.layerArr`; the ten blocks tile the 50000 rows (row `r` lies in block `r / 5000`), hence the
  array ends holding that table.
-/
import proofs.«407303_j21680994910701_1_alg».proof.Proof.KI.Comb1
import proofs.«407303_j21680994910701_1_alg».proof.Proof.Spec
import proofs.«407303_j21680994910701_1_alg».proof.Proof.LibRowDims
import Idealize.ShloMosaic.Lib.Pipeline.Value
import Idealize.ShloMosaic.Lib.ValueLayout
import Idealize.ShloMosaic.Lib.ValueIdx

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The body's stored value at an index -/

/-- One product of the body into the zero accumulator, entry by entry: the sum over the contracted coordinate. -/
theorem matmul1_apply (lhs : FVec Ideal S5000x64 .bf16) (rhs : FVec Ideal S64x64 .bf16) (p : Fin 5000) (q : Fin 64) :
    matmul dot_S5000x64_S64x64_S5000x64_1_0_0_1_n_n none lhs rhs (constant (F := Ideal) S5000x64 .f32 0x00000000#32) (ix2 p q)
      = ∑ k : Fin 64, lhs (ix2 p k) * rhs (ix2 k q) :=
  Idealize.ShloMosaic.RowDims.matmul_plain_zero_apply none lhs rhs p q

/-- Slab `s` of a stack of `N` tables, loaded as a one-slab stack, read at `(0, i, j)`: the stack at `(s, i, j)`. -/
theorem ld1_slab {Val : EltTy → Type} {e : EltTy} {N A B : Nat} (X : (⟨3, ![N, A, B]⟩ : Shape).Idx → Val e) (s : Fin N)
    (inb : ∀ a, (![s.val, 0, 0] : Fin 3 → Nat) a + (⟨3, ![1, A, B]⟩ : Shape).size a ≤ (⟨3, ![N, A, B]⟩ : Shape).size a)
    (i : Fin A) (j : Fin B) :
    View.ld X (Rect.unit (s := ⟨3, ![N, A, B]⟩) ![s.val, 0, 0] (⟨3, ![1, A, B]⟩ : Shape).size inb) (ix3 (0 : Fin 1) i j) = X (ix3 s i j) := by
  refine congrArg X (funext fun a => Fin.ext ?_)
  match a with
  | ⟨0, _⟩ => show s.val + 1 * 0 = s.val; omega
  | ⟨1, _⟩ => show 0 + 1 * i.val = i.val; omega
  | ⟨2, _⟩ => show 0 + 1 * j.val = j.val; omega

/-- The four hop slabs and the four weight slabs the body loads. -/
theorem ld1_h0 (x0 : Vec Ideal S4x5000x64 .f32) (p : Fin 5000) (k : Fin 64) : View.ld x0 r1_h0 (ix3 (0 : Fin 1) p k) = x0 (ix3 0 p k) := ld1_slab x0 0 _ p k
theorem ld1_h1 (x0 : Vec Ideal S4x5000x64 .f32) (p : Fin 5000) (k : Fin 64) : View.ld x0 r1_h1 (ix3 (0 : Fin 1) p k) = x0 (ix3 1 p k) := ld1_slab x0 1 _ p k
theorem ld1_h2 (x0 : Vec Ideal S4x5000x64 .f32) (p : Fin 5000) (k : Fin 64) : View.ld x0 r1_h2 (ix3 (0 : Fin 1) p k) = x0 (ix3 2 p k) := ld1_slab x0 2 _ p k
theorem ld1_h3 (x0 : Vec Ideal S4x5000x64 .f32) (p : Fin 5000) (k : Fin 64) : View.ld x0 r1_h3 (ix3 (0 : Fin 1) p k) = x0 (ix3 3 p k) := ld1_slab x0 3 _ p k
theorem ld1_w0 (x1 : Vec Ideal S4x64x64 .f32) (k : Fin 64) (q : Fin 64) : View.ld x1 r1_w0 (ix3 (0 : Fin 1) k q) = x1 (ix3 0 k q) := ld1_slab x1 0 _ k q
theorem ld1_w1 (x1 : Vec Ideal S4x64x64 .f32) (k : Fin 64) (q : Fin 64) : View.ld x1 r1_w1 (ix3 (0 : Fin 1) k q) = x1 (ix3 1 k q) := ld1_slab x1 1 _ k q
theorem ld1_w2 (x1 : Vec Ideal S4x64x64 .f32) (k : Fin 64) (q : Fin 64) : View.ld x1 r1_w2 (ix3 (0 : Fin 1) k q) = x1 (ix3 2 k q) := ld1_slab x1 2 _ k q
theorem ld1_w3 (x1 : Vec Ideal S4x64x64 .f32) (k : Fin 64) (q : Fin 64) : View.ld x1 r1_w3 (ix3 (0 : Fin 1) k q) = x1 (ix3 3 k q) := ld1_slab x1 3 _ k q

/-- A one-entry table broadcast over a table reads its entry everywhere. -/
theorem bcast1_11 {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

theorem hz1 : (![0, 0] : Fin 2 → Nat) = fun _ => 0 := funext fun a => by fin_cases a <;> rfl

/-- The fourth hop's left operand: the slab cast to a table (the rounding to bf16 is the identity on the extended reals). -/
theorem k1_pay3_apply (x : Vec Ideal S1x5000x64 .f32) (p : Fin 5000) (k : Fin 64) :
    k1_pay3 (F := Ideal) x (ix2 p k) = x (ix3 0 p k) := by
  unfold k1_pay3
  rw [truncf_apply, shapeCast_1ab_ab_apply]

/-- The fourth hop's right operand, likewise. -/
theorem k1_pay4_apply (x : Vec Ideal S1x64x64 .f32) (k : Fin 64) (q : Fin 64) :
    k1_pay4 (F := Ideal) x (ix2 k q) = x (ix3 0 k q) := by
  unfold k1_pay4
  rw [truncf_apply, shapeCast_1ab_ab_apply]

/-- The first three hops' products, added from the left onto the zero table, which adds nothing. -/
theorem k1_pay2_apply (h0 : Vec Ideal S1x5000x64 .f32) (w0 : Vec Ideal S1x64x64 .f32) (h1 : Vec Ideal S1x5000x64 .f32) (w1 : Vec Ideal S1x64x64 .f32)
    (h2 : Vec Ideal S1x5000x64 .f32) (w2 : Vec Ideal S1x64x64 .f32) (p : Fin 5000) (q : Fin 64) :
    k1_pay2 (F := Ideal) h0 w0 h1 w1 h2 w2 (ix2 p q)
      = ((∑ k : Fin 64, (h0 (ix3 0 p k) : EReal) * w0 (ix3 0 k q)) + (∑ k : Fin 64, (h1 (ix3 0 p k) : EReal) * w1 (ix3 0 k q)))
        + (∑ k : Fin 64, (h2 (ix3 0 p k) : EReal) * w2 (ix3 0 k q)) := by
  unfold k1_pay2
  simp only [addf_apply, matmul1_apply, truncf_apply, shapeCast_1ab_ab_apply, broadcast_apply]
  rw [show Scalar.ofBits (F := Ideal) .f32 0x00000000#32 = 0 from Ideal.ofBits_zero_f32, zero_add]

/-- The last operations: the fourth product added, the bias row added, the rectifier at the broadcast slope. -/
theorem k1_pay1_apply (v24 : FVec Ideal S5000x64 .f32) (v27 : FVec Ideal S5000x64 .bf16) (v30 : FVec Ideal S64x64 .bf16) (v33 : Vec Ideal S1x64 .f32) (v37 : Vec Ideal S1x1 .f32)
    (p : Fin 5000) (q : Fin 64) :
    k1_pay1 (F := Ideal) v24 v27 v30 v33 v37 (ix2 p q)
      = Cert.Spec.prelu (v37 (ix2 0 0)) ((v24 (ix2 p q) + ∑ k : Fin 64, (v27 (ix2 p k) : EReal) * v30 (ix2 k q)) + v33 (ix2 0 q)) := by
  unfold k1_pay1
  simp only [select_apply, cmpf_apply, mulf_apply, addf_apply, broadcast_apply, matmul1_apply, shapeCast_self,
    broadcastTo_1b_ab_apply, bcast1_11]
  rfl

/-- THE BODY'S STORED BLOCK at row `p`, column `q`, from the four input blocks: the rectifier, at the slope, of the four
    products added from the left plus the bias. -/
theorem out1_4_apply (x0 : Vec Ideal S4x5000x64 .f32) (x1 : Vec Ideal S4x64x64 .f32) (x2 : Vec Ideal S1x64 .f32) (x3 : Vec Ideal S1x1 .f32)
    (p : Fin 5000) (q : Fin 64) :
    out1_4 (F := Ideal) x0 x1 x2 x3 (ix2 p q)
      = Cert.Spec.prelu (x3 (ix2 0 0))
          (((((∑ k : Fin 64, (x0 (ix3 0 p k) : EReal) * x1 (ix3 0 k q)) + (∑ k : Fin 64, (x0 (ix3 1 p k) : EReal) * x1 (ix3 1 k q)))
            + (∑ k : Fin 64, (x0 (ix3 2 p k) : EReal) * x1 (ix3 2 k q))) + (∑ k : Fin 64, (x0 (ix3 3 p k) : EReal) * x1 (ix3 3 k q)))
            + x2 (ix2 0 q)) := by
  unfold out1_4
  rw [View.canon_unit_zero hz1, k1_pay1_apply, k1_pay2_apply]
  simp only [k1_pay3_apply, k1_pay4_apply]
  have s0 : (∑ k : Fin 64, (View.ld x0 r1_h0 (ix3 (0 : Fin 1) p k) : EReal) * View.ld x1 r1_w0 (ix3 (0 : Fin 1) k q))
      = ∑ k : Fin 64, (x0 (ix3 0 p k) : EReal) * x1 (ix3 0 k q) :=
    Finset.sum_congr rfl fun k _ => by rw [ld1_h0, ld1_w0]
  have s1 : (∑ k : Fin 64, (View.ld x0 r1_h1 (ix3 (0 : Fin 1) p k) : EReal) * View.ld x1 r1_w1 (ix3 (0 : Fin 1) k q))
      = ∑ k : Fin 64, (x0 (ix3 1 p k) : EReal) * x1 (ix3 1 k q) :=
    Finset.sum_congr rfl fun k _ => by rw [ld1_h1, ld1_w1]
  have s2 : (∑ k : Fin 64, (View.ld x0 r1_h2 (ix3 (0 : Fin 1) p k) : EReal) * View.ld x1 r1_w2 (ix3 (0 : Fin 1) k q))
      = ∑ k : Fin 64, (x0 (ix3 2 p k) : EReal) * x1 (ix3 2 k q) :=
    Finset.sum_congr rfl fun k _ => by rw [ld1_h2, ld1_w2]
  have s3 : (∑ k : Fin 64, (View.ld x0 r1_h3 (ix3 (0 : Fin 1) p k) : EReal) * View.ld x1 r1_w3 (ix3 (0 : Fin 1) k q))
      = ∑ k : Fin 64, (x0 (ix3 3 p k) : EReal) * x1 (ix3 3 k q) :=
    Finset.sum_congr rfl fun k _ => by rw [ld1_h3, ld1_w3]
  have hb : View.ld x2 r1_b = x2 := View.ld_unit_zero (S := S1x64) hz1 _ x2
  have ha : View.ld x3 r1_a = x3 := View.ld_unit_zero (S := S1x1) hz1 _ x3
  rw [s0, s1, s2, s3, hb, ha]

/-! ## From the blocks to the array -/

section Array
variable (V : (c : Dev nD) → (b : Ref sig .tc) → Buf (Elt Ideal) ((c : Thread nD τ).loc b))

/-- The arrays the region reads, as it finds them: the stacked hop features, the stacked weights, the bias row, the slope. -/
abbrev hops1 (c : Dev nD) : S4x50000x64.Idx → EReal := V c main_v122
abbrev wts1 (c : Dev nD) : S4x64x64.Idx → EReal := V c main_arg5
abbrev bias1 (c : Dev nD) : S1x64.Idx → EReal := V c main_v123
abbrev slope1 (c : Dev nD) : S1x1.Idx → EReal := V c main_v124

/-- The layer's table of those arrays. -/
abbrev G1 (c : Dev nD) : S50000x64.Idx → EReal := Cert.Spec.layerArr (hops1 V c) (wts1 V c) (bias1 V c) (slope1 V c)

/-- The printed index maps, decided once over the ten points: the hop features' and the output's blocks move with the
    point along the rows, the other windows stay at the origin. -/
theorem idx_facts1 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The hop features' block at point `t` is rows `5000·t …` of every slab. -/
theorem iblk1_0_apply (c : Dev nD) (t : Fin cfg1.N) (s : Fin 4) (p : Fin 5000) (k : Fin 64) (r : Fin 50000)
    (hr : r.val = 5000 * t.val + p.val) :
    (iblk1 V c 0 t : Vec Ideal S4x5000x64 .f32) (ix3 s p k) = hops1 V c (ix3 s r k) := by
  obtain ⟨e0, e1, e2, -⟩ := idx_facts1 t
  show hops1 V c (((cfg1.win 0).blk t).view.emb (ix3 s p k)) = _
  refine congrArg (hops1 V c) (funext fun a => Fin.ext ?_)
  match a with
  | ⟨0, _⟩ => show win1_0.index t (0 : Fin 3) * 4 + 1 * s.val = s.val; rw [e0]; omega
  | ⟨1, _⟩ => show win1_0.index t (1 : Fin 3) * 5000 + 1 * p.val = r.val; rw [e1, hr]; omega
  | ⟨2, _⟩ => show win1_0.index t (2 : Fin 3) * 64 + 1 * k.val = k.val; rw [e2]; omega

/-- The weights' block is the whole array at every point. -/
theorem iblk1_1_eq (c : Dev nD) (t : Fin cfg1.N) : (iblk1 V c 1 t : Vec Ideal S4x64x64 .f32) = wts1 V c := by
  obtain ⟨-, -, -, e0, e1, e2, -⟩ := idx_facts1 t
  funext j
  show wts1 V c (((cfg1.win 1).blk t).view.emb j) = wts1 V c j
  refine congrArg (wts1 V c) (funext fun a => Fin.ext ?_)
  match a with
  | ⟨0, _⟩ => show win1_1.index t (0 : Fin 3) * 4 + 1 * (j 0).val = (j 0).val; rw [e0]; omega
  | ⟨1, _⟩ => show win1_1.index t (1 : Fin 3) * 64 + 1 * (j 1).val = (j 1).val; rw [e1]; omega
  | ⟨2, _⟩ => show win1_1.index t (2 : Fin 3) * 64 + 1 * (j 2).val = (j 2).val; rw [e2]; omega

/-- The bias row's block is the whole array at every point. -/
theorem iblk1_2_eq (c : Dev nD) (t : Fin cfg1.N) : (iblk1 V c 2 t : Vec Ideal S1x64 .f32) = bias1 V c := by
  obtain ⟨-, -, -, -, -, -, e0, e1, -⟩ := idx_facts1 t
  funext j
  show bias1 V c (((cfg1.win 2).blk t).view.emb j) = bias1 V c j
  refine congrArg (bias1 V c) (funext fun a => Fin.ext ?_)
  match a with
  | ⟨0, _⟩ => show win1_2.index t (0 : Fin 2) * 1 + 1 * (j 0).val = (j 0).val; rw [e0]; omega
  | ⟨1, _⟩ => show win1_2.index t (1 : Fin 2) * 64 + 1 * (j 1).val = (j 1).val; rw [e1]; omega

/-- The slope's block is the whole array at every point. -/
theorem iblk1_3_eq (c : Dev nD) (t : Fin cfg1.N) : (iblk1 V c 3 t : Vec Ideal S1x1 .f32) = slope1 V c := by
  obtain ⟨-, -, -, -, -, -, -, -, e0, e1, -⟩ := idx_facts1 t
  funext j
  show slope1 V c (((cfg1.win 3).blk t).view.emb j) = slope1 V c j
  refine congrArg (slope1 V c) (funext fun a => Fin.ext ?_)
  match a with
  | ⟨0, _⟩ => show win1_3.index t (0 : Fin 2) * 1 + 1 * (j 0).val = (j 0).val; rw [e0]; omega
  | ⟨1, _⟩ => show win1_3.index t (1 : Fin 2) * 1 + 1 * (j 1).val = (j 1).val; rw [e1]; omega

/-- WHAT POINT `t` WRITES BACK is block `t` of the layer's table. -/
theorem flushed1_4_eq (c : Dev nD) (t : Fin cfg1.N) :
    (dat1 (F := Ideal) V c).flushed 4 t = ((cfg1.win 4).blk t).view.read (Elt Ideal) (G1 V c) := by
  show (cfg1.win 4).cut (grid1.coords t) ((dat1 (F := Ideal) V c).after 4 t) = _
  rw [after1_4]
  obtain ⟨-, -, -, -, -, -, -, -, -, -, e0, e1⟩ := idx_facts1 t
  have ht : t.val < 10 := Nat.lt_of_lt_of_eq t.isLt N_1
  funext j
  obtain ⟨p, q, rfl⟩ : ∃ (p : Fin 5000) (q : Fin 64), j = ix2 p q := ⟨j 0, j 1, eq_ix2 j⟩
  have hr : 5000 * t.val + p.val < 50000 := by have := p.isLt; omega
  have hemb : ((cfg1.win 4).blk t).view.emb (ix2 p q) = (ix2 (⟨5000 * t.val + p.val, hr⟩ : Fin 50000) q : S50000x64.Idx) := by
    funext a; apply Fin.ext
    match a with
    | ⟨0, _⟩ => show win1_4.index t (0 : Fin 2) * 5000 + 1 * p.val = 5000 * t.val + p.val; rw [e0]; omega
    | ⟨1, _⟩ => show win1_4.index t (1 : Fin 2) * 64 + 1 * q.val = q.val; rw [e1]; omega
  show out1_4 (F := Ideal) (iblk1 V c 0 t) (iblk1 V c 1 t) (iblk1 V c 2 t) (iblk1 V c 3 t) (ix2 p q)
    = G1 V c (((cfg1.win 4).blk t).view.emb (ix2 p q))
  rw [hemb, out1_4_apply, iblk1_1_eq, iblk1_2_eq, iblk1_3_eq]
  simp only [iblk1_0_apply V c t _ p _ (⟨5000 * t.val + p.val, hr⟩ : Fin 50000) rfl]
  rfl

/-- An index of the output array is in point `t`'s block iff each coordinate is in the block's range on its axis. -/
theorem mem_blk1_4 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v125).slice (win1_4.rect t)).set ↔ _
  rw [View.set_slice_whole, Rect.mem_set_unit]
  exact Iff.rfl

/-- Every row of the output array lies in the block of the point `row / 5000`. -/
theorem covered1_4 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx_facts1 t
  refine ⟨t, flush1_4 t, ?_⟩
  rw [mem_blk1_4]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 64 ≤ (i 1).val ∧ (i 1).val < win1_4.index t (1 : Fin 2) * 64 + 64
    rw [e1]; omega

/-- THE OUTPUT ARRAY after the region: the layer's table of the arrays the region reads. -/
theorem final1 (c : Dev nD) :
    ((dat1 (F := Ideal) V c).arrAt 4 cfg1.N : S50000x64.Idx → EReal)
      = Cert.Spec.layerArr (V c main_v122 : S4x50000x64.Idx → EReal) (V c main_arg5 : S4x64x64.Idx → EReal)
          (V c main_v123 : S1x64.Idx → EReal) (V c main_v124 : S1x1.Idx → EReal) :=
  (dat1 (F := Ideal) V c).arrAt_eq_of_cover 4 (G1 V c) (fun t _ => flushed1_4_eq V c t) (covered1_4)

end Array

end Cert.KernelIdeal.Val

end
-- ==== Proof.KI.PoolPieces.lean ====
/- The pooling kernel's values: what each case of its body leaves in the accumulator and in the output's staging buffer, as the
   body's arithmetic (the payload functions of its skeleton) of the blocks it was handed, and from these the accumulation over
   the grid's ten points in closed form. -/
import proofs.«407303_j21680994910701_1_alg».proof.Proof.KI.Pool
import Idealize.ShloMosaic.Lib.Pipeline.Value

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block access, however spelt. -/
theorem hz : (![0, 0] : Fin 2 → Nat) = fun _ => 0 := funext fun a => by fin_cases a <;> rfl

/-! ## What each case's stores leave, as the body's arithmetic of the blocks

Every load and store of the body is of a whole buffer, so what a case leaves in a buffer is the payload of its last store
there, at the contents the loads before it read. -/

/-- The first point leaves in the accumulator the point's contribution added to the zeros it was just cleared to. -/
theorem sout2_A_0_eq (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : cond2_0 i) (hc1 : ¬cond2_1 i)
    (x0 : Vec F S5000x1 .i32) (x1 : Vec F S5000x64 .f32) (x2 : Vec F S64x1 .f32) (x3 : Vec F S1x1 .f32) :
    sout2_A_0 c i arg1 harg1 arg2 harg2 arg3 harg3 arg4 harg4 arg5 harg5 arg6 harg6 hc0 hc1 x0 x1 x2 x3 = k2_pay2 x0 x1 (k2_pay1 (F := F)) := by
  unfold sout2_A_0
  rw [View.read_writes_eq_canon _ _ _ (scover2_A_0 c i arg1 harg1 arg2 harg2 arg3 harg3 arg4 harg4 arg5 harg5 arg6 harg6 hc0 hc1 x0 x1 x2 x3)]
  unfold kernelRun2_A
  dsimp only
  sl_unfold_words
  rw [View.canon_cons_unit_zero (S := S128x64) hz, View.readCov_unit_zero (S := S128x64) _ hz]
  simp only [View.readAt_eq_ld, harg1.read_unread, harg2.read_unread, View.ld_unit_zero (S := S5000x1) hz, View.ld_unit_zero (S := S5000x64) hz]

/-- A point between the first and the last leaves in the accumulator the point's contribution added to what it found. -/
theorem sout2_B_0_eq (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : ¬cond2_1 i)
    (x0 : Vec F S5000x1 .i32) (x1 : Vec F S5000x64 .f32) (x2 : Vec F S64x1 .f32) (x3 : Vec F S1x1 .f32) (xs0 : Vec F S128x64 .f32) :
    sout2_B_0 c i arg1 harg1 arg2 harg2 arg3 harg3 arg4 harg4 arg5 harg5 arg6 harg6 hc0 hc1 x0 x1 x2 x3 xs0 = k2_pay2 x0 x1 xs0 := by
  unfold sout2_B_0
  rw [View.read_writes_eq_canon _ _ _ (scover2_B_0 c i arg1 harg1 arg2 harg2 arg3 harg3 arg4 harg4 arg5 harg5 arg6 harg6 hc0 hc1 x0 x1 x2 x3 xs0)]
  unfold kernelRun2_B
  dsimp only
  sl_unfold_words
  rw [View.canon_unit_zero hz]
  simp only [View.readAt_eq_ld, harg1.read_unread, harg2.read_unread, harg6.read_unread, View.ld_unit_zero (S := S5000x1) hz, View.ld_unit_zero (S := S5000x64) hz, View.ld_unit_zero (S := S128x64) hz]

/-- The last point leaves in the accumulator the point's contribution added to what it found, -/
theorem sout2_C_0_eq (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : cond2_1 i)
    (x0 : Vec F S5000x1 .i32) (x1 : Vec F S5000x64 .f32) (x2 : Vec F S64x1 .f32) (x3 : Vec F S1x1 .f32) (xs0 : Vec F S128x64 .f32) :
    sout2_C_0 c i arg1 harg1 arg2 harg2 arg3 harg3 arg4 harg4 arg5 harg5 arg6 harg6 hc0 hc1 x0 x1 x2 x3 xs0 = k2_pay2 x0 x1 xs0 := by
  unfold sout2_C_0
  rw [View.read_writes_eq_canon _ _ _ (scover2_C_0 c i arg1 harg1 arg2 harg2 arg3 harg3 arg4 harg4 arg5 harg5 arg6 harg6 hc0 hc1 x0 x1 x2 x3 xs0)]
  unfold kernelRun2_C
  dsimp only
  sl_unfold_words
  rw [View.canon_unit_zero hz]
  simp only [View.readAt_eq_ld, harg1.read_unread, harg2.read_unread, harg6.read_unread, View.ld_unit_zero (S := S5000x1) hz, View.ld_unit_zero (S := S5000x64) hz, View.ld_unit_zero (S := S128x64) hz]

/-- and in the output's staging buffer the read-out of that accumulator: its product with the weight column plus the bias. -/
theorem out2_C_4_eq (c : Dev nD) (i : grid2.Coords) (arg1 : Memref sig .tc .vmem S5000x1 .i32) (harg1 : arg1.IsWhole) (arg2 : Memref sig .tc .vmem S5000x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x64 .f32) (harg6 : arg6.IsWhole) (hc0 : ¬cond2_0 i) (hc1 : cond2_1 i)
    (x0 : Vec F S5000x1 .i32) (x1 : Vec F S5000x64 .f32) (x2 : Vec F S64x1 .f32) (x3 : Vec F S1x1 .f32) (xs0 : Vec F S128x64 .f32) :
    out2_C_4 c i arg1 harg1 arg2 harg2 arg3 harg3 arg4 harg4 arg5 harg5 arg6 harg6 hc0 hc1 x0 x1 x2 x3 xs0 = k2_pay3 (k2_pay2 x0 x1 xs0) x2 x3 := by
  unfold out2_C_4
  rw [View.read_writes_eq_canon _ _ _ (cover2_C_4 c i arg1 harg1 arg2 harg2 arg3 harg3 arg4 harg4 arg5 harg5 arg6 harg6 hc0 hc1 x0 x1 x2 x3 xs0)]
  unfold kernelRun2_C
  dsimp only
  sl_unfold_words
  rw [View.canon_unit_zero hz]
  simp only [View.readCov_unit_zero (S := S128x64) _ hz, View.readAt_eq_ld, harg1.read_unread, harg2.read_unread, harg3.read_unread, harg4.read_unread, harg6.read_unread, View.ld_unit_zero (S := S5000x1) hz, View.ld_unit_zero (S := S5000x64) hz, View.ld_unit_zero (S := S128x64) hz, View.ld_unit_zero (S := S64x1) hz, View.ld_unit_zero (S := S1x1) hz]

section Regions
variable (V : (c : Dev nD) → (b : Ref sig .tc) → Buf (Elt F) ((c : Thread nD τ).loc b))

/-! ## The input blocks at their literal types -/

/-- The segment ids of the point's row block. -/
abbrev idsBlk (c : Dev nD) (t : Fin cfg2.N) : Vec F S5000x1 .i32 := iblk2 V c 0 t
/-- The node features of the point's row block. -/
abbrev hBlk (c : Dev nD) (t : Fin cfg2.N) : Vec F S5000x64 .f32 := iblk2 V c 1 t
/-- The read-out weight column (the same block at every point). -/
abbrev woutBlk (c : Dev nD) (t : Fin cfg2.N) : Vec F S64x1 .f32 := iblk2 V c 2 t
/-- The read-out bias (the same block at every point). -/
abbrev boutBlk (c : Dev nD) (t : Fin cfg2.N) : Vec F S1x1 .f32 := iblk2 V c 3 t

/-! ## The accumulation over the grid in closed form -/

/-- After the first point the accumulator holds that point's contribution over zeros. -/
theorem scratch_zero (c : Dev nD) (h0 : 0 < cfg2.N) :
    (outsAt2 V c 0 h0).2 = k2_pay2 (idsBlk V c ⟨0, h0⟩) (hBlk V c ⟨0, h0⟩) (k2_pay1 (F := F)) := by
  have e := congrArg Prod.snd (outsAt2_A V c ⟨0, h0⟩ (Nat.zero_mod _) (by show ¬(0 : ℕ) % 10 = 9; omega))
  dsimp only at e
  rw [sout2_A_0_eq] at e
  exact e

/-- After every later point it holds that point's contribution over what the point before left. -/
theorem scratch_succ (c : Dev nD) (n : ℕ) (hn : n + 1 < cfg2.N) :
    (outsAt2 V c (n + 1) hn).2 = k2_pay2 (idsBlk V c ⟨n + 1, hn⟩) (hBlk V c ⟨n + 1, hn⟩) (outsAt2 V c n (Nat.lt_of_succ_lt hn)).2 := by
  have hN : n + 1 < 10 := lt_of_lt_of_eq hn (show cfg2.N = 10 from N_2)
  have h0 : ¬(n + 1) % 10 = 0 := by omega
  by_cases h1 : (n + 1) % 10 = 9
  · rw [outsAt2, dif_neg h0, dif_pos h1]
    dsimp only
    rw [sout2_C_0_eq]
  · rw [outsAt2, dif_neg h0, dif_neg h1]
    dsimp only
    rw [sout2_B_0_eq]

/-- After the last point the output's staging buffer holds the read-out of the accumulator as that point leaves it. -/
theorem out_last (c : Dev nD) (h9 : 9 < cfg2.N) :
    (outsAt2 V c 9 h9).1 = k2_pay3 (outsAt2 V c 9 h9).2 (woutBlk V c ⟨9, h9⟩) (boutBlk V c ⟨9, h9⟩) := by
  have e := outsAt2_C V c ⟨9, h9⟩ (by show ¬(9 : ℕ) % 10 = 0; omega) (by show (9 : ℕ) % 10 = 9; omega)
  have e1 := congrArg Prod.fst e
  have e2 := congrArg Prod.snd e
  dsimp only at e1 e2
  rw [out2_C_4_eq] at e1
  rw [sout2_C_0_eq] at e2
  rw [e1, e2]

end Regions

end Cert.KernelIdeal.Hand

end
-- ==== Proof.LibTileSum.lean ====
/-
  Two facts about sums over the rows of a table, at symbolic extents:
  * a contraction `[K, M] × [K, N]` over the FIRST axis of both operands (the transpose of the left operand times the
    right one) is, entry by entry, the sum over the contracted row;
  * the rows below `B · (n + 1)` of a table of `N` rows are the rows below `B · n` and the `B` rows of tile `n`: a sum
    restricted to the former is the sum restricted to the latter plus the sum over the tile.
-/
import Idealize.ShloMosaic.PureOps.Ideal
import Idealize.ShloMosaic.PureOps.Ideal.Laws
import Idealize.ShloMosaic.Lib.ValueIdx

noncomputable section

open scoped BigOperators

namespace Idealize.ShloMosaic.TileSum

open Idealize.ShloMosaic Idealize.ShloMosaic.ValueIdx

/-! ## A contraction over the first axis of both operands -/

/-- The dimension numbers of `lhsᵀ · rhs` for `lhs` of shape `[K, M]`, `rhs` of shape `[K, N]` and a result `[M, N]`:
    axis 0 of both operands is contracted, axis 1 of each is kept. -/
abbrev firstAxes (K M N : Nat) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- The left operand's column coordinate is the output's row, whatever the contraction position. -/
theorem firstAxes_lhsIdx_col {K M N : Nat} (wf : DotDims.WF ⟨2, ![K, M]⟩ ⟨2, ![K, N]⟩ ⟨2, ![M, N]⟩ [0] [0] [1] [1] [] [])
    (p : Fin M) (q : Fin N) (k : (firstAxes K M N wf).contr.Idx) :
    ((firstAxes K M N wf).lhsIdx (ix2 p q) k 1).val = p.val := rfl

/-- The right operand's column coordinate is the output's column, whatever the contraction position. -/
theorem firstAxes_rhsIdx_col {K M N : Nat} (wf : DotDims.WF ⟨2, ![K, M]⟩ ⟨2, ![K, N]⟩ ⟨2, ![M, N]⟩ [0] [0] [1] [1] [] [])
    (p : Fin M) (q : Fin N) (k : (firstAxes K M N wf).contr.Idx) :
    ((firstAxes K M N wf).rhsIdx (ix2 p q) k 1).val = q.val := rfl

/-- The contraction sum of `firstAxes K M N` at the output entry `(p, q)` runs over the `K` products
    `lhs (k, p) · rhs (k, q)`. -/
theorem firstAxes_sum {K M N : Nat} (wf : DotDims.WF ⟨2, ![K, M]⟩ ⟨2, ![K, N]⟩ ⟨2, ![M, N]⟩ [0] [0] [1] [1] [] [])
    (lhs : (⟨2, ![K, M]⟩ : Shape).Idx → EReal) (rhs : (⟨2, ![K, N]⟩ : Shape).Idx → EReal) (p : Fin M) (q : Fin N) :
    ∑ k : (firstAxes K M N wf).contr.Idx,
        lhs ((firstAxes K M N wf).lhsIdx (ix2 p q) k) * rhs ((firstAxes K M N wf).rhsIdx (ix2 p q) k)
      = ∑ k : Fin K, lhs (ix2 k p) * rhs (ix2 k q) := by
  -- re-index the sum by the one contracted coordinate
  rw [← Equiv.sum_comp (contrEquiv1 (firstAxes K M N wf) K rfl rfl).symm]
  refine Finset.sum_congr rfl fun k _ => ?_
  -- the left operand is read at (k, p): its row the contracted coordinate, its column the output's row
  have hl : (firstAxes K M N wf).lhsIdx (ix2 p q) ((contrEquiv1 (firstAxes K M N wf) K rfl rfl).symm k) = ix2 k p := by
    funext a
    refine Fin.ext ?_
    match a with
    | ⟨0, _⟩ =>
      exact ((firstAxes K M N wf).lhsIdx_val_of_single (cl := 0) rfl _ _).trans
        (contrEquiv1_symm_val (firstAxes K M N wf) K rfl rfl k)
    | ⟨1, _⟩ => exact firstAxes_lhsIdx_col wf p q _
  -- the right operand is read at (k, q): its row the contracted coordinate, its column the output's column
  have hr : (firstAxes K M N wf).rhsIdx (ix2 p q) ((contrEquiv1 (firstAxes K M N wf) K rfl rfl).symm k) = ix2 k q := by
    funext a
    refine Fin.ext ?_
    match a with
    | ⟨0, _⟩ =>
      exact ((firstAxes K M N wf).rhsIdx_val_of_single (cr := 0) rfl _ _).trans
        (contrEquiv1_symm_val (firstAxes K M N wf) K rfl rfl k)
    | ⟨1, _⟩ => exact firstAxes_rhsIdx_col wf p q _
  rw [hl, hr]

/-- The product `lhsᵀ · rhs` into the zero accumulator, at the ideal values, entry by entry. -/
theorem matmul_firstAxes_zero_apply {K M N : Nat} {φ₁ φ₂ : FTy}
    (wf : DotDims.WF ⟨2, ![K, M]⟩ ⟨2, ![K, N]⟩ ⟨2, ![M, N]⟩ [0] [0] [1] [1] [] []) (prec : Option ContractPrecision)
    (lhs : FVec Ideal ⟨2, ![K, M]⟩ φ₁) (rhs : FVec Ideal ⟨2, ![K, N]⟩ φ₂) (p : Fin M) (q : Fin N) :
    FloatOps.matmul (firstAxes K M N wf) prec lhs rhs (constant ⟨2, ![M, N]⟩ .f32 0x00000000#32) (ix2 p q)
      = ∑ k : Fin K, lhs (ix2 k p) * rhs (ix2 k q) := by
  rw [Ideal.matmul_constant_zero_apply]
  exact firstAxes_sum wf lhs rhs p q

/-! ## The rows of one tile -/

/-- Row `s` of tile `n` (tiles of `B` rows) as a row of the table of `N` rows. -/
def tileRow {N : Nat} (B n : Nat) (hB : B * (n + 1) ≤ N) (s : Fin B) : Fin N :=
  ⟨B * n + s.val, by have := s.isLt; have e : B * (n + 1) = B * n + B := Nat.mul_succ B n; omega⟩

/-- Its number. -/
theorem tileRow_val {N : Nat} (B n : Nat) (hB : B * (n + 1) ≤ N) (s : Fin B) : (tileRow B n hB s).val = B * n + s.val := rfl

/-- A sum over the rows below `B · (n + 1)` is the sum over the rows below `B · n` plus the sum over tile `n`'s rows. -/
theorem sum_below_succ {A : Type*} [AddCommMonoid A] {N : Nat} (B n : Nat) (hB : B * (n + 1) ≤ N) (G : Fin N → A) :
    ∑ r : Fin N, (if r.val < B * (n + 1) then G r else 0)
      = (∑ r : Fin N, if r.val < B * n then G r else 0) + ∑ s : Fin B, G (tileRow B n hB s) := by
  have e : B * (n + 1) = B * n + B := Nat.mul_succ B n
  -- a row below B (n + 1) is below B n or in tile n, and not both
  have hsplit : ∀ r : Fin N, (if r.val < B * (n + 1) then G r else 0)
      = (if r.val < B * n then G r else 0) + (if B * n ≤ r.val ∧ r.val < B * (n + 1) then G r else 0) := by
    intro r
    by_cases h1 : r.val < B * n
    · rw [if_pos h1, if_pos (by omega), if_neg (by omega), add_zero]
    · by_cases h2 : r.val < B * (n + 1)
      · rw [if_neg h1, if_pos h2, if_pos ⟨by omega, h2⟩, zero_add]
      · rw [if_neg h1, if_neg h2, if_neg (fun h => h2 h.2), zero_add]
  rw [Finset.sum_congr rfl (fun r _ => hsplit r), Finset.sum_add_distrib]
  congr 1
  -- the rows in tile n are the images of the tile's B rows
  rw [← Finset.sum_filter]
  have hmap : (Finset.univ.filter fun r : Fin N => B * n ≤ r.val ∧ r.val < B * (n + 1))
      = Finset.univ.map ⟨tileRow B n hB, fun s s' h => Fin.ext (by
          have h' : B * n + s.val = B * n + s'.val := congrArg Fin.val h
          omega)⟩ := by
    ext r
    simp only [Finset.mem_filter, Finset.mem_univ, true_and, Finset.mem_map, Function.Embedding.coeFn_mk]
    constructor
    · rintro ⟨h1, h2⟩
      exact ⟨⟨r.val - B * n, by omega⟩, Fin.ext (by show B * n + (r.val - B * n) = r.val; omega)⟩
    · rintro ⟨s, rfl⟩
      show B * n ≤ B * n + s.val ∧ B * n + s.val < B * (n + 1)
      have := s.isLt
      omega
  rw [hmap, Finset.sum_map]
  rfl

/-- No row is below `B · 0`: the sum over them is zero. -/
theorem sum_below_zero {A : Type*} [AddCommMonoid A] {N : Nat} (B : Nat) (G : Fin N → A) :
    ∑ r : Fin N, (if r.val < B * 0 then G r else 0) = 0 :=
  Finset.sum_eq_zero fun r _ => if_neg (by omega)

/-- Every row of a table of `N` rows is below `N`: the restriction drops. -/
theorem sum_below_all {A : Type*} [AddCommMonoid A] {N : Nat} (L : Nat) (hL : N ≤ L) (G : Fin N → A) :
    ∑ r : Fin N, (if r.val < L then G r else 0) = ∑ r : Fin N, G r :=
  Finset.sum_congr rfl fun r _ => if_pos (by have := r.isLt; omega)

end Idealize.ShloMosaic.TileSum

end
-- ==== Proof.KI.ValPool.lean ====
/-
  The pooling kernel's value. Over its ten grid points the kernel adds, into an accumulator of 128 graph slots by 64
  features, the rows of the point's block of 5000 rows whose graph id is the slot (the one-hot matrix of the ids,
  transposed, times the block); after the last point it multiplies the accumulator by the 64 × 1 output weights, adds
  the bias, and that block is the whole output array, written back there and nowhere else. Here: the payloads entry by
  entry over the extended reals; the blocks read off the arrays; the accumulator after point `n` as the sum over the
  rows below `5000 · (n + 1)` (by induction on the point, a tile of rows at a time); and the output array as the
  specification's head.
-/
import proofs.«407303_j21680994910701_1_alg».proof.Proof.KI.PoolPieces
import proofs.«407303_j21680994910701_1_alg».proof.Proof.Spec
import proofs.«407303_j21680994910701_1_alg».proof.Proof.LibRowDims
import proofs.«407303_j21680994910701_1_alg».proof.Proof.LibTileSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.Tactic Idealize.SL.Sem
open Idealize.ShloMosaic.ValueIdx Idealize.ShloMosaic.RowDims Idealize.ShloMosaic.TileSum
open Idealize.ShloMosaic.Pipeline (Dat)

/-! ## The payloads, entry by entry, over the extended reals -/

/-- A graph id is the word of slot `g` exactly when, read signed, it is the number `g` (slots are below 128). -/
theorem id_eq_slot_iff (id : BitVec 32) (g : Fin 128) : id = BitVec.ofNat 32 g.val ↔ id.toInt = (g.val : Int) := by
  have hg := g.isLt
  have e := BitVec.toInt_eq_toNat_cond id
  have hlt := id.isLt
  constructor
  · intro h
    have hn : id.toNat = g.val := by rw [h, BitVec.toNat_ofNat]; omega
    omega
  · intro h
    apply BitVec.eq_of_toNat_eq
    rw [BitVec.toNat_ofNat]
    omega

/-- The one-hot entry of a row's id against slot `g`: the comparison's bit, widened and converted, is `1` when the id
    read signed is `g` and `0` otherwise. -/
theorem onehot_entry (id : BitVec 32) (g : Fin 128) :
    (FloatOps.sitofp (F := Ideal) .f32 ((IntOp.cmpi .eq id (BitVec.ofNat 32 g.val)).setWidth 32) : EReal)
      = if id.toInt = (g.val : Int) then 1 else 0 := by
  show ((((IntOp.cmpi .eq id (BitVec.ofNat 32 g.val)).setWidth 32).toInt : ℝ) : EReal) = _
  by_cases h : id = BitVec.ofNat 32 g.val
  · have hb : IntOp.cmpi .eq id (BitVec.ofNat 32 g.val) = 1#1 := by
      show BitVec.ofBool (id == BitVec.ofNat 32 g.val) = 1#1
      rw [beq_iff_eq.mpr h]; rfl
    rw [hb, if_pos ((id_eq_slot_iff id g).mp h)]
    show (((1 : ℤ) : ℝ) : EReal) = 1
    simp
  · have hb : IntOp.cmpi .eq id (BitVec.ofNat 32 g.val) = 0#1 := by
      show BitVec.ofBool (id == BitVec.ofNat 32 g.val) = 0#1
      rw [beq_eq_false_iff_ne.mpr h]; rfl
    rw [hb, if_neg (fun h' => h ((id_eq_slot_iff id g).mpr h'))]
    show (((0 : ℤ) : ℝ) : EReal) = 0
    simp

/-- The one-hot matrix of a block's ids at row `r`, slot `g`. -/
theorem onehot_apply (v3 : IVec S5000x1 32) (h1 : S5000x1.ShapeCasts S5000x1) (h2 : S5000x1.Broadcasts S5000x128)
    (h3 : S5000x128.Iotas .tc 32 [1]) (h4 : 1 < 32) (h5 : FTy.bits .bf16 < FTy.bits .f32) (r : Fin 5000) (g : Fin 128) :
    ((truncf .bf16 (sitofp (F := Ideal) .f32 (extui 32 (cmpi .eq (broadcastTo S5000x128 (shapeCast S5000x1 v3 h1) h2)
        (iota .tc S5000x128 32 [1] h3)) h4)) h5 : FVec Ideal S5000x128 .bf16) (ix2 r g) : EReal)
      = if (v3 (ix2 r 0)).toInt = (g.val : Int) then 1 else 0 := by
  show (FloatOps.sitofp (F := Ideal) .f32 ((IntOp.cmpi .eq (broadcastTo S5000x128 (shapeCast S5000x1 v3 h1) h2 (ix2 r g))
    (iota .tc S5000x128 32 [1] h3 (ix2 r g))).setWidth 32) : EReal) = _
  rw [broadcastTo_apply _ h2 (ix2 r g) (ix2 r 0) (fun a => match a with | ⟨0, _⟩ => rfl | ⟨1, _⟩ => rfl), shapeCast_self,
    iota_single_apply]
  exact onehot_entry _ g

/-- The clearing payload is zero everywhere. -/
theorem pay1_apply (g : Fin 128) (j : Fin 64) : (k2_pay1 (F := Ideal) (ix2 g j) : EReal) = 0 := by
  unfold k2_pay1
  refine (congrFun (shapeCast_self _ _) (ix2 g j)).trans ?_
  exact Ideal.ofBits_zero_f32

/-- The accumulating payload at slot `g`, feature `j`: the accumulator's entry plus the block's rows of slot `g`. -/
theorem pay2_apply (v3 : Vec Ideal S5000x1 .i32) (v5 : Vec Ideal S5000x64 .f32) (v15 : Vec Ideal S128x64 .f32) (g : Fin 128) (j : Fin 64) :
    (k2_pay2 (F := Ideal) v3 v5 v15 (ix2 g j) : EReal)
      = (v15 (ix2 g j) : EReal) + ∑ r : Fin 5000, if (v3 (ix2 r 0)).toInt = (g.val : Int) then (v5 (ix2 r j) : EReal) else 0 := by
  unfold k2_pay2
  refine (congrFun (shapeCast_self _ _) (ix2 g j)).trans ?_
  show (v15 (ix2 g j) : EReal) + FloatOps.matmul (F := Ideal) (firstAxes 5000 128 64 dot_S5000x128_S5000x64_S128x64_0_0_1_1_n_n.wf) none _ _
    (constant S128x64 .f32 0x00000000#32) (ix2 g j) = _
  refine congrArg ((v15 (ix2 g j) : EReal) + ·) ?_
  refine (matmul_firstAxes_zero_apply _ none _ _ g j).trans ?_
  refine Finset.sum_congr rfl fun r _ => ?_
  refine (congrArg (· * _) (onehot_apply v3 _ _ _ _ _ r g)).trans ?_
  show (if (v3 (ix2 r 0)).toInt = (g.val : Int) then (1 : EReal) else 0) * (shapeCast S5000x64 v5 _ (ix2 r j) : EReal) = _
  rw [shapeCast_self]
  by_cases h : (v3 (ix2 r 0)).toInt = (g.val : Int)
  · rw [if_pos h, if_pos h, one_mul]
  · rw [if_neg h, if_neg h, zero_mul]

/-- The head's payload at slot `g`: the accumulator's row times the output weights, plus the bias. -/
theorem pay3_apply (v23 : Vec Ideal S128x64 .f32) (v25 : Vec Ideal S64x1 .f32) (v28 : Vec Ideal S1x1 .f32) (g : Fin 128) :
    (k2_pay3 (F := Ideal) v23 v25 v28 (ix2 g 0) : EReal)
      = (∑ k : Fin 64, (v23 (ix2 g k) : EReal) * (v25 (ix2 k 0) : EReal)) + (v28 (ix2 0 0) : EReal) := by
  unfold k2_pay3
  show FloatOps.matmul (F := Ideal) (DotDims.plain 128 64 1) none _ _ (constant S128x1 .f32 0x00000000#32) (ix2 g 0)
    + broadcastTo S128x1 (shapeCast S1x1 v28 _) _ (ix2 g 0) = _
  refine congrArg₂ (· + ·) ?_ ?_
  · exact matmul_plain_zero_apply none _ _ g 0
  · refine (broadcastTo_apply _ _ (ix2 g 0) (ix2 0 0) (fun a => match a with | ⟨0, _⟩ => rfl | ⟨1, _⟩ => rfl)).trans ?_
    exact congrFun (shapeCast_self _ _) _

/-! ## The arrays and their blocks -/

section Region
variable (V : (c : Dev nD) → (b : Ref sig .tc) → Buf (Elt Ideal) ((c : Thread nD τ).loc b))

/-- The graph ids, a column of 50000 words. -/
abbrev idsArr (c : Dev nD) : IVec S50000x1 32 := V c main_v126
/-- The node features, 50000 rows of 64. -/
abbrev featArr (c : Dev nD) : S50000x64.Idx → EReal := V c main_v125
/-- The output weights, a column of 64. -/
abbrev woutArr (c : Dev nD) : S64x1.Idx → EReal := V c main_arg9
/-- The output bias, one entry. -/
abbrev boutArr (c : Dev nD) : S1x1.Idx → EReal := V c main_v127

/-- The block indices of the four input windows, decided over the grid: the two row-blocked windows step with the
    point, the two small ones stay. -/
theorem index2_0 : ∀ t : Fin grid2.N, win2_0.index t 0 = t.val ∧ win2_0.index t 1 = 0 := by decide +kernel
theorem index2_1 : ∀ t : Fin grid2.N, win2_1.index t 0 = t.val ∧ win2_1.index t 1 = 0 := by decide +kernel
theorem index2_2 : ∀ t : Fin grid2.N, win2_2.index t 0 = 0 ∧ win2_2.index t 1 = 0 := by decide +kernel
theorem index2_3 : ∀ t : Fin grid2.N, win2_3.index t 0 = 0 ∧ win2_3.index t 1 = 0 := by decide +kernel
theorem index2_4 : ∀ t : Fin grid2.N, win2_4.index t 0 = 0 ∧ win2_4.index t 1 = 0 := by decide +kernel

/-- Row `s` of the ids' block at point `n` is row `5000 n + s` of the ids. -/
theorem idsBlk_apply (c : Dev nD) (n : ℕ) (hn : n < cfg2.N) (hB : 5000 * (n + 1) ≤ 50000) (s : Fin 5000) :
    idsBlk V c ⟨n, hn⟩ (ix2 s 0) = idsArr V c (ix2 (tileRow 5000 n hB s) 0) := by
  have hi := index2_0 ⟨n, hn⟩
  show V c main_v126 (((cfg2.win 0).blk ⟨n, hn⟩).view.emb (ix2 s 0)) = V c main_v126 (ix2 (tileRow 5000 n hB s) 0)
  refine congrArg (V c main_v126) (funext fun a => Fin.ext ?_)
  match a with
  | ⟨0, _⟩ =>
    show win2_0.index ⟨n, hn⟩ 0 * 5000 + 1 * s.val = 5000 * n + s.val
    rw [hi.1]; show n * 5000 + 1 * s.val = 5000 * n + s.val; omega
  | ⟨1, _⟩ =>
    show win2_0.index ⟨n, hn⟩ 1 * 1 + 1 * 0 = 0
    rw [hi.2]

/-- Row `s` of the features' block at point `n` is row `5000 n + s` of the features. -/
theorem hBlk_apply (c : Dev nD) (n : ℕ) (hn : n < cfg2.N) (hB : 5000 * (n + 1) ≤ 50000) (s : Fin 5000) (j : Fin 64) :
    hBlk V c ⟨n, hn⟩ (ix2 s j) = featArr V c (ix2 (tileRow 5000 n hB s) j) := by
  have hi := index2_1 ⟨n, hn⟩
  show V c main_v125 (((cfg2.win 1).blk ⟨n, hn⟩).view.emb (ix2 s j)) = V c main_v125 (ix2 (tileRow 5000 n hB s) j)
  refine congrArg (V c main_v125) (funext fun a => Fin.ext ?_)
  match a with
  | ⟨0, _⟩ =>
    show win2_1.index ⟨n, hn⟩ 0 * 5000 + 1 * s.val = 5000 * n + s.val
    rw [hi.1]; show n * 5000 + 1 * s.val = 5000 * n + s.val; omega
  | ⟨1, _⟩ =>
    show win2_1.index ⟨n, hn⟩ 1 * 64 + 1 * j.val = j.val
    rw [hi.2]; omega

/-- The weights' block is the weights. -/
theorem woutBlk_apply (c : Dev nD) (t : Fin cfg2.N) (k : Fin 64) : woutBlk V c t (ix2 k 0) = woutArr V c (ix2 k 0) := by
  have hi := index2_2 t
  show V c main_arg9 (((cfg2.win 2).blk t).view.emb (ix2 k 0)) = V c main_arg9 (ix2 k 0)
  refine congrArg (V c main_arg9) (funext fun a => Fin.ext ?_)
  match a with
  | ⟨0, _⟩ =>
    show win2_2.index t 0 * 64 + 1 * k.val = k.val
    rw [hi.1]; omega
  | ⟨1, _⟩ =>
    show win2_2.index t 1 * 1 + 1 * 0 = 0
    rw [hi.2]

/-- The bias' block is the bias. -/
theorem boutBlk_apply (c : Dev nD) (t : Fin cfg2.N) : boutBlk V c t (ix2 0 0) = boutArr V c (ix2 0 0) := by
  have hi := index2_3 t
  show V c main_v127 (((cfg2.win 3).blk t).view.emb (ix2 0 0)) = V c main_v127 (ix2 0 0)
  refine congrArg (V c main_v127) (funext fun a => Fin.ext ?_)
  match a with
  | ⟨0, _⟩ =>
    show win2_3.index t 0 * 1 + 1 * 0 = 0
    rw [hi.1]
  | ⟨1, _⟩ =>
    show win2_3.index t 1 * 1 + 1 * 0 = 0
    rw [hi.2]

/-! ## The accumulator, point by point -/

/-- What row `r` adds to slot `g`, feature `j`: its feature when its id, read signed, is `g`. -/
abbrev contrib (c : Dev nD) (g : Fin 128) (j : Fin 64) (r : Fin 50000) : EReal :=
  if (idsArr V c (ix2 r 0)).toInt = (g.val : Int) then featArr V c (ix2 r j) else 0

/-- After point `n` the accumulator holds, at slot `g` and feature `j`, the sum of the rows below `5000 (n + 1)` of slot `g`. -/
theorem acc_eq (c : Dev nD) : ∀ (n : ℕ) (hn : n < cfg2.N) (g : Fin 128) (j : Fin 64),
    ((outsAt2 V c n hn).2 (ix2 g j) : EReal) = ∑ r : Fin 50000, if r.val < 5000 * (n + 1) then contrib V c g j r else 0
  | 0, hn, g, j => by
    have hB : 5000 * (0 + 1) ≤ 50000 := by norm_num
    refine (congrFun (scratch_zero V c hn) (ix2 g j)).trans ?_
    refine (pay2_apply (idsBlk V c ⟨0, hn⟩) (hBlk V c ⟨0, hn⟩) (k2_pay1 (F := Ideal)) g j).trans ?_
    rw [pay1_apply, zero_add, sum_below_succ 5000 0 hB, sum_below_zero, zero_add]
    refine Finset.sum_congr rfl fun s _ => ?_
    rw [idsBlk_apply V c 0 hn hB s, hBlk_apply V c 0 hn hB s j]
  | n + 1, hn, g, j => by
    have hN : cfg2.N = 10 := N_2
    have hB : 5000 * (n + 1 + 1) ≤ 50000 := by omega
    refine (congrFun (scratch_succ V c n hn) (ix2 g j)).trans ?_
    refine (pay2_apply (idsBlk V c ⟨n + 1, hn⟩) (hBlk V c ⟨n + 1, hn⟩) (outsAt2 V c n (Nat.lt_of_succ_lt hn)).2 g j).trans ?_
    rw [acc_eq c n (Nat.lt_of_succ_lt hn) g j, sum_below_succ 5000 (n + 1) hB]
    refine congrArg (_ + ·) (Finset.sum_congr rfl fun s _ => ?_)
    rw [idsBlk_apply V c (n + 1) hn hB s, hBlk_apply V c (n + 1) hn hB s j]

/-- After the last point it is the specification's pooled table. -/
theorem acc_last (c : Dev nD) (h9 : 9 < cfg2.N) (g : Fin 128) (j : Fin 64) :
    ((outsAt2 V c 9 h9).2 (ix2 g j) : EReal)
      = Cert.Spec.pooledAt (fun r => idsArr V c (ix2 r 0)) (fun r k => featArr V c (ix2 r k)) g j := by
  rw [acc_eq V c 9 h9 g j, sum_below_all (5000 * (9 + 1)) (by norm_num)]
  rfl

/-! ## The output array -/

/-- The head of the arrays the region is entered with. -/
abbrev result (c : Dev nD) : S128x1.Idx → EReal :=
  Cert.Spec.headArr (idsArr V c) (featArr V c) (woutArr V c) (boutArr V c)

/-- After the last point the output's buffer holds the head. -/
theorem out_eq (c : Dev nD) (h9 : 9 < cfg2.N) : ((outsAt2 V c 9 h9).1 : S128x1.Idx → EReal) = result V c := by
  funext y
  have hy : y = ix2 (y 0) 0 := (eq_ix2 y).trans (congrArg (ix2 (y 0)) (Fin.eq_zero _))
  rw [hy]
  refine (congrFun (out_last V c h9) (ix2 (y 0) 0)).trans ?_
  refine (pay3_apply (outsAt2 V c 9 h9).2 (woutBlk V c ⟨9, h9⟩) (boutBlk V c ⟨9, h9⟩) (y 0)).trans ?_
  show _ = Cert.Spec.headAt (fun r => idsArr V c (ix2 r 0)) (fun r k => featArr V c (ix2 r k)) (fun k => woutArr V c (ix2 k 0))
    (boutArr V c (ix2 0 0)) (y 0)
  unfold Cert.Spec.headAt
  rw [boutBlk_apply]
  refine congrArg (· + _) (Finset.sum_congr rfl fun k _ => ?_)
  rw [acc_last V c h9 (y 0) k, woutBlk_apply]

/-- The one write-back, at the last point, writes the head: the block is the whole array. -/
theorem flushed_eq (c : Dev nD) (t : Fin cfg2.N) (hf : (cfg2.win 4).flush t = true) :
    (dat2 V c).flushed 4 t = ((cfg2.win 4).blk t).view.read (Elt Ideal) (result V c) := by
  have hN : cfg2.N = 10 := N_2
  have h9 : t.val = 9 := by have := (flush2_4 t).mp hf; have := t.isLt; omega
  obtain ⟨n, hn⟩ := t
  dsimp only at h9
  subst h9
  show (cfg2.win 4).cut (grid2.coords ⟨9, hn⟩) ((dat2 V c).after 4 ⟨9, hn⟩) = _
  rw [after2_4]
  have hz' : (fun a => win2_4.index ⟨9, hn⟩ a * main_v128.ty.shape.size a) = fun _ => 0 := funext fun a =>
    match a with
    | ⟨0, _⟩ => by show win2_4.index ⟨9, hn⟩ 0 * 128 = 0; rw [(index2_4 ⟨9, hn⟩).1]
    | ⟨1, _⟩ => by show win2_4.index ⟨9, hn⟩ 1 * 1 = 0; rw [(index2_4 ⟨9, hn⟩).2]
  refine Eq.trans ?_ (Memref.read_access_unit_zero (Elt Ideal) main_v128 hz' (fun a => by rw [congrFun hz' a]; simp) (result V c)).symm
  exact out_eq V c hn

/-- The output array after the region: the specification's head of the arrays the region is entered with. -/
theorem final2 (c : Dev nD) :
    ((dat2 (F := Ideal) V c).arrAt 4 cfg2.N : S128x1.Idx → EReal)
      = Cert.Spec.headArr (V c main_v126 : IVec S50000x1 32) (V c main_v125 : S50000x64.Idx → EReal)
          (V c main_arg9 : S64x1.Idx → EReal) (V c main_v127 : S1x1.Idx → EReal) := by
  refine (dat2 V c).arrAt_eq_of_cover 4 (result V c) (flushed_eq V c) fun i => ⟨t2_9, (flush2_4 t2_9).mpr rfl, ?_⟩
  show i ∈ ((View.whole main_v128).slice (win2_4.rect t2_9)).set
  rw [View.set_slice_whole, Rect.mem_set_unit]
  intro a
  have h0 : (i 0 : Nat) < 128 := (i 0).isLt
  have h1 : (i 1 : Nat) < 1 := (i 1).isLt
  match a with
  | ⟨0, _⟩ =>
    show win2_4.index t2_9 0 * win2_4.size 0 ≤ (i 0 : Nat) ∧ (i 0 : Nat) < win2_4.index t2_9 0 * win2_4.size 0 + win2_4.xsize (grid2.coords t2_9) 0
    rw [(index2_4 t2_9).1, show win2_4.xsize (grid2.coords t2_9) 0 = 128 from by decide +kernel]; omega
  | ⟨1, _⟩ =>
    show win2_4.index t2_9 1 * win2_4.size 1 ≤ (i 1 : Nat) ∧ (i 1 : Nat) < win2_4.index t2_9 1 * win2_4.size 1 + win2_4.xsize (grid2.coords t2_9) 1
    rw [(index2_4 t2_9).2, show win2_4.xsize (grid2.coords t2_9) 1 = 1 from by decide +kernel]; omega

end Region

end Cert.KernelIdeal.Val

end
-- ==== Proof.RefBridge.lean ====
/-
  The reference program, layer by layer, is the mathematics of the specification.

  Each graph-convolution layer of the reference multiplies the four hop tables (the layer's input, and one, two
  and three propagation hops of it) by the four 64 × 64 slices of the layer's weight array, adds the four products
  from the left, adds the bias, and applies the parametric rectifier. Read at an entry (n, j), each product is the
  sum over k of the hop table at (n, k) times the weight slice at (k, j); the slice and reshape in front of each
  product only move the index. The head adds rows into graph slots by graph id, multiplies by the output weights
  and adds the output bias.
-/
import proofs.«407303_j21680994910701_1_alg».proof.Proof.Hop
import proofs.«407303_j21680994910701_1_alg».proof.Proof.Spec
import proofs.«407303_j21680994910701_1_alg».proof.Proof.LibRowDims

noncomputable section

open scoped BigOperators

namespace Cert.Bridge

open Cert.ReferenceIdeal Cert.ReferenceIdeal.Gen Cert.ReferenceIdeal.Read Idealize.ShloMosaic Idealize.ShloMosaic.TcCoe
open Idealize.ShloMosaic.ValueIdx

variable (x0 : (⟨S50000x64, .f32⟩ : BufTy).Contents (Elt Ideal)) (x1 : (⟨S2x800000, .i32⟩ : BufTy).Contents (Elt Ideal))
  (x2 : (⟨S50000, .i32⟩ : BufTy).Contents (Elt Ideal))
  (x3 : (⟨S4x64x64, .f32⟩ : BufTy).Contents (Elt Ideal)) (x4 : (⟨S64, .f32⟩ : BufTy).Contents (Elt Ideal))
  (x5 : (⟨S4x64x64, .f32⟩ : BufTy).Contents (Elt Ideal)) (x6 : (⟨S64, .f32⟩ : BufTy).Contents (Elt Ideal))
  (x7 x8 : (⟨S1, .f32⟩ : BufTy).Contents (Elt Ideal))
  (x9 : (⟨S64x1, .f32⟩ : BufTy).Contents (Elt Ideal)) (x10 : (⟨S1, .f32⟩ : BufTy).Contents (Elt Ideal))

/-! ## Layer 0: where each operand of each product is read -/

/-- Product 0 reads its left operand at row `n`, contracted column `k`. -/
theorem lidx_v34 (n : Fin 50000) (j k : Fin 64) : lidx_main_v34 (ix2 n j) k = ix2 n k :=
  funext fun a => Fin.ext (by match a with | ⟨0, _⟩ => rfl | ⟨1, _⟩ => rfl)
/-- Product 0 reads its weight slice at contracted row `k`, column `j`. -/
theorem ridx_v34 (n : Fin 50000) (j k : Fin 64) : ridx_main_v34 (ix2 n j) k = ix2 k j :=
  funext fun a => Fin.ext (by match a with | ⟨0, _⟩ => rfl | ⟨1, _⟩ => rfl)
/-- Slice 0 of the weights, reshaped to a matrix: entry `(k, j)` of it is entry `(0, k, j)` of the weights
    (the flat position `64 k + j` of the matrix splits back into `k` and `j`). -/
theorem wslice_v33 (W : (⟨S4x64x64, .f32⟩ : BufTy).Contents (Elt Ideal)) (k j : Fin 64) :
    val_main_v33 (F := Ideal) W (ix2 k j) = W (ix3 0 k j) := by
  rw [val_main_v33_apply, val_main_v32_apply]
  congr 1
  funext a
  refine Fin.ext ?_
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- Product 1 reads its left operand at row `n`, contracted column `k`. -/
theorem lidx_v50 (n : Fin 50000) (j k : Fin 64) : lidx_main_v50 (ix2 n j) k = ix2 n k :=
  funext fun a => Fin.ext (by match a with | ⟨0, _⟩ => rfl | ⟨1, _⟩ => rfl)
/-- Product 1 reads its weight slice at contracted row `k`, column `j`. -/
theorem ridx_v50 (n : Fin 50000) (j k : Fin 64) : ridx_main_v50 (ix2 n j) k = ix2 k j :=
  funext fun a => Fin.ext (by match a with | ⟨0, _⟩ => rfl | ⟨1, _⟩ => rfl)
/-- Slice 1 of the weights, reshaped to a matrix: entry `(k, j)` of it is entry `(1, k, j)` of the weights
    (the flat position `64 k + j` of the matrix splits back into `k` and `j`). -/
theorem wslice_v49 (W : (⟨S4x64x64, .f32⟩ : BufTy).Contents (Elt Ideal)) (k j : Fin 64) :
    val_main_v49 (F := Ideal) W (ix2 k j) = W (ix3 1 k j) := by
  rw [val_main_v49_apply, val_main_v48_apply]
  congr 1
  funext a
  refine Fin.ext ?_
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- Product 2 reads its left operand at row `n`, contracted column `k`. -/
theorem lidx_v67 (n : Fin 50000) (j k : Fin 64) : lidx_main_v67 (ix2 n j) k = ix2 n k :=
  funext fun a => Fin.ext (by match a with | ⟨0, _⟩ => rfl | ⟨1, _⟩ => rfl)
/-- Product 2 reads its weight slice at contracted row `k`, column `j`. -/
theorem ridx_v67 (n : Fin 50000) (j k : Fin 64) : ridx_main_v67 (ix2 n j) k = ix2 k j :=
  funext fun a => Fin.ext (by match a with | ⟨0, _⟩ => rfl | ⟨1, _⟩ => rfl)
/-- Slice 2 of the weights, reshaped to a matrix: entry `(k, j)` of it is entry `(2, k, j)` of the weights
    (the flat position `64 k + j` of the matrix splits back into `k` and `j`). -/
theorem wslice_v66 (W : (⟨S4x64x64, .f32⟩ : BufTy).Contents (Elt Ideal)) (k j : Fin 64) :
    val_main_v66 (F := Ideal) W (ix2 k j) = W (ix3 2 k j) := by
  rw [val_main_v66_apply, val_main_v65_apply]
  congr 1
  funext a
  refine Fin.ext ?_
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- Product 3 reads its left operand at row `n`, contracted column `k`. -/
theorem lidx_v84 (n : Fin 50000) (j k : Fin 64) : lidx_main_v84 (ix2 n j) k = ix2 n k :=
  funext fun a => Fin.ext (by match a with | ⟨0, _⟩ => rfl | ⟨1, _⟩ => rfl)
/-- Product 3 reads its weight slice at contracted row `k`, column `j`. -/
theorem ridx_v84 (n : Fin 50000) (j k : Fin 64) : ridx_main_v84 (ix2 n j) k = ix2 k j :=
  funext fun a => Fin.ext (by match a with | ⟨0, _⟩ => rfl | ⟨1, _⟩ => rfl)
/-- Slice 3 of the weights, reshaped to a matrix: entry `(k, j)` of it is entry `(3, k, j)` of the weights
    (the flat position `64 k + j` of the matrix splits back into `k` and `j`). -/
theorem wslice_v83 (W : (⟨S4x64x64, .f32⟩ : BufTy).Contents (Elt Ideal)) (k j : Fin 64) :
    val_main_v83 (F := Ideal) W (ix2 k j) = W (ix3 3 k j) := by
  rw [val_main_v83_apply, val_main_v82_apply]
  congr 1
  funext a
  refine Fin.ext ?_
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- The bias, broadcast to a row and then to the table, is read at the column. -/
theorem bidx_v87 (n : Fin 50000) (j : Fin 64) : idx_main_v86 (idx_main_v87 (ix2 n j)) = ix1 j :=
  funext fun a => Fin.ext (by match a with | ⟨0, _⟩ => rfl)
/-- The slope, broadcast to one entry and then to the table, is read at its only entry. -/
theorem aidx_v92 (n : Fin 50000) (j : Fin 64) : idx_main_v91 (idx_main_v92 (ix2 n j)) = ix1 0 :=
  funext fun a => Fin.ext (by match a with | ⟨0, _⟩ => rfl)

/-- Layer 0 of the reference is the specification's layer over the input features and their three hops. -/
theorem layer0_eq : val_main_v94 (F := Ideal) x0 x1 x3 x4 x7 =
    Cert.Spec.layerArr' x0 (hop x1 x0) (hop x1 (hop x1 x0)) (hop x1 (hop x1 (hop x1 x0))) x3 x4 x7 := by
  funext i
  obtain ⟨n, j, rfl⟩ : ∃ (n : Fin 50000) (j : Fin 64), i = ix2 n j := ⟨i 0, i 1, eq_ix2 i⟩
  -- read the rectifier, the bias sum, the three sums of products and the four products at (n, j)
  simp only [val_main_v94_apply, val_main_v90_apply, val_main_v93_apply, val_main_v88_apply, val_main_v89_apply,
    val_main_cst_17_apply, val_main_v92_apply, val_main_v91_apply, val_main_v87_apply, val_main_v86_apply,
    val_main_v85_apply, val_main_v68_apply, val_main_v51_apply,
    val_main_v84_apply, val_main_v67_apply, val_main_v50_apply, val_main_v34_apply,
    lidx_v34, lidx_v50, lidx_v67, lidx_v84, ridx_v34, ridx_v50, ridx_v67, ridx_v84,
    wslice_v33, wslice_v49, wslice_v66, wslice_v83, bidx_v87, aidx_v92,
    v47_eq, v64_eq, v81_eq, Ideal.addf_def, Ideal.mulf_def, Ideal.ofBits_def]
  rfl

/-! ## Layer 1: where each operand of each product is read -/

/-- Product 0 reads its left operand at row `n`, contracted column `k`. -/
theorem lidx_v97 (n : Fin 50000) (j k : Fin 64) : lidx_main_v97 (ix2 n j) k = ix2 n k :=
  funext fun a => Fin.ext (by match a with | ⟨0, _⟩ => rfl | ⟨1, _⟩ => rfl)
/-- Product 0 reads its weight slice at contracted row `k`, column `j`. -/
theorem ridx_v97 (n : Fin 50000) (j k : Fin 64) : ridx_main_v97 (ix2 n j) k = ix2 k j :=
  funext fun a => Fin.ext (by match a with | ⟨0, _⟩ => rfl | ⟨1, _⟩ => rfl)
/-- Slice 0 of the weights, reshaped to a matrix: entry `(k, j)` of it is entry `(0, k, j)` of the weights
    (the flat position `64 k + j` of the matrix splits back into `k` and `j`). -/
theorem wslice_v96 (W : (⟨S4x64x64, .f32⟩ : BufTy).Contents (Elt Ideal)) (k j : Fin 64) :
    val_main_v96 (F := Ideal) W (ix2 k j) = W (ix3 0 k j) := by
  rw [val_main_v96_apply, val_main_v95_apply]
  congr 1
  funext a
  refine Fin.ext ?_
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- Product 1 reads its left operand at row `n`, contracted column `k`. -/
theorem lidx_v113 (n : Fin 50000) (j k : Fin 64) : lidx_main_v113 (ix2 n j) k = ix2 n k :=
  funext fun a => Fin.ext (by match a with | ⟨0, _⟩ => rfl | ⟨1, _⟩ => rfl)
/-- Product 1 reads its weight slice at contracted row `k`, column `j`. -/
theorem ridx_v113 (n : Fin 50000) (j k : Fin 64) : ridx_main_v113 (ix2 n j) k = ix2 k j :=
  funext fun a => Fin.ext (by match a with | ⟨0, _⟩ => rfl | ⟨1, _⟩ => rfl)
/-- Slice 1 of the weights, reshaped to a matrix: entry `(k, j)` of it is entry `(1, k, j)` of the weights
    (the flat position `64 k + j` of the matrix splits back into `k` and `j`). -/
theorem wslice_v112 (W : (⟨S4x64x64, .f32⟩ : BufTy).Contents (Elt Ideal)) (k j : Fin 64) :
    val_main_v112 (F := Ideal) W (ix2 k j) = W (ix3 1 k j) := by
  rw [val_main_v112_apply, val_main_v111_apply]
  congr 1
  funext a
  refine Fin.ext ?_
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- Product 2 reads its left operand at row `n`, contracted column `k`. -/
theorem lidx_v130 (n : Fin 50000) (j k : Fin 64) : lidx_main_v130 (ix2 n j) k = ix2 n k :=
  funext fun a => Fin.ext (by match a with | ⟨0, _⟩ => rfl | ⟨1, _⟩ => rfl)
/-- Product 2 reads its weight slice at contracted row `k`, column `j`. -/
theorem ridx_v130 (n : Fin 50000) (j k : Fin 64) : ridx_main_v130 (ix2 n j) k = ix2 k j :=
  funext fun a => Fin.ext (by match a with | ⟨0, _⟩ => rfl | ⟨1, _⟩ => rfl)
/-- Slice 2 of the weights, reshaped to a matrix: entry `(k, j)` of it is entry `(2, k, j)` of the weights
    (the flat position `64 k + j` of the matrix splits back into `k` and `j`). -/
theorem wslice_v129 (W : (⟨S4x64x64, .f32⟩ : BufTy).Contents (Elt Ideal)) (k j : Fin 64) :
    val_main_v129 (F := Ideal) W (ix2 k j) = W (ix3 2 k j) := by
  rw [val_main_v129_apply, val_main_v128_apply]
  congr 1
  funext a
  refine Fin.ext ?_
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- Product 3 reads its left operand at row `n`, contracted column `k`. -/
theorem lidx_v147 (n : Fin 50000) (j k : Fin 64) : lidx_main_v147 (ix2 n j) k = ix2 n k :=
  funext fun a => Fin.ext (by match a with | ⟨0, _⟩ => rfl | ⟨1, _⟩ => rfl)
/-- Product 3 reads its weight slice at contracted row `k`, column `j`. -/
theorem ridx_v147 (n : Fin 50000) (j k : Fin 64) : ridx_main_v147 (ix2 n j) k = ix2 k j :=
  funext fun a => Fin.ext (by match a with | ⟨0, _⟩ => rfl | ⟨1, _⟩ => rfl)
/-- Slice 3 of the weights, reshaped to a matrix: entry `(k, j)` of it is entry `(3, k, j)` of the weights
    (the flat position `64 k + j` of the matrix splits back into `k` and `j`). -/
theorem wslice_v146 (W : (⟨S4x64x64, .f32⟩ : BufTy).Contents (Elt Ideal)) (k j : Fin 64) :
    val_main_v146 (F := Ideal) W (ix2 k j) = W (ix3 3 k j) := by
  rw [val_main_v146_apply, val_main_v145_apply]
  congr 1
  funext a
  refine Fin.ext ?_
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

/-- The bias, broadcast to a row and then to the table, is read at the column. -/
theorem bidx_v150 (n : Fin 50000) (j : Fin 64) : idx_main_v149 (idx_main_v150 (ix2 n j)) = ix1 j :=
  funext fun a => Fin.ext (by match a with | ⟨0, _⟩ => rfl)
/-- The slope, broadcast to one entry and then to the table, is read at its only entry. -/
theorem aidx_v155 (n : Fin 50000) (j : Fin 64) : idx_main_v154 (idx_main_v155 (ix2 n j)) = ix1 0 :=
  funext fun a => Fin.ext (by match a with | ⟨0, _⟩ => rfl)

/-- Layer 1 of the reference is the specification's layer over layer 0's output and its three hops. -/
theorem layer1_eq : val_main_v157 (F := Ideal) x0 x1 x3 x4 x5 x6 x7 x8 =
    Cert.Spec.layerArr' (val_main_v94 (F := Ideal) x0 x1 x3 x4 x7) (hop x1 (val_main_v94 (F := Ideal) x0 x1 x3 x4 x7))
      (hop x1 (hop x1 (val_main_v94 (F := Ideal) x0 x1 x3 x4 x7)))
      (hop x1 (hop x1 (hop x1 (val_main_v94 (F := Ideal) x0 x1 x3 x4 x7)))) x5 x6 x8 := by
  funext i
  obtain ⟨n, j, rfl⟩ : ∃ (n : Fin 50000) (j : Fin 64), i = ix2 n j := ⟨i 0, i 1, eq_ix2 i⟩
  -- read the rectifier, the bias sum, the three sums of products and the four products at (n, j)
  simp only [val_main_v157_apply, val_main_v153_apply, val_main_v156_apply, val_main_v151_apply, val_main_v152_apply,
    val_main_cst_27_apply, val_main_v155_apply, val_main_v154_apply, val_main_v150_apply, val_main_v149_apply,
    val_main_v148_apply, val_main_v131_apply, val_main_v114_apply,
    val_main_v147_apply, val_main_v130_apply, val_main_v113_apply, val_main_v97_apply,
    lidx_v97, lidx_v113, lidx_v130, lidx_v147, ridx_v97, ridx_v113, ridx_v130, ridx_v147,
    wslice_v96, wslice_v112, wslice_v129, wslice_v146, bidx_v150, aidx_v155,
    v110_eq, v127_eq, v144_eq, Ideal.addf_def, Ideal.mulf_def, Ideal.ofBits_def]
  rfl

/-! ## The head: rows added into graph slots, times the output weights, plus the output bias -/

/-- The head's scatter is a row scatter-add into a table of 128 rows and 64 columns from 50000 update rows. -/
theorem scatter_head_eq : scatter_S128x64_S50000x1_S50000x64_1_0_0_1
    = RowDims.rowScatter 128 64 50000 Facts₀.scatter_S128x64_S50000x1_S50000x64_1_0_0_1_wf := rfl

/-- The graph ids, broadcast to a column, are read at the row. -/
theorem gidx_v159 (r : Fin 50000) : idx_main_v159 (ix2 r 0) = ix1 r :=
  funext fun a => Fin.ext (by match a with | ⟨0, _⟩ => rfl)

/-- The pooled table at slot `g`, feature `c`: the zero table's entry plus the sum of the rows whose id is `g`. -/
theorem pooled_at (g : Fin 128) (c : Fin 64) :
    val_main_v160 (F := Ideal) x0 x1 x2 x3 x4 x5 x6 x7 x8 (ix2 g c)
      = ∑ r : Fin 50000, if (x2 (ix1 r)).toInt = (g.val : Int)
          then val_main_v157 (F := Ideal) x0 x1 x3 x4 x5 x6 x7 x8 (ix2 r c) else 0 := by
  unfold val_main_v160 Host.scatterAdd
  rw [Ideal.hostScatterAdd_def, scatter_head_eq, RowDims.rowScatterAdd_apply]
  rw [val_main_v158_apply, val_main_cst_28_apply, Ideal.ofBits_def, Ideal.ofBits_zero_f32, zero_add]
  refine Finset.sum_congr rfl fun r _ => ?_
  rw [val_main_v159_apply, gidx_v159]

/-- The head's product reads the pooled table at slot `g`, contracted feature `k`. -/
theorem lidx_v161 (g : Fin 128) (k : Fin 64) : lidx_main_v161 (ix2 g 0) k = ix2 g k :=
  funext fun a => Fin.ext (by match a with | ⟨0, _⟩ => rfl | ⟨1, _⟩ => rfl)
/-- The head's product reads the output weights at contracted feature `k`, their only column. -/
theorem ridx_v161 (g : Fin 128) (k : Fin 64) : ridx_main_v161 (ix2 g 0) k = ix2 k 0 :=
  funext fun a => Fin.ext (by match a with | ⟨0, _⟩ => rfl | ⟨1, _⟩ => rfl)
/-- The output bias, broadcast to one entry and then to the column, is read at its only entry. -/
theorem oidx_v163 (g : Fin 128) : idx_main_v162 (idx_main_v163 (ix2 g 0)) = ix1 0 :=
  funext fun a => Fin.ext (by match a with | ⟨0, _⟩ => rfl)

/-- The head of the reference is the specification's pooled head over layer 1's output. -/
theorem head_eq : val_main_v164 (F := Ideal) x0 x1 x2 x3 x4 x5 x6 x7 x8 x9 x10 =
    Cert.Spec.headArr' x2 (val_main_v157 (F := Ideal) x0 x1 x3 x4 x5 x6 x7 x8) x9 x10 := by
  funext i
  -- the output is a column: its second coordinate is 0
  obtain ⟨g, rfl⟩ : ∃ g : Fin 128, i = ix2 g 0 :=
    ⟨i 0, (eq_ix2 i).trans (congrArg (ix2 (i 0)) (Fin.ext (by
      have h : (i 1).val < 1 := (i 1).isLt
      show (i 1).val = 0
      omega)))⟩
  simp only [val_main_v164_apply, val_main_v161_apply, val_main_v163_apply, val_main_v162_apply,
    lidx_v161, ridx_v161, oidx_v163, pooled_at, Ideal.addf_def]
  rfl

end Cert.Bridge

end
-- ==== Proof.KI.ValAll.lean ====
/- THE KERNEL'S VALUE of `proofs.«407303_j21680994910701_1_alg».proof.KernelIdeal` at the extended reals: the result array at the end of @main
   is the reference's last stage on the launch contents of the eleven arguments. The three regions' output arrays are
   read back in turn: each region's write-backs make the layer (the head) of its windows' arrays; the host stretches
   before it make those arrays the stacked hop tables of the previous stage's output, the weights, and the reshaped
   bias, slope and ids; the layer (the head) read through that layout is the one over the tables apart, which is the
   reference's stage. -/
import proofs.«407303_j21680994910701_1_alg».proof.Proof.KI.ValHost
import proofs.«407303_j21680994910701_1_alg».proof.Proof.KI.ValStack
import proofs.«407303_j21680994910701_1_alg».proof.Proof.KI.ValComb0
import proofs.«407303_j21680994910701_1_alg».proof.Proof.KI.ValComb1
import proofs.«407303_j21680994910701_1_alg».proof.Proof.KI.ValPool
import proofs.«407303_j21680994910701_1_alg».proof.Proof.RefBridge
import proofs.«407303_j21680994910701_1_alg».proof.Proof.Spec

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo
open Cert.Bridge (hop)

/-! # The kernel's value: the three regions' output arrays, read back to the reference's stages -/

open Cert.ReferenceIdeal.Read (val_main_v94 val_main_v157 val_main_v164)

/-- Equal operands give equal layer outputs. -/
theorem layerArr_congr {hs hs' : (⟨3, ![4, 50000, 64]⟩ : Shape).Idx → EReal} {W W' : (⟨3, ![4, 64, 64]⟩ : Shape).Idx → EReal}
    {b b' : (⟨2, ![1, 64]⟩ : Shape).Idx → EReal} {a a' : (⟨2, ![1, 1]⟩ : Shape).Idx → EReal}
    (e1 : hs = hs') (e2 : W = W') (e3 : b = b') (e4 : a = a') :
    Cert.Spec.layerArr hs W b a = Cert.Spec.layerArr hs' W' b' a' := by
  subst e1 e2 e3 e4; rfl
/-- Equal operands give equal head outputs. -/
theorem headArr_congr {ids ids' : IVec (⟨2, ![50000, 1]⟩ : Shape) 32} {h h' : (⟨2, ![50000, 64]⟩ : Shape).Idx → EReal}
    {w w' : (⟨2, ![64, 1]⟩ : Shape).Idx → EReal} {bo bo' : (⟨2, ![1, 1]⟩ : Shape).Idx → EReal}
    (e1 : ids = ids') (e2 : h = h') (e3 : w = w') (e4 : bo = bo') :
    Cert.Spec.headArr ids h w bo = Cert.Spec.headArr ids' h' w' bo' := by
  subst e1 e2 e3 e4; rfl

variable (m : (ℓ : Loc nD τ sig) → Buf (Elt Ideal) ℓ) (ρ : Dev nD → PrngReg) (c : Dev nD)

/-- Region 0's output array is the reference's first layer on the launch arguments: the region's write-backs make the
    layer of its four windows' arrays; those arrays are the stacked hop tables, the weights, and the bias and the
    slope reshaped; the layer read through that layout is the layer of the tables apart, which is the reference's. -/
theorem layer0_val :
    (W4 (F := Ideal) m ρ c (Proc.devRef .tc main_v78) : (⟨S50000x64, .f32⟩ : BufTy).Contents (Elt Ideal))
      = val_main_v94 (F := Ideal) (X0 m ρ c) (X1 m ρ c) (X3 m ρ c) (X4 m ρ c) (X7 m ρ c) :=
  (W4_arr m ρ c 4).trans <| (final0 (V3 m ρ) c).trans <|
    (layerArr_congr (V3_hstack m ρ c) (V3_W m ρ c) (V3_bias m ρ c) (V3_slope m ρ c)).trans <|
    (layerArr_stack _ _ _ _ _ _ _).trans (Cert.Bridge.layer0_eq _ _ _ _ _).symm

/-- Region 1's output array is the reference's second layer: the same over the first layer's output. -/
theorem layer1_val :
    (W6 (F := Ideal) m ρ c (Proc.devRef .tc main_v125) : (⟨S50000x64, .f32⟩ : BufTy).Contents (Elt Ideal))
      = val_main_v157 (F := Ideal) (X0 m ρ c) (X1 m ρ c) (X3 m ρ c) (X4 m ρ c) (X5 m ρ c) (X6 m ρ c) (X7 m ρ c) (X8 m ρ c) :=
  (W6_arr m ρ c 4).trans <| (final1 (V5 m ρ) c).trans <|
    (layerArr_congr (V5_hstack m ρ c _ (layer0_val m ρ c)) (V5_W m ρ c) (V5_bias m ρ c) (V5_slope m ρ c)).trans <|
    (layerArr_stack _ _ _ _ _ _ _).trans (Cert.Bridge.layer1_eq _ _ _ _ _ _ _ _).symm

/-- Region 2's output array is the reference's result: the pooled head of the second layer's output. -/
theorem kernel_val_args :
    (W8 (F := Ideal) m ρ c (Proc.devRef .tc main_v128) : (⟨S128x1, .f32⟩ : BufTy).Contents (Elt Ideal))
      = val_main_v164 (F := Ideal) (X0 m ρ c) (X1 m ρ c) (X2 m ρ c) (X3 m ρ c) (X4 m ρ c) (X5 m ρ c) (X6 m ρ c) (X7 m ρ c) (X8 m ρ c) (X9 m ρ c) (X10 m ρ c) :=
  (W8_arr m ρ c 4).trans <| (final2 (V7 m ρ) c).trans <|
    (headArr_congr (V7_ids m ρ c) ((V7_h m ρ c).trans (layer1_val m ρ c)) (V7_Wout m ρ c) (V7_bout m ρ c)).trans <|
    (headArr_col _ _ _ _).trans (Cert.Bridge.head_eq _ _ _ _ _ _ _ _ _ _ _).symm

/-- THE KERNEL'S VALUE: at the end of @main the result array holds the reference's last stage on the launch
    contents of the eleven arguments. -/
theorem kernel_val (m : (ℓ : Loc nD τ sig) → Buf (Elt Ideal) ℓ) (ρ : Dev nD → PrngReg) (c : Dev nD) :
    W8 (F := Ideal) m ρ c (Proc.devRef .tc main_v128)
      = Cert.ReferenceIdeal.Read.val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  kernel_val_args m ρ c

end Cert.KernelIdeal.Val

end
-- ==== Proof.RefValue.lean ====
/-
  The reference program run to its end: its 198 host operations are one straight line, every weakly fair execution
  of it terminates, and the final memory holds, in the result buffer, the last stage of the reference read one
  operation at a time — the function `val_main_v164` of the eleven argument arrays — and, in each argument's
  buffer, what was there at launch: no operation writes an argument.
-/
import proofs.«407303_j21680994910701_1_alg».proof.Proof.RefRun
import proofs.«407303_j21680994910701_1_alg».proof.Proof.RefRead

noncomputable section

namespace Cert.Bridge

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

variable {F : FTy → Type} [FloatOps F]

/-- Every buffer the reference's operations write: all of its buffers but the eleven arguments. -/
abbrev refWritten : List (Ref sig .tc) :=
  [main_v0, main_v1, main_v2, main_v3, main_cst, main_v4, main_c, main_v5, main_v6, main_c_0, main_v7, main_v8, main_v9, main_v10, main_cst_1, main_v11, main_v12, main_cst_2, main_v13, main_v14, main_v15, main_cst_3, main_call0_v0, main_call0_v1, main_v16, main_c_4, main_v17, main_v18, main_c_5, main_v19, main_v20, main_v21, main_v22, main_v23, main_c_6, main_v24, main_v25, main_c_7, main_v26, main_v27, main_v28, main_v29, main_v30, main_v31, main_v32, main_v33, main_v34, main_c_8, main_v35, main_v36, main_c_9, main_v37, main_v38, main_v39, main_v40, main_v41, main_v42, main_v43, main_v44, main_cst_10, main_v45, main_v46, main_v47, main_v48, main_v49, main_v50, main_v51, main_c_11, main_v52, main_v53, main_c_12, main_v54, main_v55, main_v56, main_v57, main_v58, main_v59, main_v60, main_v61, main_cst_13, main_v62, main_v63, main_v64, main_v65, main_v66, main_v67, main_v68, main_c_14, main_v69, main_v70, main_c_15, main_v71, main_v72, main_v73, main_v74, main_v75, main_v76, main_v77, main_v78, main_cst_16, main_v79, main_v80, main_v81, main_v82, main_v83, main_v84, main_v85, main_v86, main_v87, main_v88, main_cst_17, main_v89, main_v90, main_v91, main_v92, main_v93, main_v94, main_v95, main_v96, main_v97, main_c_18, main_v98, main_v99, main_c_19, main_v100, main_v101, main_v102, main_v103, main_v104, main_v105, main_v106, main_v107, main_cst_20, main_v108, main_v109, main_v110, main_v111, main_v112, main_v113, main_v114, main_c_21, main_v115, main_v116, main_c_22, main_v117, main_v118, main_v119, main_v120, main_v121, main_v122, main_v123, main_v124, main_cst_23, main_v125, main_v126, main_v127, main_v128, main_v129, main_v130, main_v131, main_c_24, main_v132, main_v133, main_c_25, main_v134, main_v135, main_v136, main_v137, main_v138, main_v139, main_v140, main_v141, main_cst_26, main_v142, main_v143, main_v144, main_v145, main_v146, main_v147, main_v148, main_v149, main_v150, main_v151, main_cst_27, main_v152, main_v153, main_v154, main_v155, main_v156, main_v157, main_cst_28, main_v158, main_v159, main_v160, main_v161, main_v162, main_v163, main_v164]

set_option maxRecDepth 16384 in
set_option maxHeartbeats 4000000 in
/-- Each operation writes one of those. -/
theorem ops_writes : (ops : List (HloOp τ sig (Elt F))).Forall fun op => op.writes ⊆ (refWritten.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- An argument's buffer after the operations holds its launch contents. -/
theorem ref_arg (m : (ℓ : Loc nD τ sig) → Buf (Elt F) ℓ) (c : Dev nD) (r : Ref sig .tc) (hr : r ∉ refWritten) :
    after (ops (F := F)) (launchContents m c) (Proc.devRef .tc r) = launchContents m c (Proc.devRef .tc r) :=
  after_of_writes_sub ops _ ops_writes hr

set_option maxRecDepth 16384 in
set_option maxHeartbeats 40000000 in
/-- The result buffer after the operations holds the last stage. -/
theorem ref_val (m : (ℓ : Loc nD τ sig) → Buf (Elt F) ℓ) (c : Dev nD) :
    after (ops (F := F)) (launchContents m c) (Proc.devRef .tc main_v164)
      = val_main_v164 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  after_results_simp
  rfl

/-- From any memory with zero counters every weakly fair execution of the reference terminates, with the result
    buffer at the last stage of the arguments' launch contents and every argument as launched. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164) = val_main_v164 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v164).trans (ref_val m c),
      (h c main_arg0).trans (ref_arg m c main_arg0 (by decide)),
      (h c main_arg1).trans (ref_arg m c main_arg1 (by decide)),
      (h c main_arg2).trans (ref_arg m c main_arg2 (by decide)),
      (h c main_arg3).trans (ref_arg m c main_arg3 (by decide)),
      (h c main_arg4).trans (ref_arg m c main_arg4 (by decide)),
      (h c main_arg5).trans (ref_arg m c main_arg5 (by decide)),
      (h c main_arg6).trans (ref_arg m c main_arg6 (by decide)),
      (h c main_arg7).trans (ref_arg m c main_arg7 (by decide)),
      (h c main_arg8).trans (ref_arg m c main_arg8 (by decide)),
      (h c main_arg9).trans (ref_arg m c main_arg9 (by decide)),
      (h c main_arg10).trans (ref_arg m c main_arg10 (by decide))⟩)
    (run_seq scopedRefs_eq scopedSems_eq defs main (fun _ => ops) main_eq (fun _ => ops_sub) m ρ)

end Cert.Bridge

end
-- ==== Proof.lean ====
/-
  The certificate of a two-layer graph convolution with a pooled linear head.

  The kernel program runs, between stretches of host operations (the edge weights, three propagation hops per layer,
  the hop features stacked), three pipelined kernels: the layer kernel twice — per block of 5000 rows the four hop
  features times the four weight slices, summed, biased, passed through the parametric rectifier — and the pooling
  kernel, which accumulates the rows of each graph into a scratch table over the ten blocks (each block's share a
  product with the rows' one-hot graph membership) and at the last block multiplies the pooled table by the output
  weights and adds the bias.  The reference computes the same with plain host operations: the layer as four matrix
  products added from the left, the pooling as a scatter-add by graph id.

  * The three frames: each program runs to the end without a fault and leaves its eleven argument arrays as they
    were (the kernel programs segment by segment — host stretch, region, host stretch, … —, each region from its
    kernel's body run at a grid point; the reference as one straight line of host operations).
  * The idealization rewrote nothing, so there is nothing to preserve.
  * At the extended reals both programs end with the same 128 numbers: the kernel's result array is read back
    through the three regions — the layer kernel's blocks tile the layer's output, whose entry (n, j) is the
    rectified sum of the four products; the pooling kernel's scratch after block t holds, at (g, c), the sum over the
    first 5000 (t + 1) rows whose graph id is g, so after the last block the whole scatter-add — and equals the
    reference's last stage.  Only commutative-monoid laws of the extended reals are used (a zero added from the
    left, a product with 0 or 1, a sum re-indexed), so the precondition is never opened.
-/
import proofs.«407303_j21680994910701_1_alg».proof.Defs
import proofs.«407303_j21680994910701_1_alg».proof.Proof.Gen.Kernel
import proofs.«407303_j21680994910701_1_alg».proof.Proof.Gen.KernelIdeal
import proofs.«407303_j21680994910701_1_alg».proof.Proof.Gen.ReferenceIdeal
import proofs.«407303_j21680994910701_1_alg».proof.Proof.Gen.Pre_finite_inputs
import proofs.«407303_j21680994910701_1_alg».proof.Proof.K.Run
import proofs.«407303_j21680994910701_1_alg».proof.Proof.KI.Run
import proofs.«407303_j21680994910701_1_alg».proof.Proof.KI.ValAll
import proofs.«407303_j21680994910701_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Bridge.ref_run (F := Ideal) m ρ)

/-- From memories that agree on the arguments both idealized programs end with the reference's last stage of those
    arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W8 (F := Ideal) m ρ c (Proc.devRef .tc Cert.KernelIdeal.main_v128),
    Cert.KernelIdeal.Hand.run_main (F := Ideal) m ρ, ?_⟩
  refine (θ_run Cert.ReferenceIdeal.defs _ _).mono (fun _ h c => ⟨(h c).1.trans ?_, (h c).2⟩)
    (Cert.Bridge.ref_run (F := Ideal) m' ρ')
  obtain ⟨h0, h1, h2, h3, h4, h5, h6, h7, h8, h9, h10⟩ := hagree c
  rw [h0, h1, h2, h3, h4, h5, h6, h7, h8, h9, h10]
  exact (Cert.KernelIdeal.Val.kernel_val m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
